-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_scale" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S8x2048x512 : Shape := ⟨3, ![8, 2048, 512]⟩
abbrev S8x2048x2048 : Shape := ⟨3, ![8, 2048, 2048]⟩
abbrev S1 : Shape := ⟨1, ![1]⟩
abbrev S32000x512 : Shape := ⟨2, ![32000, 512]⟩
abbrev S128x512 : Shape := ⟨2, ![128, 512]⟩
abbrev S512x512 : Shape := ⟨2, ![512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S32000x512 : S_.BroadcastsInDim S32000x512 (![] : Fin 0 → Fin S32000x512.rank)
  reducesTo_S32000x512_S_d0_1 : S32000x512.ReducesTo [0, 1] S_
  bcast_S_S128x512 : S_.BroadcastsInDim S128x512 (![] : Fin 0 → Fin S128x512.rank)
  reducesTo_S128x512_S_d0_1 : S128x512.ReducesTo [0, 1] S_
  bcast_S_S512x512 : S_.BroadcastsInDim S512x512 (![] : Fin 0 → Fin S512x512.rank)
  reducesTo_S512x512_S_d0_1 : S512x512.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part2 {F : FTy → Type} [FloatOps F] (main_arg1 : IVec S8x2048 32) (main_v30 : IVec S_ 1) (main_v32 : IVec S8x2048 1) (main_c_12 : IVec S_ 32) : IVec S_ 1 :=
  let main_v33 : IVec S8x2048 32 := broadcastInDim S8x2048 ![] bcast_S_S8x2048 main_c_12
  let main_v34 : IVec S8x2048 1 := cmpi .slt main_arg1 main_v33
  let main_v35 : IVec S8x2048 1 := andi main_v32 main_v34
  let main_c_13 : IVec S_ 1 := constantI S_ 1 1#1
  let main_v36 : IVec S_ 1 := (fun x v => Host.reduce IntOp.andi x v reducesTo_S8x2048_S_d0_1 h_S_) main_v35 main_c_13
  let main_v37 : IVec S_ 1 := andi main_v30 main_v36
  main_v37

def fn_part1 {F : FTy → Type} [FloatOps F] (main_arg0 : IVec S8x2048 32) (main_arg1 : IVec S8x2048 32) (main_arg7 : FVec F S512x512 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512x512 .f32 := Host.absf main_arg7
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_c_8 : IVec S_ 32 := constantI S_ 32 0#32
  let main_v24 : IVec S8x2048 32 := broadcastInDim S8x2048 ![] bcast_S_S8x2048 main_c_8
  let main_v25 : IVec S8x2048 1 := cmpi .sge main_arg0 main_v24
  let main_c_9 : IVec S_ 32 := constantI S_ 32 32000#32
  let main_v26 : IVec S8x2048 32 := broadcastInDim S8x2048 ![] bcast_S_S8x2048 main_c_9
  let main_v27 : IVec S8x2048 1 := cmpi .slt main_arg0 main_v26
  let main_v28 : IVec S8x2048 1 := andi main_v25 main_v27
  let main_c_10 : IVec S_ 1 := constantI S_ 1 1#1
  let main_v29 : IVec S_ 1 := (fun x v => Host.reduce IntOp.andi x v reducesTo_S8x2048_S_d0_1 h_S_) main_v28 main_c_10
  let main_v30 : IVec S_ 1 := andi main_v23 main_v29
  let main_c_11 : IVec S_ 32 := constantI S_ 32 0#32
  let main_v31 : IVec S8x2048 32 := broadcastInDim S8x2048 ![] bcast_S_S8x2048 main_c_11
  let main_v32 : IVec S8x2048 1 := cmpi .sge main_arg1 main_v31
  let main_c_12 : IVec S_ 32 := constantI S_ 32 128#32
  fn_part2 (F := F) main_arg1 main_v30 main_v32 main_c_12

def fn {F : FTy → Type} [FloatOps F] (main_arg0 : IVec S8x2048 32) (main_arg1 : IVec S8x2048 32) (main_arg2 : FVec F S8x2048x512 .f32) (main_arg3 : FVec F S8x2048x2048 .f32) (main_arg4 : IVec S1 32) (main_arg5 : FVec F S32000x512 .f32) (main_arg6 : FVec F S128x512 .f32) (main_arg7 : FVec F S512x512 .f32) : IVec S_ 1 :=
  let main_v0 : FVec F S8x2048x512 .f32 := Host.absf main_arg2
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x2048 .f32 := Host.absf main_arg3
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S32000x512 .f32 := Host.absf main_arg5
  let main_cst_2 : FVec F S_ .f32 := constant S_ .f32 0x7F800000#32
  let main_v10 : FVec F S32000x512 .f32 := broadcastInDim S32000x512 ![] bcast_S_S32000x512 main_cst_2
  let main_v11 : IVec S32000x512 1 := cmpf .olt main_v9 main_v10
  let main_c_3 : IVec S_ 1 := constantI S_ 1 1#1
  let main_v12 : IVec S_ 1 := (fun x v => Host.reduce IntOp.andi x v reducesTo_S32000x512_S_d0_1 h_S_) main_v11 main_c_3
  let main_v13 : IVec S_ 1 := andi main_v8 main_v12
  let main_v14 : FVec F S128x512 .f32 := Host.absf main_arg6
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg0 main_arg1 main_arg7 main_v13 main_v16
-- ==== Kernel.lean ====
abbrev S8x2048 : Shape := ⟨2, ![8, 2048]⟩
abbrev S8x2048x512 : Shape := ⟨3, ![8, 2048, 512]⟩
abbrev S8x2048x2048 : Shape := ⟨3, ![8, 2048, 2048]⟩
abbrev S1 : Shape := ⟨1, ![1]⟩
abbrev S32000x512 : Shape := ⟨2, ![32000, 512]⟩
abbrev S128x512 : Shape := ⟨2, ![128, 512]⟩
abbrev S512x512 : Shape := ⟨2, ![512, 512]⟩
abbrev S_ : Shape := ⟨0, ![]⟩
abbrev S8x2048x1 : Shape := ⟨3, ![8, 2048, 1]⟩
abbrev S1x1x1 : Shape := ⟨3, ![1, 1, 1]⟩
abbrev S16384x512 : Shape := ⟨2, ![16384, 512]⟩
abbrev S2048x512 : Shape := ⟨2, ![2048, 512]⟩
abbrev S1x512x512 : Shape := ⟨3, ![1, 512, 512]⟩
abbrev S512x1 : Shape := ⟨2, ![512, 1]⟩
abbrev S512 : Shape := ⟨1, ![512]⟩

abbrev nBuf : Space → Nat
  | .hbm => 58
  | .vmem => 17
  | .smem => 0
  | _ => 0

abbrev bufTy : (tb : Table) → Fin (tcTables nBuf tb) → BufTy
  | .hbm, ⟨0, _⟩ => ⟨S8x2048, .i32⟩
  | .hbm, ⟨1, _⟩ => ⟨S8x2048, .i32⟩
  | .hbm, ⟨2, _⟩ => ⟨S8x2048x512, .f32⟩
  | .hbm, ⟨3, _⟩ => ⟨S8x2048x2048, .f32⟩
  | .hbm, ⟨4, _⟩ => ⟨S1, .i32⟩
  | .hbm, ⟨5, _⟩ => ⟨S32000x512, .f32⟩
  | .hbm, ⟨6, _⟩ => ⟨S128x512, .f32⟩
  | .hbm, ⟨7, _⟩ => ⟨S512x512, .f32⟩
  | .hbm, ⟨8, _⟩ => ⟨S_, .i32⟩
  | .hbm, ⟨9, _⟩ => ⟨S8x2048, .i32⟩
  | .hbm, ⟨10, _⟩ => ⟨S8x2048, .i1⟩
  | .hbm, ⟨11, _⟩ => ⟨S_, .i32⟩
  | .hbm, ⟨12, _⟩ => ⟨S8x2048, .i32⟩
  | .hbm, ⟨13, _⟩ => ⟨S8x2048, .i32⟩
  | .hbm, ⟨14, _⟩ => ⟨S8x2048, .i32⟩
  | .hbm, ⟨15, _⟩ => ⟨S8x2048x1, .i32⟩
  | .hbm, ⟨16, _⟩ => ⟨S1, .i32⟩
  | .hbm, ⟨17, _⟩ => ⟨S_, .i32⟩
  | .hbm, ⟨18, _⟩ => ⟨S8x2048x1, .i32⟩
  | .hbm, ⟨19, _⟩ => ⟨S8x2048x1, .i1⟩
  | .hbm, ⟨20, _⟩ => ⟨S1x1x1, .i32⟩
  | .hbm, ⟨21, _⟩ => ⟨S8x2048x1, .i32⟩
  | .hbm, ⟨22, _⟩ => ⟨S8x2048x1, .i1⟩
  | .hbm, ⟨23, _⟩ => ⟨S8x2048x1, .i1⟩
  | .hbm, ⟨24, _⟩ => ⟨S_, .i1⟩
  | .hbm, ⟨25, _⟩ => ⟨S8x2048, .i1⟩
  | .hbm, ⟨26, _⟩ => ⟨S8x2048x512, .f32⟩
  | .hbm, ⟨27, _⟩ => ⟨S8x2048x512, .i1⟩
  | .hbm, ⟨28, _⟩ => ⟨S_, .f32⟩
  | .hbm, ⟨29, _⟩ => ⟨S8x2048x512, .f32⟩
  | .hbm, ⟨30, _⟩ => ⟨S8x2048x512, .f32⟩
  | .hbm, ⟨31, _⟩ => ⟨S_, .i32⟩
  | .hbm, ⟨32, _⟩ => ⟨S8x2048, .i32⟩
  | .hbm, ⟨33, _⟩ => ⟨S8x2048, .i1⟩
  | .hbm, ⟨34, _⟩ => ⟨S_, .i32⟩
  | .hbm, ⟨35, _⟩ => ⟨S8x2048, .i32⟩
  | .hbm, ⟨36, _⟩ => ⟨S8x2048, .i32⟩
  | .hbm, ⟨37, _⟩ => ⟨S8x2048, .i32⟩
  | .hbm, ⟨38, _⟩ => ⟨S8x2048x1, .i32⟩
  | .hbm, ⟨39, _⟩ => ⟨S1, .i32⟩
  | .hbm, ⟨40, _⟩ => ⟨S_, .i32⟩
  | .hbm, ⟨41, _⟩ => ⟨S8x2048x1, .i32⟩
  | .hbm, ⟨42, _⟩ => ⟨S8x2048x1, .i1⟩
  | .hbm, ⟨43, _⟩ => ⟨S1x1x1, .i32⟩
  | .hbm, ⟨44, _⟩ => ⟨S8x2048x1, .i32⟩
  | .hbm, ⟨45, _⟩ => ⟨S8x2048x1, .i1⟩
  | .hbm, ⟨46, _⟩ => ⟨S8x2048x1, .i1⟩
  | .hbm, ⟨47, _⟩ => ⟨S_, .i1⟩
  | .hbm, ⟨48, _⟩ => ⟨S8x2048, .i1⟩
  | .hbm, ⟨49, _⟩ => ⟨S8x2048x512, .f32⟩
  | .hbm, ⟨50, _⟩ => ⟨S8x2048x512, .i1⟩
  | .hbm, ⟨51, _⟩ => ⟨S_, .f32⟩
  | .hbm, ⟨52, _⟩ => ⟨S8x2048x512, .f32⟩
  | .hbm, ⟨53, _⟩ => ⟨S8x2048x512, .f32⟩
  | .hbm, ⟨54, _⟩ => ⟨S16384x512, .f32⟩
  | .hbm, ⟨55, _⟩ => ⟨S16384x512, .f32⟩
  | .hbm, ⟨56, _⟩ => ⟨S8x2048x512, .f32⟩
  | .hbm, ⟨57, _⟩ => ⟨S8x2048x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S512x512, .f32⟩
  | .local _ .vmem, ⟨16, _⟩ => ⟨S512x1, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v38 : BitVec 1 := Scalar.cmpi .eq arg2 c3_i32
  let v39 : BitVec 32 := Scalar.extui v38
  let c0_i32_25 : BitVec 32 := 0#32
  let v40 : BitVec 1 := Scalar.cmpi .ne v39 c0_i32_25
  v40

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x512_0_1 : S8x2048.BroadcastsInDim S8x2048x512 (![0, 1] : Fin 2 → Fin S8x2048x512.rank)
  bcast_S_S8x2048x512 : S_.BroadcastsInDim S8x2048x512 (![] : Fin 0 → Fin S8x2048x512.rank)
  shapeCasts_S8x2048x512_S16384x512 : S8x2048x512.ShapeCasts S16384x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S16384x512_S8x2048x512 : S16384x512.ShapeCasts S8x2048x512
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  gather_S32000x512_S8x2048x1_S8x2048x512_2_0_n_n_0_2_1512_wf : GatherDims.WF S32000x512 S8x2048x1 S8x2048x512 [2] [0] [] [0] [] 2 ![1, 512]
  gather_S128x512_S8x2048x1_S8x2048x512_2_0_n_n_0_2_1512_wf : GatherDims.WF S128x512 S8x2048x1 S8x2048x512 [2] [0] [] [0] [] 2 ![1, 512]
  dot_S2048x512_S512x512_S2048x512_1_0_0_1_n_n_wf : DotDims.WF S2048x512 S512x512 S2048x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x512.size a
  hwx0_2 : ∀ i : grid0.Coords, EltTy.bits .f32 = 32 ∨ (Rect.block (s := S16384x512) S2048x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x2048x512.size a
  hwx1_0 : ∀ i : grid1.Coords, EltTy.bits .f32 = 32 ∨ (Rect.block (s := S8x2048x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S8x2048x512.size a
  hwx1_1 : ∀ i : grid1.Coords, EltTy.bits .f32 = 32 ∨ (Rect.block (s := S8x2048x512) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S8x2048x512.size a
  hwx1_2 : ∀ i : grid1.Coords, EltTy.bits .f32 = 32 ∨ (Rect.block (s := S8x2048x512) S1x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S8x2048x2048.size a
  hwx1_3 : ∀ i : grid1.Coords, EltTy.bits .f32 = 32 ∨ (Rect.block (s := S8x2048x2048) S1x512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S8x2048x512.size a
  hwx1_4 : ∀ i : grid1.Coords, EltTy.bits .f32 = 32 ∨ (Rect.block (s := S8x2048x512) S1x512x512.size (cc1_transform_4 i) (hinb1_4 i)).WholeWords (EltTy.packing .f32)

variable [Facts₀]

def gather_S32000x512_S8x2048x1_S8x2048x512_2_0_n_n_0_2_1512 : GatherDims S32000x512 S8x2048x1 S8x2048x512 where
  offsetDims := [2]
  collapsedSliceDims := [0]
  operandBatchingDims := []
  startIndicesBatchingDims := []
  startIndexMap := [0]
  indexVectorDim := 2
  sliceSizes := ![1, 512]
  wf := gather_S32000x512_S8x2048x1_S8x2048x512_2_0_n_n_0_2_1512_wf
def gather_S128x512_S8x2048x1_S8x2048x512_2_0_n_n_0_2_1512 : GatherDims S128x512 S8x2048x1 S8x2048x512 where
  offsetDims := [2]
  collapsedSliceDims := [0]
  operandBatchingDims := []
  startIndicesBatchingDims := []
  startIndexMap := [0]
  indexVectorDim := 2
  sliceSizes := ![1, 512]
  wf := gather_S128x512_S8x2048x1_S8x2048x512_2_0_n_n_0_2_1512_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x2048 : Shape := ⟨2, ![8, 2048]⟩
abbrev S8x2048x512 : Shape := ⟨3, ![8, 2048, 512]⟩
abbrev S8x2048x2048 : Shape := ⟨3, ![8, 2048, 2048]⟩
abbrev S1 : Shape := ⟨1, ![1]⟩
abbrev S32000x512 : Shape := ⟨2, ![32000, 512]⟩
abbrev S128x512 : Shape := ⟨2, ![128, 512]⟩
abbrev S512x512 : Shape := ⟨2, ![512, 512]⟩
abbrev S_ : Shape := ⟨0, ![]⟩
abbrev S8x2048x1 : Shape := ⟨3, ![8, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S8x2048, .i32⟩
  | .hbm, ⟨2, _⟩ => ⟨S8x2048x512, .f32⟩
  | .hbm, ⟨3, _⟩ => ⟨S8x2048x2048, .f32⟩
  | .hbm, ⟨4, _⟩ => ⟨S1, .i32⟩
  | .hbm, ⟨5, _⟩ => ⟨S32000x512, .f32⟩
  | .hbm, ⟨6, _⟩ => ⟨S128x512, .f32⟩
  | .hbm, ⟨7, _⟩ => ⟨S512x512, .f32⟩
  | .hbm, ⟨8, _⟩ => ⟨S_, .i32⟩
  | .hbm, ⟨9, _⟩ => ⟨S8x2048, .i32⟩
  | .hbm, ⟨10, _⟩ => ⟨S8x2048, .i1⟩
  | .hbm, ⟨11, _⟩ => ⟨S_, .i32⟩
  | .hbm, ⟨12, _⟩ => ⟨S8x2048, .i32⟩
  | .hbm, ⟨13, _⟩ => ⟨S8x2048, .i32⟩
  | .hbm, ⟨14, _⟩ => ⟨S8x2048, .i32⟩
  | .hbm, ⟨15, _⟩ => ⟨S8x2048x1, .i32⟩
  | .hbm, ⟨16, _⟩ => ⟨S8x2048x512, .f32⟩
  | .hbm, ⟨17, _⟩ => ⟨S_, .i32⟩
  | .hbm, ⟨18, _⟩ => ⟨S8x2048, .i32⟩
  | .hbm, ⟨19, _⟩ => ⟨S8x2048, .i1⟩
  | .hbm, ⟨20, _⟩ => ⟨S_, .i32⟩
  | .hbm, ⟨21, _⟩ => ⟨S8x2048, .i32⟩
  | .hbm, ⟨22, _⟩ => ⟨S8x2048, .i32⟩
  | .hbm, ⟨23, _⟩ => ⟨S8x2048, .i32⟩
  | .hbm, ⟨24, _⟩ => ⟨S8x2048x1, .i32⟩
  | .hbm, ⟨25, _⟩ => ⟨S8x2048x512, .f32⟩
  | .hbm, ⟨26, _⟩ => ⟨S8x2048x512, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S8x2048x512, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  gather_S32000x512_S8x2048x1_S8x2048x512_2_0_n_n_0_2_1512_wf : GatherDims.WF S32000x512 S8x2048x1 S8x2048x512 [2] [0] [] [0] [] 2 ![1, 512]
  gather_S128x512_S8x2048x1_S8x2048x512_2_0_n_n_0_2_1512_wf : GatherDims.WF S128x512 S8x2048x1 S8x2048x512 [2] [0] [] [0] [] 2 ![1, 512]
  dot_S8x2048x512_S512x512_S8x2048x512_2_0_01_1_n_n_wf : DotDims.WF S8x2048x512 S512x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def gather_S32000x512_S8x2048x1_S8x2048x512_2_0_n_n_0_2_1512 : GatherDims S32000x512 S8x2048x1 S8x2048x512 where
  offsetDims := [2]
  collapsedSliceDims := [0]
  operandBatchingDims := []
  startIndicesBatchingDims := []
  startIndexMap := [0]
  indexVectorDim := 2
  sliceSizes := ![1, 512]
  wf := gather_S32000x512_S8x2048x1_S8x2048x512_2_0_n_n_0_2_1512_wf
def gather_S128x512_S8x2048x1_S8x2048x512_2_0_n_n_0_2_1512 : GatherDims S128x512 S8x2048x1 S8x2048x512 where
  offsetDims := [2]
  collapsedSliceDims := [0]
  operandBatchingDims := []
  startIndicesBatchingDims := []
  startIndexMap := [0]
  indexVectorDim := 2
  sliceSizes := ![1, 512]
  wf := gather_S128x512_S8x2048x1_S8x2048x512_2_0_n_n_0_2_1512_wf
def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Kernel.Data.lean ====
/-
  What the two kernel regions hold and leave, stated at a parameter V: the contents of the TensorCore's buffers when
  a region is entered.

  Region 0 (the projection) has windows 0 (a block of 2048 rows of the flattened hidden array), 1 (the whole weight)
  and 2 (the matching 2048 rows of the result). At a grid point its body stores into window 2's block the product of
  window 0's block with window 1's.

  Region 1 (the attention) runs over grid points (b, qi, ki), ki fastest, with windows 0 (query rows of tile qi),
  1 and 2 (key and value rows of tile ki), 3 (the mask tile (qi, ki)) and 4 (the result rows of tile qi), and two
  scratch accumulators carried from point to point: at ki = 0 both are reset to zero, at every point the weighted
  values of the key tile are added to the first and the weights' row sums to the second, and at ki = 3 the quotient
  of the two is stored into window 4's block.
-/
import proofs.«420923_j80255758893374_1_alg».proof.Proof.Gen.Kernel.Launch
import proofs.«420923_j80255758893374_1_alg».proof.Proof.Gen.Kernel.Skeleton
import proofs.«420923_j80255758893374_1_alg».proof.Proof.Gen.Kernel.Points
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What region 0's body leaves in the result window's block at point t: the product of the two input blocks. -/
def projOut (c : Dev nD) (t : Fin cfg0.N) : Vec F S2048x512 .f32 :=
  k0_pay1 (iblk0 V c 0 t) (iblk0 V c 1 t)

/-- Region 0's proof data: the arrays as the region finds them; after the body each input's buffer at its block and the
    result's at the product; the invariant that of a body using no scratch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projOut V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projOut V c t := by dsimp only [dat0]

/-! ## Region 1 -/

/-- Window w's block at point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the two accumulators (weighted values, weights' row sums) from what they held. -/
def stepAcc (c : Dev nD) (t : Fin cfg1.N) (p : Vec F S512x512 .f32 × Vec F S512x1 .f32) : Vec F S512x512 .f32 × Vec F S512x1 .f32 :=
  (k1_pay1 (k1_pay5 (iblk1 V c 2 t)) (k1_pay6 (iblk1 V c 0 t) (iblk1 V c 1 t) (iblk1 V c 3 t)) p.1,
   k1_pay7 (iblk1 V c 0 t) (iblk1 V c 1 t) (iblk1 V c 3 t) p.2)

/-- The two accumulators after point n: reset to zero before the update at the points with ki = 0 (n divisible by 4),
    carried over from the point before otherwise. -/
def scratchAt (c : Dev nD) : (n : ℕ) → n < cfg1.N → Vec F S512x512 .f32 × Vec F S512x1 .f32
  | 0, h => stepAcc V c ⟨0, h⟩ (k1_pay3 (F := F), k1_pay4 (F := F))
  | n + 1, h => stepAcc V c ⟨n + 1, h⟩
      (if (n + 1) % 4 = 0 then (k1_pay3 (F := F), k1_pay4 (F := F)) else scratchAt c n (Nat.lt_of_succ_lt h))

/-- What region 1's body stores into the result window's block at a point with ki = 3: the quotient of the accumulators. -/
def outAt (c : Dev nD) (t : Fin cfg1.N) : Vec F S1x512x512 .f32 :=
  k1_pay2 (scratchAt V c t.val t.isLt).1 (scratchAt V c t.val t.isLt).2

/-- The two scratch accumulators as whole memrefs. -/
abbrev scM1_0 : Memref sig .tc .vmem S512x512 .f32 := Memref.whole cc1_scratch0
abbrev scM1_1 : Memref sig .tc .vmem S512x1 .f32 := Memref.whole cc1_scratch1

/-- Region 0's staging buffers, which region 1 never touches: each held whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Region 1's invariant before point n: before the first point the scoped buffers that are no staging buffer of the
    region at some contents and the generator register at some state; after point n - 1 the same with the two
    accumulators at what that point left. -/
def PhiS1 (c : Dev nD) : (n : ℕ) → n ≤ cfg1.N → sProp 𝕄
  | 0, _ => Pipeline.ΦA spec1 c
  | n + 1, hn => iprop(otherScoped (F := F) c
      ∗ owns (c : Thread nD τ) scM1_0 fullShare (scratchAt V c n hn).1
      ∗ owns (c : Thread nD τ) scM1_1 fullShare (scratchAt V c n hn).2
      ∗ (∃ r, prngReg c r))

/-- Region 1's proof data: the arrays as the region finds them; after the body each input's buffer at its block and the
    result's at the accumulators' quotient (read only at the points with ki = 3, where the block is written back); the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]
theorem Phi1_eq (c : Dev nD) (t : Fin (cfg1.N + 1)) : (dat1 V c).Φ t = PhiS1 V c t.val (Nat.le_of_lt_succ t.isLt) := rfl

end Cert.Kernel.Hand

end
-- ==== Proof.Kernel.Entry.lean ====
/-
  The contents of the TensorCore's buffers when each kernel region is entered, along the program: region 0 after the
  three host stretches (the two row lookups and the flattening of the hidden array), region 1 after region 0 and the
  host line that gives its result the shape (batch, row, feature). What a region leaves in its result array is what
  its write-backs leave (the library's arrAt at the grid's last point): OutsOK says so of a family outs of contents.
-/
import proofs.«420923_j80255758893374_1_alg».proof.Proof.Gen.Kernel.Regions
import proofs.«420923_j80255758893374_1_alg».proof.Proof.Kernel.Data

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers' contents when region 0 is entered. -/
abbrev VR0 : (c : Dev nD) → (b : Ref sig .tc) → Buf (Elt F) ((c : Thread nD τ).loc b) := fun c b => Gen.V3 m c b

/-- The buffers' contents when region 1 is entered, given what the regions leave. -/
abbrev VR1 (outs : Gen.Outs (F := F)) : (c : Dev nD) → (b : Ref sig .tc) → Buf (Elt F) ((c : Thread nD τ).loc b) :=
  fun c b => Gen.V5 m outs c b

/-- The family outs names what the regions leave: region 0's result array after its eight write-backs, region 1's
    after its write-backs at the points with ki = 3. -/
structure OutsOK (outs : Gen.Outs (F := F)) : Prop where
  region0 : ∀ c : Dev nD, outs 4 main_v3 c = (dat0 (VR0 m) c).arrAt 2 cfg0.N
  region1 : ∀ c : Dev nD, outs 6 main_v5 c = (dat1 (VR1 m outs) c).arrAt 4 cfg1.N

end Cert.Kernel.Hand

end
-- ==== Proof.Kernel.Proj.lean ====
/-
  Region 0's body obligation.

  At a grid point the body reads the whole of the hidden block (2048 rows) and the whole weight, reads the result
  block without using what it read, and overwrites the whole result block with the product of the two, rounded as the
  kernel rounds it. So, holding the two input buffers at the blocks the arrays have there and the result buffer at
  anything, it leaves the inputs as they were and the result buffer at that product. The two inputs' buffers do hold
  their blocks at every point: the hidden block is brought in at every point, the weight at the first point only,
  and its block index never moves afterwards.
-/
import proofs.«420923_j80255758893374_1_alg».proof.Proof.Kernel.Data
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks -/

/-- The hidden window's buffer holds the block of the hidden array at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's buffer holds the weight at every point, brought in there or not: its block index is the same
    at all points. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's accesses: each is the whole of its buffer -/

theorem offZero : (![0, 0] : Fin 2 → Nat) = fun _ => 0 := funext fun a => by fin_cases a <;> rfl

abbrev rHid : Rect S2048x512 := Rect.unit (s := S2048x512) ![0, 0] S2048x512.size inb_S2048x512_S2048x512_0_0
abbrev rWgt : Rect S512x512 := Rect.unit (s := S512x512) ![0, 0] S512x512.size inb_S512x512_S512x512_0_0

/-- The result buffer after the body's one store, as the list of its stores. -/
def storedOut (x0 : Vec F S2048x512 .f32) (x1 : Vec F S512x512 .f32) : Vec F S2048x512 .f32 :=
  View.canon [⟨rHid, k0_pay1 (View.ld x0 rHid) (View.ld x1 rWgt)⟩]

/-- The one store covers the buffer. -/
theorem coverOut (p0 : Vec F S2048x512 .f32) (y : S2048x512.Idx) :
    ∃ pc ∈ ([⟨rHid, p0⟩] : List (View.Piece (Elt F) S2048x512 .f32)), y ∈ pc.1.set :=
  ⟨_, List.mem_singleton_self _, View.mem_set_unit_zero offZero inb_S2048x512_S2048x512_0_0 y⟩

/-- A whole-buffer store of a payload of whole-buffer loads leaves the payload of the buffers' contents. -/
theorem storedOut_eq (x0 : Vec F S2048x512 .f32) (x1 : Vec F S512x512 .f32) : storedOut x0 x1 = k0_pay1 x0 x1 := by
  unfold storedOut
  rw [View.canon_unit_zero offZero, View.ld_unit_zero (S := S2048x512) offZero, View.ld_unit_zero (S := S512x512) offZero]

/-! ## The body's triple -/

set_option maxHeartbeats 1000000 in
/-- The body on whole buffers, the inputs' at x0 and x1 and the result's at anything, runs to the continuation holding
    the inputs' as they were and the result's at the product of x0 and x1. -/
theorem sound_kernel0 (c : Dev nD) (E : Set ℕ) (i : grid0.Coords)
    (arg1 : Memref sig .tc .vmem S2048x512 .f32) (harg1 : arg1.IsWhole)
    (arg2 : Memref sig .tc .vmem S512x512 .f32) (harg2 : arg2.IsWhole)
    (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine Eq.trans ?_ (storedOut_eq _ _)
  exact View.read_writes_eq_canon _ _ _ (coverOut _)

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple above applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold projOut
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.AttnRuns.lean ====
/-
  The attention body run whole, in each of its three control cases, on any whole memrefs: the four input blocks are
  handed back as they were; the two accumulators end at the point's update of what they held (of zero in the case that
  resets them first); the result block is stored, at the quotient of the updated accumulators, only in the last case,
  and handed back untouched in the other two.
    case A: ki = 0 (the reset is taken, the final store is not)
    case B: 0 < ki < 3 (neither)
    case C: ki = 3 (the final store is taken, the reset is not)
-/
import proofs.«420923_j80255758893374_1_alg».proof.Proof.Kernel.Data
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset's condition, from the grid coordinates. -/
abbrev cond1_0 (i : grid1.Coords) : Prop := (Scalar.cmpi .ne (Scalar.extui (Scalar.cmpi .eq (BitVec.ofNat 32 (i 2).val) 0#32)) 0#32) = 1#1
/-- The final store's condition, from the grid coordinates. -/
abbrev cond1_1 (i : grid1.Coords) : Prop := k1_cond2 i = 1#1

/-- The reset is taken at the points divisible by 4. -/
theorem hcond1_0 : ∀ t : Fin cfg1.N, cond1_0 (grid1.coords t) ↔ t.val % 4 = 0 :=
  (by decide +kernel : ∀ t : Fin grid1.N, cond1_0 (grid1.coords t) ↔ t.val % 4 = 0)
/-- The final store is taken at the points that are 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

/-- The origin of a two-axis shape, spelt as a literal vector, is the zero offset. -/
private theorem hz2 : (![0, 0] : Fin 2 → Nat) = fun _ => 0 := funext fun a => by fin_cases a <;> rfl
/-- The same for three axes. -/
private theorem hz3 : (![0, 0, 0] : Fin 3 → Nat) = fun _ => 0 := funext fun a => by fin_cases a <;> rfl

/-- A buffer whose last store went through the whole-shape rectangle reads as that store's payload, whatever it
    held before and whatever the earlier stores were. -/
private theorem read_last_store {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hz inb y⟩),
    View.canon_cons_unit_zero hz]

set_option maxHeartbeats 1000000 in
theorem runA (c : Dev nD) (i : grid1.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S512x512 .f32) (harg8 : arg8.IsWhole) (arg9 : Memref sig .tc .vmem S512x1 .f32) (harg9 : arg9.IsWhole)
    (hc0 : cond1_0 i) (hc1 : ¬cond1_1 i)
    (x0 x1 x2 x3 xi4 : Vec F S1x512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare (k1_pay1 (k1_pay5 x2) (k1_pay6 x0 x1 x3) (k1_pay3 (F := F)))
            ∗ owns (c : Thread nD τ) arg9 fullShare (k1_pay7 x0 x1 x3 (k1_pay4 (F := F)))) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%da, %fa, -, HA⟩, ⟨%dl, %fl, -, HL⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HA]
  · iexists _; isplitr
    rotate_left
    · iexact HA
    · ipureintro
      refine (read_last_store (F := F) arg8.view _ hz2 _ _ _).trans ?_
      sl_unfold_words
      simp only [View.readAt_eq_ld, harg3.read_unread, harg4.read_unread, harg5.read_unread, harg6.read_unread,
        View.readCov_unit_zero (S := S512x512) _ hz2, View.ld_unit_zero (S := S1x512x512) hz3]
  · iexists _; isplitr
    rotate_left
    · iexact HL
    · ipureintro
      refine (read_last_store (F := F) arg9.view _ hz2 _ _ _).trans ?_
      sl_unfold_words
      simp only [View.readAt_eq_ld, harg3.read_unread, harg4.read_unread, harg6.read_unread,
        View.readCov_unit_zero (S := S512x1) _ hz2, View.ld_unit_zero (S := S1x512x512) hz3]

set_option maxHeartbeats 1000000 in
theorem runB (c : Dev nD) (i : grid1.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S512x512 .f32) (harg8 : arg8.IsWhole) (arg9 : Memref sig .tc .vmem S512x1 .f32) (harg9 : arg9.IsWhole)
    (hc0 : ¬cond1_0 i) (hc1 : ¬cond1_1 i)
    (x0 x1 x2 x3 xi4 : Vec F S1x512x512 .f32) (a : Vec F S512x512 .f32) (l : Vec F S512x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
        ∗ owns (c : Thread nD τ) arg8 fullShare a ∗ owns (c : Thread nD τ) arg9 fullShare l
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare (k1_pay1 (k1_pay5 x2) (k1_pay6 x0 x1 x3) a)
            ∗ owns (c : Thread nD τ) arg9 fullShare (k1_pay7 x0 x1 x3 l)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hfa; obtain rfl := harg9.eq_unread hfl
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HA]
  · iexists _; isplitr
    rotate_left
    · iexact HA
    · ipureintro
      refine (read_last_store (F := F) arg8.view _ hz2 _ _ _).trans ?_
      simp only [View.readAt_eq_ld, harg3.read_unread, harg4.read_unread, harg5.read_unread, harg6.read_unread,
        harg8.read_unread, View.ld_unit_zero (S := S1x512x512) hz3, View.ld_unit_zero (S := S512x512) hz2]
  · iexists _; isplitr
    rotate_left
    · iexact HL
    · ipureintro
      refine (read_last_store (F := F) arg9.view _ hz2 _ _ _).trans ?_
      simp only [View.readAt_eq_ld, harg3.read_unread, harg4.read_unread, harg6.read_unread,
        harg9.read_unread, View.ld_unit_zero (S := S1x512x512) hz3, View.ld_unit_zero (S := S512x1) hz2]

set_option maxHeartbeats 1000000 in
theorem runC (c : Dev nD) (i : grid1.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S512x512 .f32) (harg8 : arg8.IsWhole) (arg9 : Memref sig .tc .vmem S512x1 .f32) (harg9 : arg9.IsWhole)
    (hc0 : ¬cond1_0 i) (hc1 : cond1_1 i)
    (x0 x1 x2 x3 : Vec F S1x512x512 .f32) (a : Vec F S512x512 .f32) (l : Vec F S512x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ owns (c : Thread nD τ) arg8 fullShare a ∗ owns (c : Thread nD τ) arg9 fullShare l
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k1_pay2 (k1_pay1 (k1_pay5 x2) (k1_pay6 x0 x1 x3) a) (k1_pay7 x0 x1 x3 l))
            ∗ owns (c : Thread nD τ) arg8 fullShare (k1_pay1 (k1_pay5 x2) (k1_pay6 x0 x1 x3) a)
            ∗ owns (c : Thread nD τ) arg9 fullShare (k1_pay7 x0 x1 x3 l)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3
  obtain rfl := harg8.eq_unread hfa; obtain rfl := harg9.eq_unread hfl
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    rotate_left
    · iexact H4
    · ipureintro
      refine (read_last_store (F := F) arg7.view _ hz3 _ _ _).trans ?_
      sl_unfold_words
      simp only [View.readAt_eq_ld, harg3.read_unread, harg4.read_unread, harg5.read_unread, harg6.read_unread,
        harg8.read_unread, harg9.read_unread, View.readCov_unit_zero (S := S512x512) _ hz2,
        View.readCov_unit_zero (S := S512x1) _ hz2, View.ld_unit_zero (S := S1x512x512) hz3,
        View.ld_unit_zero (S := S512x512) hz2, View.ld_unit_zero (S := S512x1) hz2]
  isplitl [HA]
  · iexists _; isplitr
    rotate_left
    · iexact HA
    · ipureintro
      refine (read_last_store (F := F) arg8.view _ hz2 _ _ _).trans ?_
      simp only [View.readAt_eq_ld, harg3.read_unread, harg4.read_unread, harg5.read_unread, harg6.read_unread,
        harg8.read_unread, View.ld_unit_zero (S := S1x512x512) hz3, View.ld_unit_zero (S := S512x512) hz2]
  · iexists _; isplitr
    rotate_left
    · iexact HL
    · ipureintro
      refine (read_last_store (F := F) arg9.view _ hz2 _ _ _).trans ?_
      simp only [View.readAt_eq_ld, harg3.read_unread, harg4.read_unread, harg6.read_unread,
        harg9.read_unread, View.ld_unit_zero (S := S1x512x512) hz3, View.ld_unit_zero (S := S512x1) hz2]

end Cert.Kernel.Hand

end
-- ==== Proof.Kernel.Attn.lean ====
/-
  Region 1's body obligation and the two ends of its invariant.

  The invariant before the first point is what the launch hands the region: every scoped buffer that is no staging
  buffer of the region whole at some contents, and the generator register at some state. Two of those buffers are the
  accumulators. After point n the invariant names what the accumulators hold: the running sums since the last point
  with ki = 0. At a point the body is handed the four input blocks (each window's current buffer holds its block,
  fetched there or not), the result window's buffer at anything, and the accumulators: at anything where ki = 0 (they
  are reset), at the previous point's sums elsewhere. It returns the accumulators at this point's sums, the inputs
  untouched, and the result buffer untouched unless ki = 3, where it holds the quotient and is written back.
-/
import proofs.«420923_j80255758893374_1_alg».proof.Proof.Kernel.Data
import proofs.«420923_j80255758893374_1_alg».proof.Proof.Kernel.AttnRuns
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulators point by point -/

/-- At a point with ki = 0 the accumulators hold the point's update of zero. -/
theorem scratchAt_reset (c : Dev nD) (t : Fin cfg1.N) (h : t.val % 4 = 0) :
    scratchAt V c t.val t.isLt = stepAcc V c t (k1_pay3 (F := F), k1_pay4 (F := F)) := by
  obtain ⟨n, hn⟩ := t
  cases n with
  | zero => rfl
  | succ n =>
    show stepAcc V c ⟨n + 1, hn⟩ (if (n + 1) % 4 = 0 then _ else _) = _
    rw [if_pos h]

/-- At any other point they hold the point's update of what the point before left. -/
theorem scratchAt_carry (c : Dev nD) (t : Fin cfg1.N) (h : ¬t.val % 4 = 0) :
    scratchAt V c t.val t.isLt
      = stepAcc V c t (scratchAt V c (t.val - 1) (Nat.lt_of_le_of_lt (Nat.sub_le _ _) t.isLt)) := by
  obtain ⟨n, hn⟩ := t
  cases n with
  | zero => exact absurd (Nat.zero_mod _) h
  | succ n =>
    show stepAcc V c ⟨n + 1, hn⟩ (if (n + 1) % 4 = 0 then _ else _) = _
    rw [if_neg h]; rfl

/-! ## The invariant -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherScoped (F := F) c
      ∗ owns (c : Thread nD τ) scM1_0 fullShare (scratchAt V c n hn).1
      ∗ owns (c : Thread nD τ) scM1_1 fullShare (scratchAt V c n hn).2
      ∗ (∃ r, prngReg c r)) := rfl

/-- Before a point that is not the first the accumulators hold what the point before left. -/
theorem PhiS1_pos (c : Dev nD) (n : ℕ) (h : n ≤ cfg1.N) (hz : n ≠ 0) :
    PhiS1 V c n h = iprop(otherScoped (F := F) c
      ∗ owns (c : Thread nD τ) scM1_0 fullShare (scratchAt V c (n - 1) (by omega)).1
      ∗ owns (c : Thread nD τ) scM1_1 fullShare (scratchAt V c (n - 1) (by omega)).2
      ∗ (∃ r, prngReg c r)) := by
  cases n with
  | zero => exact absurd rfl hz
  | succ n => rfl

/-- What the launch hands the region, with the two accumulators split off the other scoped buffers. -/
theorem PhiA1_elim (c : Dev nD) :
    (Pipeline.ΦA spec1 c : sProp 𝕄) ⊢ iprop(otherScoped (F := F) c
      ∗ (∃ d, owns (c : Thread nD τ) scM1_0 fullShare d) ∗ (∃ d, owns (c : Thread nD τ) scM1_1 fullShare d)
      ∗ (∃ r, prngReg c r)) := by
  unfold Pipeline.ΦA otherScoped; rw [scopedRest1_eq]; simp only [scM1_0, scM1_1, owns_whole]
  iintro ⟨⟨A, B, C, D, E, S0, S1⟩, Hg⟩
  isplitl [A B C D E]
  · isplitl [A]; · iexact A
    isplitl [B]; · iexact B
    isplitl [C]; · iexact C
    isplitl [D]; · iexact D
    iexact E
  isplitl [S0]; · iexact S0
  isplitl [S1]; · iexact S1
  iexact Hg

/-- And back. -/
theorem PhiA1_intro (c : Dev nD) :
    iprop(otherScoped (F := F) c
      ∗ (∃ d, owns (c : Thread nD τ) scM1_0 fullShare d) ∗ (∃ d, owns (c : Thread nD τ) scM1_1 fullShare d)
      ∗ (∃ r, prngReg c r)) ⊢ (Pipeline.ΦA spec1 c : sProp 𝕄) := by
  unfold Pipeline.ΦA otherScoped; rw [scopedRest1_eq]; simp only [scM1_0, scM1_1, owns_whole]
  iintro ⟨⟨A, B, C, D, E⟩, S0, S1, Hg⟩
  isplitr [Hg]
  · isplitl [A]; · iexact A
    isplitl [B]; · iexact B
    isplitl [C]; · iexact C
    isplitl [D]; · iexact D
    isplitl [E]; · iexact E
    isplitl [S0]; · iexact S0
    iexact S1
  iexact Hg

/-- The invariant at a point's start, restated at the point's position. -/
theorem PhiS1_castSucc (c : Dev nD) (t : Fin cfg1.N) :
    (dat1 V c).Φ t.castSucc = PhiS1 V c t.val (Nat.le_of_lt t.isLt) := by
  rw [Phi1_eq]; simp only [Fin.coe_castSucc]

/-! ## What the windows' buffers hold when the body runs -/

/-- Each input window's current buffer holds its block at every point, fetched there or not: where it is not
    fetched the block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The result window is idle exactly where the final store is not taken, -/
theorem idle1_4_of_not (i : grid1.Coords) (h : ¬cond1_1 i) : cfg1.idle 4 i = true := by
  show (!(k1_cond2 i == 1#1)) = true
  rw [Bool.not_eq_true', beq_eq_false_iff_ne]; exact h
theorem live1_4_of (i : grid1.Coords) (h : cond1_1 i) : cfg1.idle 4 i = false := by
  show (!(k1_cond2 i == 1#1)) = false
  rw [Bool.not_eq_false', beq_iff_eq]; exact h
/-- and is not written back at a point that is not 3 modulo 4. -/
theorem noFlush1_4 (t : Fin cfg1.N) (h : ¬t.val % 4 = 3) : (cfg1.win 4).flush t = false :=
  Bool.eq_false_iff.mpr (fun hf => h ((flush1_4 t).mp hf))

/-- What the body leaves in an input window's buffer is its block: the window is never idle. -/
theorem leaves1_0 (c : Dev nD) (t : Fin cfg1.N) :
    (dat1 V c).leavesExact 0 t = owns (c : Thread nD τ) (st1_0 t) fullShare (iblk1 V c 0 t) :=
  (show (dat1 V c).leavesExact 0 t = owns (c : Thread nD τ) (st1_0 t) fullShare ((dat1 V c).after 0 t) from rfl).trans
    (by rw [after1_0])
theorem leaves1_1 (c : Dev nD) (t : Fin cfg1.N) :
    (dat1 V c).leavesExact 1 t = owns (c : Thread nD τ) (st1_1 t) fullShare (iblk1 V c 1 t) :=
  (show (dat1 V c).leavesExact 1 t = owns (c : Thread nD τ) (st1_1 t) fullShare ((dat1 V c).after 1 t) from rfl).trans
    (by rw [after1_1])
theorem leaves1_2 (c : Dev nD) (t : Fin cfg1.N) :
    (dat1 V c).leavesExact 2 t = owns (c : Thread nD τ) (st1_2 t) fullShare (iblk1 V c 2 t) :=
  (show (dat1 V c).leavesExact 2 t = owns (c : Thread nD τ) (st1_2 t) fullShare ((dat1 V c).after 2 t) from rfl).trans
    (by rw [after1_2])
theorem leaves1_3 (c : Dev nD) (t : Fin cfg1.N) :
    (dat1 V c).leavesExact 3 t = owns (c : Thread nD τ) (st1_3 t) fullShare (iblk1 V c 3 t) :=
  (show (dat1 V c).leavesExact 3 t = owns (c : Thread nD τ) (st1_3 t) fullShare ((dat1 V c).after 3 t) from rfl).trans
    (by rw [after1_3])

/-- Where the final store is taken the result window's buffer is left at the quotient of the accumulators. -/
theorem leaves1_4_live (c : Dev nD) (t : Fin cfg1.N) (h : cond1_1 (grid1.coords t)) :
    (dat1 V c).leavesExact 4 t = owns (c : Thread nD τ) (st1_4 t) fullShare (outAt V c t) := by
  unfold Dat.leavesExact; rw [live1_4_of _ h, after1_4]

/-- At a point with ki = 0 the invariant hands over the accumulators at some contents: before the first point as
    the launch left them, afterwards by forgetting what the point before left. -/
theorem Phi1_reset (c : Dev nD) (t : Fin cfg1.N) :
    (dat1 V c).Φ t.castSucc ⊢ iprop(otherScoped (F := F) c
      ∗ (∃ d, owns (c : Thread nD τ) scM1_0 fullShare d) ∗ (∃ d, owns (c : Thread nD τ) scM1_1 fullShare d)
      ∗ (∃ r, prngReg c r)) := by
  rw [PhiS1_castSucc]
  by_cases hz : t.val = 0
  · rw [PhiS1_zero V c _ _ hz]; exact PhiA1_elim c
  · rw [PhiS1_pos V c _ _ hz]
    iintro ⟨Ho, HS0, HS1, Hg⟩
    isplitl [Ho]; · iexact Ho
    isplitl [HS0]; · iexists _; iexact HS0
    isplitl [HS1]; · iexists _; iexact HS1
    iexact Hg

/-! ## The body obligation at a point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

/-- The body at any point. The position modulo 4 says which of the three control cases the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, leaves1_0, leaves1_1, leaves1_2, leaves1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idle1_4_of_not _ hc1) (noFlush1_4 t h1)]
    rw [scratchAt_reset V c t h0]
    dsimp only [stepAcc]
    refine BIBase.Entails.trans (sep_mono_left (Phi1_reset V c t)) ?_
    iintro ⟨⟨Hs, HS0, HS1, Hg⟩, Ho, ⟨%d0, H0⟩, ⟨%d1, H1⟩, ⟨%d2, H2⟩, ⟨%d3, H3⟩, ⟨%d4, H4⟩⟩
    iapply (runA c (grid1.coords t) _ _ _ _ _ _ _ _ _ _ _ _ _ _ hc0 hc1 (iblk1 V c 0 t) (iblk1 V c 1 t) (iblk1 V c 2 t) (iblk1 V c 3 t) ((dat1 V c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Hs HS0 HS1 Hg]
    · isplitl [Hs]; · iexact Hs
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond1_0 (grid1.coords t) := fun h => h0 ((hcond1_0 t).mp h)
    rw [PhiS1_castSucc V c t, PhiS1_pos V c _ _ hz]
    by_cases h1 : t.val % 4 = 3
    · have hc1 : cond1_1 (grid1.coords t) := (hcond1_1 t).mpr h1
      rw [leaves1_4_live V c t hc1]
      unfold outAt
      rw [scratchAt_carry V c t h0]
      dsimp only [stepAcc]
      iintro ⟨⟨Hs, HS0, HS1, Hg⟩, Ho, ⟨%d0, H0⟩, ⟨%d1, H1⟩, ⟨%d2, H2⟩, ⟨%d3, H3⟩, ⟨%d4, H4⟩⟩
      iapply (runC c (grid1.coords t) _ _ _ _ _ _ _ _ _ _ _ _ _ _ hc0 hc1 (iblk1 V c 0 t) (iblk1 V c 1 t) (iblk1 V c 2 t) (iblk1 V c 3 t) (scratchAt V c (t.val - 1) (Nat.lt_of_le_of_lt (Nat.sub_le _ _) t.isLt)).1 (scratchAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [Hs HS0 HS1 Hg]
      · isplitl [Hs]; · iexact Hs
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idle1_4_of_not _ hc1) (noFlush1_4 t h1)]
      rw [scratchAt_carry V c t h0]
      dsimp only [stepAcc]
      iintro ⟨⟨Hs, HS0, HS1, Hg⟩, Ho, ⟨%d0, H0⟩, ⟨%d1, H1⟩, ⟨%d2, H2⟩, ⟨%d3, H3⟩, ⟨%d4, H4⟩⟩
      iapply (runB c (grid1.coords t) _ _ _ _ _ _ _ _ _ _ _ _ _ _ hc0 hc1 (iblk1 V c 0 t) (iblk1 V c 1 t) (iblk1 V c 2 t) (iblk1 V c 3 t) ((dat1 V c).before 4 t d4) (scratchAt V c (t.val - 1) (Nat.lt_of_le_of_lt (Nat.sub_le _ _) t.isLt)).1 (scratchAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hs HS0 HS1 Hg]
      · isplitl [Hs]; · iexact Hs
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ (Pipeline.ΦA spec1 c : sProp 𝕄) := by
  rw [Phi1_eq, PhiS1_pos V c _ _ (by rw [Fin.val_last]; have : cfg1.N = 128 := N_1; omega)]
  refine BIBase.Entails.trans ?_ (PhiA1_intro c)
  iintro ⟨Ho, HS0, HS1, Hg⟩
  isplitl [Ho]; · iexact Ho
  isplitl [HS0]; · iexists _; iexact HS0
  isplitl [HS1]; · iexists _; iexact HS1
  iexact Hg

end Cert.Kernel.Hand

end
-- ==== Proof.Kernel.Launch.lean ====
/-
  The two regions as segments of the program's run, and the run itself: every weakly fair execution terminates with the
  result array at what region 1 leaves and every argument array as launched.
-/
import proofs.«420923_j80255758893374_1_alg».proof.Proof.Kernel.Entry
import proofs.«420923_j80255758893374_1_alg».proof.Proof.Kernel.Proj
import proofs.«420923_j80255758893374_1_alg».proof.Proof.Kernel.Attn
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents left after region 0 alone: its result array at what its eight write-backs leave; every other
    buffer as launched (no valuation reads the family there). -/
def outsA : Gen.Outs (F := F) := fun _ r c =>
  if h : r = main_v3 then
    h ▸ ((dat0 (VR0 m) c).arrAt 2 cfg0.N : Buf (Elt F) ((c : Thread nD τ).loc main_v3))
  else m ((c : Thread nD τ).loc r)

/-- The contents both regions leave: region 1's result array at what its write-backs leave when it is entered from
    the contents that follow region 0's result, every other buffer as after region 0. -/
def outsB : Gen.Outs (F := F) := fun J r c =>
  if h : r = main_v5 then
    h ▸ ((dat1 (VR1 m (outsA m)) c).arrAt 4 cfg1.N : Buf (Elt F) ((c : Thread nD τ).loc main_v5))
  else outsA m J r c

theorem outsA_v3 (J : ℕ) (c : Dev nD) : outsA m J main_v3 c = (dat0 (VR0 m) c).arrAt 2 cfg0.N := by
  unfold outsA; rw [dif_pos rfl]

theorem outsB_v3 (J : ℕ) (c : Dev nD) : outsB m J main_v3 c = outsA m J main_v3 c := by
  unfold outsB; rw [dif_neg (by decide)]

theorem outsB_v5 (J : ℕ) (c : Dev nD) : outsB m J main_v5 c = (dat1 (VR1 m (outsA m)) c).arrAt 4 cfg1.N := by
  unfold outsB; rw [dif_pos rfl]

/-- Region 1's entry contents read the family only at region 0's result. -/
theorem VR1_congr (outs outs' : Gen.Outs (F := F)) (h : ∀ c, outs 4 main_v3 c = outs' 4 main_v3 c) :
    VR1 m outs = VR1 m outs' := by
  funext c b
  simp only [VR1, Gen.V5, Gen.V4, h c]

/-- There is a family of contents the regions leave. -/
theorem exists_outs : ∃ outs : Gen.Outs (F := F), OutsOK m outs := by
  refine ⟨outsB m, fun c => ?_, fun c => ?_⟩
  · rw [outsB_v3, outsA_v3]
  · rw [outsB_v5, VR1_congr m (outsB m) (outsA m) fun c => outsB_v3 m 4 c]

/-! ## The run as segments -/

/-- Each region's proof data at its entry contents. -/
def pdats (outs : Gen.Outs (F := F)) : (p : Fin 2) → (c : Dev nD) →
    Dat τ (Elt F) Unit ℕ (UR sig nD τ) ℕ (Pipeline.pin (pcfgs (F := F)) adm p) c
  | ⟨0, _⟩ => fun c => dat0 (VR0 m) c
  | ⟨1, _⟩ => fun c => dat1 (VR1 m outs) c

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers between two items: the core's generator register at some state and the
    core owing nothing. -/
abbrev R (c : Dev nD) : sProp 𝕄 :=
  iprop((∃ r, prngReg c r) ∗ ∃ W, owes (c : Thread nD τ) (0 : CellTallies nD τ sig Unit) W)
abbrev E : Fin 3 → Dev nD → sProp 𝕄 := fun _ c => R (F := F) c

/-- The buffers' contents when region 0 is left, and when region 1 is left. -/
abbrev VX0 (outs : Gen.Outs (F := F)) : (c : Dev nD) → (b : Ref sig .tc) → Buf (Elt F) ((c : Thread nD τ).loc b) :=
  fun c b => Gen.V4 m outs c b
abbrev VX1 (outs : Gen.Outs (F := F)) : (c : Dev nD) → (b : Ref sig .tc) → Buf (Elt F) ((c : Thread nD τ).loc b) :=
  fun c b => Gen.V6 m outs c b

section Exit

variable (outs : Gen.Outs (F := F)) (hok : OutsOK m outs)
include hok

/-- When region 0 is left each of its arrays holds what the pipeline leaves there: an input array what it held, the
    result array the family's contents. -/
theorem hF0 (c : Dev nD) (w : Fin cfg0.W) :
    (dat0 (VR0 m) c).arrAt w cfg0.N = VX0 m outs c (Pipeline.arrRef spec0 w) := by
  match w with
  | ⟨0, h⟩ =>
    rw [show (⟨0, h⟩ : Fin cfg0.W) = 0 from rfl, (dat0 (VR0 m) c).arrAt_in 0 rfl, A_eq0]
    exact (Gen.V4_of m outs c main_v2 (by decide)).symm
  | ⟨1, h⟩ =>
    rw [show (⟨1, h⟩ : Fin cfg0.W) = 1 from rfl, (dat0 (VR0 m) c).arrAt_in 1 rfl, A_eq0]
    exact (Gen.V4_of m outs c main_arg7 (by decide)).symm
  | ⟨2, h⟩ =>
    rw [show (⟨2, h⟩ : Fin cfg0.W) = 2 from rfl, ← hok.region0 c]
    exact (Function.update_self (Proc.devRef .tc main_v3 : DevRef τ sig) (outs 4 main_v3 c) (Gen.V3 m c)).symm

omit hok in
/-- Every buffer that is no array of region 0 holds what it held. -/
theorem hrest0 (c : Dev nD) : ∀ b, b ∉ Finset.univ.image (Pipeline.arrRef spec0) → VX0 m outs c b = VR0 m c b :=
  fun b hb => Gen.V4_of m outs c b fun hmem => hb (Finset.mem_image.mpr ⟨2, Finset.mem_univ _, (List.mem_singleton.mp hmem).symm⟩)

/-- When region 1 is left each of its arrays holds what the pipeline leaves there. -/
theorem hF1 (c : Dev nD) (w : Fin cfg1.W) :
    (dat1 (VR1 m outs) c).arrAt w cfg1.N = VX1 m outs c (Pipeline.arrRef spec1 w) := by
  match w with
  | ⟨0, h⟩ =>
    rw [show (⟨0, h⟩ : Fin cfg1.W) = 0 from rfl, (dat1 (VR1 m outs) c).arrAt_in 0 rfl, A_eq1]
    exact (Gen.V6_of m outs c main_v4 (by decide)).symm
  | ⟨1, h⟩ =>
    rw [show (⟨1, h⟩ : Fin cfg1.W) = 1 from rfl, (dat1 (VR1 m outs) c).arrAt_in 1 rfl, A_eq1]
    exact (Gen.V6_of m outs c main_v0 (by decide)).symm
  | ⟨2, h⟩ =>
    rw [show (⟨2, h⟩ : Fin cfg1.W) = 2 from rfl, (dat1 (VR1 m outs) c).arrAt_in 2 rfl, A_eq1]
    exact (Gen.V6_of m outs c main_v1 (by decide)).symm
  | ⟨3, h⟩ =>
    rw [show (⟨3, h⟩ : Fin cfg1.W) = 3 from rfl, (dat1 (VR1 m outs) c).arrAt_in 3 rfl, A_eq1]
    exact (Gen.V6_of m outs c main_arg3 (by decide)).symm
  | ⟨4, h⟩ =>
    rw [show (⟨4, h⟩ : Fin cfg1.W) = 4 from rfl, ← hok.region1 c]
    exact (Function.update_self (Proc.devRef .tc main_v5 : DevRef τ sig) (outs 6 main_v5 c) (Gen.V5 m outs c)).symm

omit hok in
/-- Every buffer that is no array of region 1 holds what it held. -/
theorem hrest1 (c : Dev nD) : ∀ b, b ∉ Finset.univ.image (Pipeline.arrRef spec1) → VX1 m outs c b = VR1 m outs c b :=
  fun b hb => Gen.V6_of m outs c b fun hmem => hb (Finset.mem_image.mpr ⟨4, Finset.mem_univ _, (List.mem_singleton.mp hmem).symm⟩)

end Exit

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the core owing nothing: every unscoped buffer at the contents region 1 leaves, the
    generator register at some state. -/
abbrev Tₙ (outs : Gen.Outs (F := F)) (c : Dev nD) : sProp 𝕄 :=
  iprop(StableHlo.held (c : Thread nD τ) (Pipeline.ucRefs τ sig) (Gen.V6 m outs c) ∗ ∃ r, prngReg c r)

set_option backward.isDefEq.respectTransparency.types false in
/-- Region 0 as a segment of the run: entered from every unscoped buffer at the contents before it, left at the
    contents after it; its arrays are split out of the unscoped buffers at the entry and put back at the exit; the
    generator register enters the invariant and comes back; nothing is owed; the kernel has no semaphore of its own. -/
def reg0 (outs : Gen.Outs (F := F)) (hok : OutsOK m outs) :
    Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (VR0 m c) (VX0 m outs c) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered from every unscoped buffer at the contents before it, left at the
    contents after it; its arrays are split out of the unscoped buffers at the entry and put back at the exit; the
    generator register enters the invariant and comes back; nothing is owed; the kernel has no semaphore of its own. -/
def reg1 (outs : Gen.Outs (F := F)) (hok : OutsOK m outs) :
    Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m outs) c).loose
  hwaits := Pipeline.hwaits_of_owed_zero _ _ _ _ L lv 1 fun _ _ => rfl
  pre c := iprop(StableHlo.held (c : Thread nD τ) (Pipeline.ucRefs τ sig) (Gen.V5 m outs c) ∗ R c)
  post c := iprop(Tₙ m outs c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (VR1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (VR1 m outs) c)
    unfold Pipeline.ΦA
    iintro ⟨Hp, -, Hr⟩
    isplitl [Hr]; · iexact Hr
    iexact Hp
  hout c := by
    refine (hout1 (VR1 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (VR1 m outs c) (VX1 m outs c) ((pdats m outs 1 c).arrAt · cfg1.N) (hF1 m outs hok c) (hrest1 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

set_option backward.isDefEq.respectTransparency.types false in
/-- The run, with the result named. -/
theorem run_main (outs : Gen.Outs (F := F)) (hok : OutsOK m outs) :
    θ_run defs (onTc (τ := τ) (main (F := F))) ⟨m, fun _ => 0, ρ⟩ (fun r => ∀ c : Dev nD,
      r.2.mem ((c.tc : Thread nD τ).loc main_v5) = outs 6 main_v5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m outs) () cellOf_inj emb₁ defs₀ 𝒱₀ L lv m ρ main
    (Gen.segs m outs 𝒱₀ L lv (E (F := F)) () (pdats m outs) (reg0 m outs hok) (reg1 m outs hok))
    (fun c Q => by
      rewrite [main_chain c, Pipeline.Seg.run_eq_chain,
        show (Gen.segs m outs 𝒱₀ L lv (E (F := F)) () (pdats m outs) (reg0 m outs hok) (reg1 m outs hok) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m outs)
    (hch := fun c => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V6 m outs c) s')
      isplitl [Hh] <;> iassumption)
    (hQ := fun s h c =>
      ⟨(h c _ (mem_uc main_v5 (by decide))).trans
          (Function.update_self (Proc.devRef .tc main_v5 : DevRef τ sig) (outs 6 main_v5 c) (Gen.V5 m outs c)),
        (h c _ (mem_uc main_arg0 (by decide))).trans (Gen.V6_main_arg0 m outs c),
        (h c _ (mem_uc main_arg1 (by decide))).trans (Gen.V6_main_arg1 m outs c),
        (h c _ (mem_uc main_arg2 (by decide))).trans (Gen.V6_main_arg2 m outs c),
        (h c _ (mem_uc main_arg3 (by decide))).trans (Gen.V6_main_arg3 m outs c),
        (h c _ (mem_uc main_arg4 (by decide))).trans (Gen.V6_main_arg4 m outs c),
        (h c _ (mem_uc main_arg5 (by decide))).trans (Gen.V6_main_arg5 m outs c),
        (h c _ (mem_uc main_arg6 (by decide))).trans (Gen.V6_main_arg6 m outs c),
        (h c _ (mem_uc main_arg7 (by decide))).trans (Gen.V6_main_arg7 m outs c)⟩)

end Cert.Kernel.Hand

end
-- ==== Proof.KernelIdeal.Data.lean ====
/-
  What the two kernel regions hold and leave, stated at a parameter V: the contents of the TensorCore's buffers when
  a region is entered.

  Region 0 (the projection) has windows 0 (a block of 2048 rows of the flattened hidden array), 1 (the whole weight)
  and 2 (the matching 2048 rows of the result). At a grid point its body stores into window 2's block the product of
  window 0's block with window 1's.

  Region 1 (the attention) runs over grid points (b, qi, ki), ki fastest, with windows 0 (query rows of tile qi),
  1 and 2 (key and value rows of tile ki), 3 (the mask tile (qi, ki)) and 4 (the result rows of tile qi), and two
  scratch accumulators carried from point to point: at ki = 0 both are reset to zero, at every point the weighted
  values of the key tile are added to the first and the weights' row sums to the second, and at ki = 3 the quotient
  of the two is stored into window 4's block.
-/
import proofs.«420923_j80255758893374_1_alg».proof.Proof.Gen.KernelIdeal.Launch
import proofs.«420923_j80255758893374_1_alg».proof.Proof.Gen.KernelIdeal.Skeleton
import proofs.«420923_j80255758893374_1_alg».proof.Proof.Gen.KernelIdeal.Points
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 0 -/

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What region 0's body leaves in the result window's block at point t: the product of the two input blocks. -/
def projOut (c : Dev nD) (t : Fin cfg0.N) : Vec F S2048x512 .f32 :=
  k0_pay1 (iblk0 V c 0 t) (iblk0 V c 1 t)

/-- Region 0's proof data: the arrays as the region finds them; after the body each input's buffer at its block and the
    result's at the product; the invariant that of a body using no scratch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projOut V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projOut V c t := by dsimp only [dat0]

/-! ## Region 1 -/

/-- Window w's block at point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the two accumulators (weighted values, weights' row sums) from what they held. -/
def stepAcc (c : Dev nD) (t : Fin cfg1.N) (p : Vec F S512x512 .f32 × Vec F S512x1 .f32) : Vec F S512x512 .f32 × Vec F S512x1 .f32 :=
  (k1_pay1 (k1_pay5 (iblk1 V c 2 t)) (k1_pay6 (iblk1 V c 0 t) (iblk1 V c 1 t) (iblk1 V c 3 t)) p.1,
   k1_pay7 (iblk1 V c 0 t) (iblk1 V c 1 t) (iblk1 V c 3 t) p.2)

/-- The two accumulators after point n: reset to zero before the update at the points with ki = 0 (n divisible by 4),
    carried over from the point before otherwise. -/
def scratchAt (c : Dev nD) : (n : ℕ) → n < cfg1.N → Vec F S512x512 .f32 × Vec F S512x1 .f32
  | 0, h => stepAcc V c ⟨0, h⟩ (k1_pay3 (F := F), k1_pay4 (F := F))
  | n + 1, h => stepAcc V c ⟨n + 1, h⟩
      (if (n + 1) % 4 = 0 then (k1_pay3 (F := F), k1_pay4 (F := F)) else scratchAt c n (Nat.lt_of_succ_lt h))

/-- What region 1's body stores into the result window's block at a point with ki = 3: the quotient of the accumulators. -/
def outAt (c : Dev nD) (t : Fin cfg1.N) : Vec F S1x512x512 .f32 :=
  k1_pay2 (scratchAt V c t.val t.isLt).1 (scratchAt V c t.val t.isLt).2

/-- The two scratch accumulators as whole memrefs. -/
abbrev scM1_0 : Memref sig .tc .vmem S512x512 .f32 := Memref.whole cc1_scratch0
abbrev scM1_1 : Memref sig .tc .vmem S512x1 .f32 := Memref.whole cc1_scratch1

/-- Region 0's staging buffers, which region 1 never touches: each held whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Region 1's invariant before point n: before the first point the scoped buffers that are no staging buffer of the
    region at some contents and the generator register at some state; after point n - 1 the same with the two
    accumulators at what that point left. -/
def PhiS1 (c : Dev nD) : (n : ℕ) → n ≤ cfg1.N → sProp 𝕄
  | 0, _ => Pipeline.ΦA spec1 c
  | n + 1, hn => iprop(otherScoped (F := F) c
      ∗ owns (c : Thread nD τ) scM1_0 fullShare (scratchAt V c n hn).1
      ∗ owns (c : Thread nD τ) scM1_1 fullShare (scratchAt V c n hn).2
      ∗ (∃ r, prngReg c r))

/-- Region 1's proof data: the arrays as the region finds them; after the body each input's buffer at its block and the
    result's at the accumulators' quotient (read only at the points with ki = 3, where the block is written back); the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]
theorem Phi1_eq (c : Dev nD) (t : Fin (cfg1.N + 1)) : (dat1 V c).Φ t = PhiS1 V c t.val (Nat.le_of_lt_succ t.isLt) := rfl

end Cert.KernelIdeal.Hand

end
-- ==== Proof.KernelIdeal.Entry.lean ====
/-
  The contents of the TensorCore's buffers when each kernel region is entered, along the program: region 0 after the
  three host stretches (the two row lookups and the flattening of the hidden array), region 1 after region 0 and the
  host line that gives its result the shape (batch, row, feature). What a region leaves in its result array is what
  its write-backs leave (the library's arrAt at the grid's last point): OutsOK says so of a family outs of contents.
-/
import proofs.«420923_j80255758893374_1_alg».proof.Proof.Gen.KernelIdeal.Regions
import proofs.«420923_j80255758893374_1_alg».proof.Proof.KernelIdeal.Data

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The buffers' contents when region 0 is entered. -/
abbrev VR0 : (c : Dev nD) → (b : Ref sig .tc) → Buf (Elt F) ((c : Thread nD τ).loc b) := fun c b => Gen.V3 m c b

/-- The buffers' contents when region 1 is entered, given what the regions leave. -/
abbrev VR1 (outs : Gen.Outs (F := F)) : (c : Dev nD) → (b : Ref sig .tc) → Buf (Elt F) ((c : Thread nD τ).loc b) :=
  fun c b => Gen.V5 m outs c b

/-- The family outs names what the regions leave: region 0's result array after its eight write-backs, region 1's
    after its write-backs at the points with ki = 3. -/
structure OutsOK (outs : Gen.Outs (F := F)) : Prop where
  region0 : ∀ c : Dev nD, outs 4 main_v3 c = (dat0 (VR0 m) c).arrAt 2 cfg0.N
  region1 : ∀ c : Dev nD, outs 6 main_v5 c = (dat1 (VR1 m outs) c).arrAt 4 cfg1.N

end Cert.KernelIdeal.Hand

end
-- ==== Proof.KernelIdeal.Proj.lean ====
/-
  Region 0's body obligation.

  At a grid point the body reads the whole of the hidden block (2048 rows) and the whole weight, reads the result
  block without using what it read, and overwrites the whole result block with the product of the two, rounded as the
  kernel rounds it. So, holding the two input buffers at the blocks the arrays have there and the result buffer at
  anything, it leaves the inputs as they were and the result buffer at that product. The two inputs' buffers do hold
  their blocks at every point: the hidden block is brought in at every point, the weight at the first point only,
  and its block index never moves afterwards.
-/
import proofs.«420923_j80255758893374_1_alg».proof.Proof.KernelIdeal.Data
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The inputs' buffers hold their blocks -/

/-- The hidden window's buffer holds the block of the hidden array at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's buffer holds the weight at every point, brought in there or not: its block index is the same
    at all points. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's accesses: each is the whole of its buffer -/

theorem offZero : (![0, 0] : Fin 2 → Nat) = fun _ => 0 := funext fun a => by fin_cases a <;> rfl

abbrev rHid : Rect S2048x512 := Rect.unit (s := S2048x512) ![0, 0] S2048x512.size inb_S2048x512_S2048x512_0_0
abbrev rWgt : Rect S512x512 := Rect.unit (s := S512x512) ![0, 0] S512x512.size inb_S512x512_S512x512_0_0

/-- The result buffer after the body's one store, as the list of its stores. -/
def storedOut (x0 : Vec F S2048x512 .f32) (x1 : Vec F S512x512 .f32) : Vec F S2048x512 .f32 :=
  View.canon [⟨rHid, k0_pay1 (View.ld x0 rHid) (View.ld x1 rWgt)⟩]

/-- The one store covers the buffer. -/
theorem coverOut (p0 : Vec F S2048x512 .f32) (y : S2048x512.Idx) :
    ∃ pc ∈ ([⟨rHid, p0⟩] : List (View.Piece (Elt F) S2048x512 .f32)), y ∈ pc.1.set :=
  ⟨_, List.mem_singleton_self _, View.mem_set_unit_zero offZero inb_S2048x512_S2048x512_0_0 y⟩

/-- A whole-buffer store of a payload of whole-buffer loads leaves the payload of the buffers' contents. -/
theorem storedOut_eq (x0 : Vec F S2048x512 .f32) (x1 : Vec F S512x512 .f32) : storedOut x0 x1 = k0_pay1 x0 x1 := by
  unfold storedOut
  rw [View.canon_unit_zero offZero, View.ld_unit_zero (S := S2048x512) offZero, View.ld_unit_zero (S := S512x512) offZero]

/-! ## The body's triple -/

set_option maxHeartbeats 1000000 in
/-- The body on whole buffers, the inputs' at x0 and x1 and the result's at anything, runs to the continuation holding
    the inputs' as they were and the result's at the product of x0 and x1. -/
theorem sound_kernel0 (c : Dev nD) (E : Set ℕ) (i : grid0.Coords)
    (arg1 : Memref sig .tc .vmem S2048x512 .f32) (harg1 : arg1.IsWhole)
    (arg2 : Memref sig .tc .vmem S512x512 .f32) (harg2 : arg2.IsWhole)
    (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine Eq.trans ?_ (storedOut_eq _ _)
  exact View.read_writes_eq_canon _ _ _ (coverOut _)

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple above applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold projOut
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.AttnRuns.lean ====
/-
  The attention body run whole, in each of its three control cases, on any whole memrefs: the four input blocks are
  handed back as they were; the two accumulators end at the point's update of what they held (of zero in the case that
  resets them first); the result block is stored, at the quotient of the updated accumulators, only in the last case,
  and handed back untouched in the other two.
    case A: ki = 0 (the reset is taken, the final store is not)
    case B: 0 < ki < 3 (neither)
    case C: ki = 3 (the final store is taken, the reset is not)
-/
import proofs.«420923_j80255758893374_1_alg».proof.Proof.KernelIdeal.Data
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The reset's condition, from the grid coordinates. -/
abbrev cond1_0 (i : grid1.Coords) : Prop := (Scalar.cmpi .ne (Scalar.extui (Scalar.cmpi .eq (BitVec.ofNat 32 (i 2).val) 0#32)) 0#32) = 1#1
/-- The final store's condition, from the grid coordinates. -/
abbrev cond1_1 (i : grid1.Coords) : Prop := k1_cond2 i = 1#1

/-- The reset is taken at the points divisible by 4. -/
theorem hcond1_0 : ∀ t : Fin cfg1.N, cond1_0 (grid1.coords t) ↔ t.val % 4 = 0 :=
  (by decide +kernel : ∀ t : Fin grid1.N, cond1_0 (grid1.coords t) ↔ t.val % 4 = 0)
/-- The final store is taken at the points that are 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

/-- The origin of a two-axis shape, spelt as a literal vector, is the zero offset. -/
private theorem hz2 : (![0, 0] : Fin 2 → Nat) = fun _ => 0 := funext fun a => by fin_cases a <;> rfl
/-- The same for three axes. -/
private theorem hz3 : (![0, 0, 0] : Fin 3 → Nat) = fun _ => 0 := funext fun a => by fin_cases a <;> rfl

/-- A buffer whose last store went through the whole-shape rectangle reads as that store's payload, whatever it
    held before and whatever the earlier stores were. -/
private theorem read_last_store {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hz inb y⟩),
    View.canon_cons_unit_zero hz]

set_option maxHeartbeats 1000000 in
theorem runA (c : Dev nD) (i : grid1.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S512x512 .f32) (harg8 : arg8.IsWhole) (arg9 : Memref sig .tc .vmem S512x1 .f32) (harg9 : arg9.IsWhole)
    (hc0 : cond1_0 i) (hc1 : ¬cond1_1 i)
    (x0 x1 x2 x3 xi4 : Vec F S1x512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare (k1_pay1 (k1_pay5 x2) (k1_pay6 x0 x1 x3) (k1_pay3 (F := F)))
            ∗ owns (c : Thread nD τ) arg9 fullShare (k1_pay7 x0 x1 x3 (k1_pay4 (F := F)))) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%da, %fa, -, HA⟩, ⟨%dl, %fl, -, HL⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HA]
  · iexists _; isplitr
    rotate_left
    · iexact HA
    · ipureintro
      refine (read_last_store (F := F) arg8.view _ hz2 _ _ _).trans ?_
      sl_unfold_words
      simp only [View.readAt_eq_ld, harg3.read_unread, harg4.read_unread, harg5.read_unread, harg6.read_unread,
        View.readCov_unit_zero (S := S512x512) _ hz2, View.ld_unit_zero (S := S1x512x512) hz3]
  · iexists _; isplitr
    rotate_left
    · iexact HL
    · ipureintro
      refine (read_last_store (F := F) arg9.view _ hz2 _ _ _).trans ?_
      sl_unfold_words
      simp only [View.readAt_eq_ld, harg3.read_unread, harg4.read_unread, harg6.read_unread,
        View.readCov_unit_zero (S := S512x1) _ hz2, View.ld_unit_zero (S := S1x512x512) hz3]

set_option maxHeartbeats 1000000 in
theorem runB (c : Dev nD) (i : grid1.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S512x512 .f32) (harg8 : arg8.IsWhole) (arg9 : Memref sig .tc .vmem S512x1 .f32) (harg9 : arg9.IsWhole)
    (hc0 : ¬cond1_0 i) (hc1 : ¬cond1_1 i)
    (x0 x1 x2 x3 xi4 : Vec F S1x512x512 .f32) (a : Vec F S512x512 .f32) (l : Vec F S512x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
        ∗ owns (c : Thread nD τ) arg8 fullShare a ∗ owns (c : Thread nD τ) arg9 fullShare l
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare (k1_pay1 (k1_pay5 x2) (k1_pay6 x0 x1 x3) a)
            ∗ owns (c : Thread nD τ) arg9 fullShare (k1_pay7 x0 x1 x3 l)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hfa; obtain rfl := harg9.eq_unread hfl
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HA]
  · iexists _; isplitr
    rotate_left
    · iexact HA
    · ipureintro
      refine (read_last_store (F := F) arg8.view _ hz2 _ _ _).trans ?_
      simp only [View.readAt_eq_ld, harg3.read_unread, harg4.read_unread, harg5.read_unread, harg6.read_unread,
        harg8.read_unread, View.ld_unit_zero (S := S1x512x512) hz3, View.ld_unit_zero (S := S512x512) hz2]
  · iexists _; isplitr
    rotate_left
    · iexact HL
    · ipureintro
      refine (read_last_store (F := F) arg9.view _ hz2 _ _ _).trans ?_
      simp only [View.readAt_eq_ld, harg3.read_unread, harg4.read_unread, harg6.read_unread,
        harg9.read_unread, View.ld_unit_zero (S := S1x512x512) hz3, View.ld_unit_zero (S := S512x1) hz2]

set_option maxHeartbeats 1000000 in
theorem runC (c : Dev nD) (i : grid1.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S512x512 .f32) (harg8 : arg8.IsWhole) (arg9 : Memref sig .tc .vmem S512x1 .f32) (harg9 : arg9.IsWhole)
    (hc0 : ¬cond1_0 i) (hc1 : cond1_1 i)
    (x0 x1 x2 x3 : Vec F S1x512x512 .f32) (a : Vec F S512x512 .f32) (l : Vec F S512x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ owns (c : Thread nD τ) arg8 fullShare a ∗ owns (c : Thread nD τ) arg9 fullShare l
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k1_pay2 (k1_pay1 (k1_pay5 x2) (k1_pay6 x0 x1 x3) a) (k1_pay7 x0 x1 x3 l))
            ∗ owns (c : Thread nD τ) arg8 fullShare (k1_pay1 (k1_pay5 x2) (k1_pay6 x0 x1 x3) a)
            ∗ owns (c : Thread nD τ) arg9 fullShare (k1_pay7 x0 x1 x3 l)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3
  obtain rfl := harg8.eq_unread hfa; obtain rfl := harg9.eq_unread hfl
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    rotate_left
    · iexact H4
    · ipureintro
      refine (read_last_store (F := F) arg7.view _ hz3 _ _ _).trans ?_
      sl_unfold_words
      simp only [View.readAt_eq_ld, harg3.read_unread, harg4.read_unread, harg5.read_unread, harg6.read_unread,
        harg8.read_unread, harg9.read_unread, View.readCov_unit_zero (S := S512x512) _ hz2,
        View.readCov_unit_zero (S := S512x1) _ hz2, View.ld_unit_zero (S := S1x512x512) hz3,
        View.ld_unit_zero (S := S512x512) hz2, View.ld_unit_zero (S := S512x1) hz2]
  isplitl [HA]
  · iexists _; isplitr
    rotate_left
    · iexact HA
    · ipureintro
      refine (read_last_store (F := F) arg8.view _ hz2 _ _ _).trans ?_
      simp only [View.readAt_eq_ld, harg3.read_unread, harg4.read_unread, harg5.read_unread, harg6.read_unread,
        harg8.read_unread, View.ld_unit_zero (S := S1x512x512) hz3, View.ld_unit_zero (S := S512x512) hz2]
  · iexists _; isplitr
    rotate_left
    · iexact HL
    · ipureintro
      refine (read_last_store (F := F) arg9.view _ hz2 _ _ _).trans ?_
      simp only [View.readAt_eq_ld, harg3.read_unread, harg4.read_unread, harg6.read_unread,
        harg9.read_unread, View.ld_unit_zero (S := S1x512x512) hz3, View.ld_unit_zero (S := S512x1) hz2]

end Cert.KernelIdeal.Hand

end
-- ==== Proof.KernelIdeal.Attn.lean ====
/-
  Region 1's body obligation and the two ends of its invariant.

  The invariant before the first point is what the launch hands the region: every scoped buffer that is no staging
  buffer of the region whole at some contents, and the generator register at some state. Two of those buffers are the
  accumulators. After point n the invariant names what the accumulators hold: the running sums since the last point
  with ki = 0. At a point the body is handed the four input blocks (each window's current buffer holds its block,
  fetched there or not), the result window's buffer at anything, and the accumulators: at anything where ki = 0 (they
  are reset), at the previous point's sums elsewhere. It returns the accumulators at this point's sums, the inputs
  untouched, and the result buffer untouched unless ki = 3, where it holds the quotient and is written back.
-/
import proofs.«420923_j80255758893374_1_alg».proof.Proof.KernelIdeal.Data
import proofs.«420923_j80255758893374_1_alg».proof.Proof.KernelIdeal.AttnRuns
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The accumulators point by point -/

/-- At a point with ki = 0 the accumulators hold the point's update of zero. -/
theorem scratchAt_reset (c : Dev nD) (t : Fin cfg1.N) (h : t.val % 4 = 0) :
    scratchAt V c t.val t.isLt = stepAcc V c t (k1_pay3 (F := F), k1_pay4 (F := F)) := by
  obtain ⟨n, hn⟩ := t
  cases n with
  | zero => rfl
  | succ n =>
    show stepAcc V c ⟨n + 1, hn⟩ (if (n + 1) % 4 = 0 then _ else _) = _
    rw [if_pos h]

/-- At any other point they hold the point's update of what the point before left. -/
theorem scratchAt_carry (c : Dev nD) (t : Fin cfg1.N) (h : ¬t.val % 4 = 0) :
    scratchAt V c t.val t.isLt
      = stepAcc V c t (scratchAt V c (t.val - 1) (Nat.lt_of_le_of_lt (Nat.sub_le _ _) t.isLt)) := by
  obtain ⟨n, hn⟩ := t
  cases n with
  | zero => exact absurd (Nat.zero_mod _) h
  | succ n =>
    show stepAcc V c ⟨n + 1, hn⟩ (if (n + 1) % 4 = 0 then _ else _) = _
    rw [if_neg h]; rfl

/-! ## The invariant -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherScoped (F := F) c
      ∗ owns (c : Thread nD τ) scM1_0 fullShare (scratchAt V c n hn).1
      ∗ owns (c : Thread nD τ) scM1_1 fullShare (scratchAt V c n hn).2
      ∗ (∃ r, prngReg c r)) := rfl

/-- Before a point that is not the first the accumulators hold what the point before left. -/
theorem PhiS1_pos (c : Dev nD) (n : ℕ) (h : n ≤ cfg1.N) (hz : n ≠ 0) :
    PhiS1 V c n h = iprop(otherScoped (F := F) c
      ∗ owns (c : Thread nD τ) scM1_0 fullShare (scratchAt V c (n - 1) (by omega)).1
      ∗ owns (c : Thread nD τ) scM1_1 fullShare (scratchAt V c (n - 1) (by omega)).2
      ∗ (∃ r, prngReg c r)) := by
  cases n with
  | zero => exact absurd rfl hz
  | succ n => rfl

/-- What the launch hands the region, with the two accumulators split off the other scoped buffers. -/
theorem PhiA1_elim (c : Dev nD) :
    (Pipeline.ΦA spec1 c : sProp 𝕄) ⊢ iprop(otherScoped (F := F) c
      ∗ (∃ d, owns (c : Thread nD τ) scM1_0 fullShare d) ∗ (∃ d, owns (c : Thread nD τ) scM1_1 fullShare d)
      ∗ (∃ r, prngReg c r)) := by
  unfold Pipeline.ΦA otherScoped; rw [scopedRest1_eq]; simp only [scM1_0, scM1_1, owns_whole]
  iintro ⟨⟨A, B, C, D, E, S0, S1⟩, Hg⟩
  isplitl [A B C D E]
  · isplitl [A]; · iexact A
    isplitl [B]; · iexact B
    isplitl [C]; · iexact C
    isplitl [D]; · iexact D
    iexact E
  isplitl [S0]; · iexact S0
  isplitl [S1]; · iexact S1
  iexact Hg

/-- And back. -/
theorem PhiA1_intro (c : Dev nD) :
    iprop(otherScoped (F := F) c
      ∗ (∃ d, owns (c : Thread nD τ) scM1_0 fullShare d) ∗ (∃ d, owns (c : Thread nD τ) scM1_1 fullShare d)
      ∗ (∃ r, prngReg c r)) ⊢ (Pipeline.ΦA spec1 c : sProp 𝕄) := by
  unfold Pipeline.ΦA otherScoped; rw [scopedRest1_eq]; simp only [scM1_0, scM1_1, owns_whole]
  iintro ⟨⟨A, B, C, D, E⟩, S0, S1, Hg⟩
  isplitr [Hg]
  · isplitl [A]; · iexact A
    isplitl [B]; · iexact B
    isplitl [C]; · iexact C
    isplitl [D]; · iexact D
    isplitl [E]; · iexact E
    isplitl [S0]; · iexact S0
    iexact S1
  iexact Hg

/-- The invariant at a point's start, restated at the point's position. -/
theorem PhiS1_castSucc (c : Dev nD) (t : Fin cfg1.N) :
    (dat1 V c).Φ t.castSucc = PhiS1 V c t.val (Nat.le_of_lt t.isLt) := by
  rw [Phi1_eq]; simp only [Fin.coe_castSucc]

/-! ## What the windows' buffers hold when the body runs -/

/-- Each input window's current buffer holds its block at every point, fetched there or not: where it is not
    fetched the block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The result window is idle exactly where the final store is not taken, -/
theorem idle1_4_of_not (i : grid1.Coords) (h : ¬cond1_1 i) : cfg1.idle 4 i = true := by
  show (!(k1_cond2 i == 1#1)) = true
  rw [Bool.not_eq_true', beq_eq_false_iff_ne]; exact h
theorem live1_4_of (i : grid1.Coords) (h : cond1_1 i) : cfg1.idle 4 i = false := by
  show (!(k1_cond2 i == 1#1)) = false
  rw [Bool.not_eq_false', beq_iff_eq]; exact h
/-- and is not written back at a point that is not 3 modulo 4. -/
theorem noFlush1_4 (t : Fin cfg1.N) (h : ¬t.val % 4 = 3) : (cfg1.win 4).flush t = false :=
  Bool.eq_false_iff.mpr (fun hf => h ((flush1_4 t).mp hf))

/-- What the body leaves in an input window's buffer is its block: the window is never idle. -/
theorem leaves1_0 (c : Dev nD) (t : Fin cfg1.N) :
    (dat1 V c).leavesExact 0 t = owns (c : Thread nD τ) (st1_0 t) fullShare (iblk1 V c 0 t) :=
  (show (dat1 V c).leavesExact 0 t = owns (c : Thread nD τ) (st1_0 t) fullShare ((dat1 V c).after 0 t) from rfl).trans
    (by rw [after1_0])
theorem leaves1_1 (c : Dev nD) (t : Fin cfg1.N) :
    (dat1 V c).leavesExact 1 t = owns (c : Thread nD τ) (st1_1 t) fullShare (iblk1 V c 1 t) :=
  (show (dat1 V c).leavesExact 1 t = owns (c : Thread nD τ) (st1_1 t) fullShare ((dat1 V c).after 1 t) from rfl).trans
    (by rw [after1_1])
theorem leaves1_2 (c : Dev nD) (t : Fin cfg1.N) :
    (dat1 V c).leavesExact 2 t = owns (c : Thread nD τ) (st1_2 t) fullShare (iblk1 V c 2 t) :=
  (show (dat1 V c).leavesExact 2 t = owns (c : Thread nD τ) (st1_2 t) fullShare ((dat1 V c).after 2 t) from rfl).trans
    (by rw [after1_2])
theorem leaves1_3 (c : Dev nD) (t : Fin cfg1.N) :
    (dat1 V c).leavesExact 3 t = owns (c : Thread nD τ) (st1_3 t) fullShare (iblk1 V c 3 t) :=
  (show (dat1 V c).leavesExact 3 t = owns (c : Thread nD τ) (st1_3 t) fullShare ((dat1 V c).after 3 t) from rfl).trans
    (by rw [after1_3])

/-- Where the final store is taken the result window's buffer is left at the quotient of the accumulators. -/
theorem leaves1_4_live (c : Dev nD) (t : Fin cfg1.N) (h : cond1_1 (grid1.coords t)) :
    (dat1 V c).leavesExact 4 t = owns (c : Thread nD τ) (st1_4 t) fullShare (outAt V c t) := by
  unfold Dat.leavesExact; rw [live1_4_of _ h, after1_4]

/-- At a point with ki = 0 the invariant hands over the accumulators at some contents: before the first point as
    the launch left them, afterwards by forgetting what the point before left. -/
theorem Phi1_reset (c : Dev nD) (t : Fin cfg1.N) :
    (dat1 V c).Φ t.castSucc ⊢ iprop(otherScoped (F := F) c
      ∗ (∃ d, owns (c : Thread nD τ) scM1_0 fullShare d) ∗ (∃ d, owns (c : Thread nD τ) scM1_1 fullShare d)
      ∗ (∃ r, prngReg c r)) := by
  rw [PhiS1_castSucc]
  by_cases hz : t.val = 0
  · rw [PhiS1_zero V c _ _ hz]; exact PhiA1_elim c
  · rw [PhiS1_pos V c _ _ hz]
    iintro ⟨Ho, HS0, HS1, Hg⟩
    isplitl [Ho]; · iexact Ho
    isplitl [HS0]; · iexists _; iexact HS0
    isplitl [HS1]; · iexists _; iexact HS1
    iexact Hg

/-! ## The body obligation at a point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

/-- The body at any point. The position modulo 4 says which of the three control cases the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, leaves1_0, leaves1_1, leaves1_2, leaves1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idle1_4_of_not _ hc1) (noFlush1_4 t h1)]
    rw [scratchAt_reset V c t h0]
    dsimp only [stepAcc]
    refine BIBase.Entails.trans (sep_mono_left (Phi1_reset V c t)) ?_
    iintro ⟨⟨Hs, HS0, HS1, Hg⟩, Ho, ⟨%d0, H0⟩, ⟨%d1, H1⟩, ⟨%d2, H2⟩, ⟨%d3, H3⟩, ⟨%d4, H4⟩⟩
    iapply (runA c (grid1.coords t) _ _ _ _ _ _ _ _ _ _ _ _ _ _ hc0 hc1 (iblk1 V c 0 t) (iblk1 V c 1 t) (iblk1 V c 2 t) (iblk1 V c 3 t) ((dat1 V c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Hs HS0 HS1 Hg]
    · isplitl [Hs]; · iexact Hs
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond1_0 (grid1.coords t) := fun h => h0 ((hcond1_0 t).mp h)
    rw [PhiS1_castSucc V c t, PhiS1_pos V c _ _ hz]
    by_cases h1 : t.val % 4 = 3
    · have hc1 : cond1_1 (grid1.coords t) := (hcond1_1 t).mpr h1
      rw [leaves1_4_live V c t hc1]
      unfold outAt
      rw [scratchAt_carry V c t h0]
      dsimp only [stepAcc]
      iintro ⟨⟨Hs, HS0, HS1, Hg⟩, Ho, ⟨%d0, H0⟩, ⟨%d1, H1⟩, ⟨%d2, H2⟩, ⟨%d3, H3⟩, ⟨%d4, H4⟩⟩
      iapply (runC c (grid1.coords t) _ _ _ _ _ _ _ _ _ _ _ _ _ _ hc0 hc1 (iblk1 V c 0 t) (iblk1 V c 1 t) (iblk1 V c 2 t) (iblk1 V c 3 t) (scratchAt V c (t.val - 1) (Nat.lt_of_le_of_lt (Nat.sub_le _ _) t.isLt)).1 (scratchAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [Hs HS0 HS1 Hg]
      · isplitl [Hs]; · iexact Hs
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idle1_4_of_not _ hc1) (noFlush1_4 t h1)]
      rw [scratchAt_carry V c t h0]
      dsimp only [stepAcc]
      iintro ⟨⟨Hs, HS0, HS1, Hg⟩, Ho, ⟨%d0, H0⟩, ⟨%d1, H1⟩, ⟨%d2, H2⟩, ⟨%d3, H3⟩, ⟨%d4, H4⟩⟩
      iapply (runB c (grid1.coords t) _ _ _ _ _ _ _ _ _ _ _ _ _ _ hc0 hc1 (iblk1 V c 0 t) (iblk1 V c 1 t) (iblk1 V c 2 t) (iblk1 V c 3 t) ((dat1 V c).before 4 t d4) (scratchAt V c (t.val - 1) (Nat.lt_of_le_of_lt (Nat.sub_le _ _) t.isLt)).1 (scratchAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hs HS0 HS1 Hg]
      · isplitl [Hs]; · iexact Hs
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ (Pipeline.ΦA spec1 c : sProp 𝕄) := by
  rw [Phi1_eq, PhiS1_pos V c _ _ (by rw [Fin.val_last]; have : cfg1.N = 128 := N_1; omega)]
  refine BIBase.Entails.trans ?_ (PhiA1_intro c)
  iintro ⟨Ho, HS0, HS1, Hg⟩
  isplitl [Ho]; · iexact Ho
  isplitl [HS0]; · iexists _; iexact HS0
  isplitl [HS1]; · iexists _; iexact HS1
  iexact Hg

end Cert.KernelIdeal.Hand

end
-- ==== Proof.KernelIdeal.Launch.lean ====
/-
  The two regions as segments of the program's run, and the run itself: every weakly fair execution terminates with the
  result array at what region 1 leaves and every argument array as launched.
-/
import proofs.«420923_j80255758893374_1_alg».proof.Proof.KernelIdeal.Entry
import proofs.«420923_j80255758893374_1_alg».proof.Proof.KernelIdeal.Proj
import proofs.«420923_j80255758893374_1_alg».proof.Proof.KernelIdeal.Attn
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents left after region 0 alone: its result array at what its eight write-backs leave; every other
    buffer as launched (no valuation reads the family there). -/
def outsA : Gen.Outs (F := F) := fun _ r c =>
  if h : r = main_v3 then
    h ▸ ((dat0 (VR0 m) c).arrAt 2 cfg0.N : Buf (Elt F) ((c : Thread nD τ).loc main_v3))
  else m ((c : Thread nD τ).loc r)

/-- The contents both regions leave: region 1's result array at what its write-backs leave when it is entered from
    the contents that follow region 0's result, every other buffer as after region 0. -/
def outsB : Gen.Outs (F := F) := fun J r c =>
  if h : r = main_v5 then
    h ▸ ((dat1 (VR1 m (outsA m)) c).arrAt 4 cfg1.N : Buf (Elt F) ((c : Thread nD τ).loc main_v5))
  else outsA m J r c

theorem outsA_v3 (J : ℕ) (c : Dev nD) : outsA m J main_v3 c = (dat0 (VR0 m) c).arrAt 2 cfg0.N := by
  unfold outsA; rw [dif_pos rfl]

theorem outsB_v3 (J : ℕ) (c : Dev nD) : outsB m J main_v3 c = outsA m J main_v3 c := by
  unfold outsB; rw [dif_neg (by decide)]

theorem outsB_v5 (J : ℕ) (c : Dev nD) : outsB m J main_v5 c = (dat1 (VR1 m (outsA m)) c).arrAt 4 cfg1.N := by
  unfold outsB; rw [dif_pos rfl]

/-- Region 1's entry contents read the family only at region 0's result. -/
theorem VR1_congr (outs outs' : Gen.Outs (F := F)) (h : ∀ c, outs 4 main_v3 c = outs' 4 main_v3 c) :
    VR1 m outs = VR1 m outs' := by
  funext c b
  simp only [VR1, Gen.V5, Gen.V4, h c]

/-- There is a family of contents the regions leave. -/
theorem exists_outs : ∃ outs : Gen.Outs (F := F), OutsOK m outs := by
  refine ⟨outsB m, fun c => ?_, fun c => ?_⟩
  · rw [outsB_v3, outsA_v3]
  · rw [outsB_v5, VR1_congr m (outsB m) (outsA m) fun c => outsB_v3 m 4 c]

/-! ## The run as segments -/

/-- Each region's proof data at its entry contents. -/
def pdats (outs : Gen.Outs (F := F)) : (p : Fin 2) → (c : Dev nD) →
    Dat τ (Elt F) Unit ℕ (UR sig nD τ) ℕ (Pipeline.pin (pcfgs (F := F)) adm p) c
  | ⟨0, _⟩ => fun c => dat0 (VR0 m) c
  | ⟨1, _⟩ => fun c => dat1 (VR1 m outs) c

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers between two items: the core's generator register at some state and the
    core owing nothing. -/
abbrev R (c : Dev nD) : sProp 𝕄 :=
  iprop((∃ r, prngReg c r) ∗ ∃ W, owes (c : Thread nD τ) (0 : CellTallies nD τ sig Unit) W)
abbrev E : Fin 3 → Dev nD → sProp 𝕄 := fun _ c => R (F := F) c

/-- The buffers' contents when region 0 is left, and when region 1 is left. -/
abbrev VX0 (outs : Gen.Outs (F := F)) : (c : Dev nD) → (b : Ref sig .tc) → Buf (Elt F) ((c : Thread nD τ).loc b) :=
  fun c b => Gen.V4 m outs c b
abbrev VX1 (outs : Gen.Outs (F := F)) : (c : Dev nD) → (b : Ref sig .tc) → Buf (Elt F) ((c : Thread nD τ).loc b) :=
  fun c b => Gen.V6 m outs c b

section Exit

variable (outs : Gen.Outs (F := F)) (hok : OutsOK m outs)
include hok

/-- When region 0 is left each of its arrays holds what the pipeline leaves there: an input array what it held, the
    result array the family's contents. -/
theorem hF0 (c : Dev nD) (w : Fin cfg0.W) :
    (dat0 (VR0 m) c).arrAt w cfg0.N = VX0 m outs c (Pipeline.arrRef spec0 w) := by
  match w with
  | ⟨0, h⟩ =>
    rw [show (⟨0, h⟩ : Fin cfg0.W) = 0 from rfl, (dat0 (VR0 m) c).arrAt_in 0 rfl, A_eq0]
    exact (Gen.V4_of m outs c main_v2 (by decide)).symm
  | ⟨1, h⟩ =>
    rw [show (⟨1, h⟩ : Fin cfg0.W) = 1 from rfl, (dat0 (VR0 m) c).arrAt_in 1 rfl, A_eq0]
    exact (Gen.V4_of m outs c main_arg7 (by decide)).symm
  | ⟨2, h⟩ =>
    rw [show (⟨2, h⟩ : Fin cfg0.W) = 2 from rfl, ← hok.region0 c]
    exact (Function.update_self (Proc.devRef .tc main_v3 : DevRef τ sig) (outs 4 main_v3 c) (Gen.V3 m c)).symm

omit hok in
/-- Every buffer that is no array of region 0 holds what it held. -/
theorem hrest0 (c : Dev nD) : ∀ b, b ∉ Finset.univ.image (Pipeline.arrRef spec0) → VX0 m outs c b = VR0 m c b :=
  fun b hb => Gen.V4_of m outs c b fun hmem => hb (Finset.mem_image.mpr ⟨2, Finset.mem_univ _, (List.mem_singleton.mp hmem).symm⟩)

/-- When region 1 is left each of its arrays holds what the pipeline leaves there. -/
theorem hF1 (c : Dev nD) (w : Fin cfg1.W) :
    (dat1 (VR1 m outs) c).arrAt w cfg1.N = VX1 m outs c (Pipeline.arrRef spec1 w) := by
  match w with
  | ⟨0, h⟩ =>
    rw [show (⟨0, h⟩ : Fin cfg1.W) = 0 from rfl, (dat1 (VR1 m outs) c).arrAt_in 0 rfl, A_eq1]
    exact (Gen.V6_of m outs c main_v4 (by decide)).symm
  | ⟨1, h⟩ =>
    rw [show (⟨1, h⟩ : Fin cfg1.W) = 1 from rfl, (dat1 (VR1 m outs) c).arrAt_in 1 rfl, A_eq1]
    exact (Gen.V6_of m outs c main_v0 (by decide)).symm
  | ⟨2, h⟩ =>
    rw [show (⟨2, h⟩ : Fin cfg1.W) = 2 from rfl, (dat1 (VR1 m outs) c).arrAt_in 2 rfl, A_eq1]
    exact (Gen.V6_of m outs c main_v1 (by decide)).symm
  | ⟨3, h⟩ =>
    rw [show (⟨3, h⟩ : Fin cfg1.W) = 3 from rfl, (dat1 (VR1 m outs) c).arrAt_in 3 rfl, A_eq1]
    exact (Gen.V6_of m outs c main_arg3 (by decide)).symm
  | ⟨4, h⟩ =>
    rw [show (⟨4, h⟩ : Fin cfg1.W) = 4 from rfl, ← hok.region1 c]
    exact (Function.update_self (Proc.devRef .tc main_v5 : DevRef τ sig) (outs 6 main_v5 c) (Gen.V5 m outs c)).symm

omit hok in
/-- Every buffer that is no array of region 1 holds what it held. -/
theorem hrest1 (c : Dev nD) : ∀ b, b ∉ Finset.univ.image (Pipeline.arrRef spec1) → VX1 m outs c b = VR1 m outs c b :=
  fun b hb => Gen.V6_of m outs c b fun hmem => hb (Finset.mem_image.mpr ⟨4, Finset.mem_univ _, (List.mem_singleton.mp hmem).symm⟩)

end Exit

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the core owing nothing: every unscoped buffer at the contents region 1 leaves, the
    generator register at some state. -/
abbrev Tₙ (outs : Gen.Outs (F := F)) (c : Dev nD) : sProp 𝕄 :=
  iprop(StableHlo.held (c : Thread nD τ) (Pipeline.ucRefs τ sig) (Gen.V6 m outs c) ∗ ∃ r, prngReg c r)

set_option backward.isDefEq.respectTransparency.types false in
/-- Region 0 as a segment of the run: entered from every unscoped buffer at the contents before it, left at the
    contents after it; its arrays are split out of the unscoped buffers at the entry and put back at the exit; the
    generator register enters the invariant and comes back; nothing is owed; the kernel has no semaphore of its own. -/
def reg0 (outs : Gen.Outs (F := F)) (hok : OutsOK m outs) :
    Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (VR0 m c) (VX0 m outs c) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered from every unscoped buffer at the contents before it, left at the
    contents after it; its arrays are split out of the unscoped buffers at the entry and put back at the exit; the
    generator register enters the invariant and comes back; nothing is owed; the kernel has no semaphore of its own. -/
def reg1 (outs : Gen.Outs (F := F)) (hok : OutsOK m outs) :
    Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m outs) c).loose
  hwaits := Pipeline.hwaits_of_owed_zero _ _ _ _ L lv 1 fun _ _ => rfl
  pre c := iprop(StableHlo.held (c : Thread nD τ) (Pipeline.ucRefs τ sig) (Gen.V5 m outs c) ∗ R c)
  post c := iprop(Tₙ m outs c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (VR1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (VR1 m outs) c)
    unfold Pipeline.ΦA
    iintro ⟨Hp, -, Hr⟩
    isplitl [Hr]; · iexact Hr
    iexact Hp
  hout c := by
    refine (hout1 (VR1 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (VR1 m outs c) (VX1 m outs c) ((pdats m outs 1 c).arrAt · cfg1.N) (hF1 m outs hok c) (hrest1 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

set_option backward.isDefEq.respectTransparency.types false in
/-- The run, with the result named. -/
theorem run_main (outs : Gen.Outs (F := F)) (hok : OutsOK m outs) :
    θ_run defs (onTc (τ := τ) (main (F := F))) ⟨m, fun _ => 0, ρ⟩ (fun r => ∀ c : Dev nD,
      r.2.mem ((c.tc : Thread nD τ).loc main_v5) = outs 6 main_v5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m outs) () cellOf_inj emb₁ defs₀ 𝒱₀ L lv m ρ main
    (Gen.segs m outs 𝒱₀ L lv (E (F := F)) () (pdats m outs) (reg0 m outs hok) (reg1 m outs hok))
    (fun c Q => by
      rewrite [main_chain c, Pipeline.Seg.run_eq_chain,
        show (Gen.segs m outs 𝒱₀ L lv (E (F := F)) () (pdats m outs) (reg0 m outs hok) (reg1 m outs hok) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m outs)
    (hch := fun c => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V6 m outs c) s')
      isplitl [Hh] <;> iassumption)
    (hQ := fun s h c =>
      ⟨(h c _ (mem_uc main_v5 (by decide))).trans
          (Function.update_self (Proc.devRef .tc main_v5 : DevRef τ sig) (outs 6 main_v5 c) (Gen.V5 m outs c)),
        (h c _ (mem_uc main_arg0 (by decide))).trans (Gen.V6_main_arg0 m outs c),
        (h c _ (mem_uc main_arg1 (by decide))).trans (Gen.V6_main_arg1 m outs c),
        (h c _ (mem_uc main_arg2 (by decide))).trans (Gen.V6_main_arg2 m outs c),
        (h c _ (mem_uc main_arg3 (by decide))).trans (Gen.V6_main_arg3 m outs c),
        (h c _ (mem_uc main_arg4 (by decide))).trans (Gen.V6_main_arg4 m outs c),
        (h c _ (mem_uc main_arg5 (by decide))).trans (Gen.V6_main_arg5 m outs c),
        (h c _ (mem_uc main_arg6 (by decide))).trans (Gen.V6_main_arg6 m outs c),
        (h c _ (mem_uc main_arg7 (by decide))).trans (Gen.V6_main_arg7 m outs c)⟩)

end Cert.KernelIdeal.Hand

end
-- ==== Proof.Spec.lean ====
/-
  What the two programs compute, as functions of their argument arrays over the extended reals.

  With batch b, query row s, key row t and feature e:
    proj      Q[b,s,e]  = sum over d of hidden[b,s,d] * weight[d,e]
    score     u[b,s,t]  = sum over e of Q[b,s,e] * K[b,t,e]
    weightMul p[b,s,t]  = exp (u[b,s,t] * c) * min 1 (max 0 mask[b,s,t])        (the score scaled by a product)
    weightDiv p'[b,s,t] = exp (u[b,s,t] / D) * min 1 (max 0 mask[b,s,t])        (the score scaled by a quotient)
    attnMul   o[b,s,e]  = (sum over t of p[b,s,t] * V[b,t,e]) / ((sum over t of p[b,s,t]) + eps)
    attnDiv   o'[b,s,e] = sum over t of (p'[b,s,t] / ((sum over t' of p'[b,s,t']) + eps)) * V[b,t,e]
  and the rows of an embedding table picked by an integer array: rowsK, rowsV.
-/
import Idealize.ShloMosaic.PureOps.Ideal
import Idealize.ShloMosaic.Lib.ValueIdx

noncomputable section

open scoped BigOperators

namespace Cert.Spec

open Idealize.ShloMosaic Idealize.ShloMosaic.ValueIdx

/-- Arrays indexed by (batch, row, feature). -/
abbrev Sbse : Shape := ⟨3, ![8, 2048, 512]⟩
/-- Arrays indexed by (batch, query row, key row). -/
abbrev Sbst : Shape := ⟨3, ![8, 2048, 2048]⟩
/-- The projection's weight. -/
abbrev Sde : Shape := ⟨2, ![512, 512]⟩
/-- Integer arrays indexed by (batch, row). -/
abbrev Sbs : Shape := ⟨2, ![8, 2048]⟩
/-- The key embedding table. -/
abbrev SKtab : Shape := ⟨2, ![32000, 512]⟩
/-- The value embedding table. -/
abbrev SVtab : Shape := ⟨2, ![128, 512]⟩

/-- The projected queries: hidden times weight, batch by batch. -/
def proj (h : Sbse.Idx → EReal) (w : Sde.Idx → EReal) : Sbse.Idx → EReal :=
  fun i => ∑ d : Fin 512, h (ix3 (i 0) (i 1) d) * w (ix2 d (i 2))

/-- The hidden array with batch and row flattened to one axis of 16384 rows. -/
abbrev Sre : Shape := ⟨2, ![16384, 512]⟩

/-- The projection on the flattened array: row r of the result is row r of the hidden array times the weight. -/
def projFlat (x : Sre.Idx → EReal) (w : Sde.Idx → EReal) : Sre.Idx → EReal :=
  fun j => ∑ d : Fin 512, x (ix2 (j 0) d) * w (ix2 d (j 1))

/-- The clip of a mask entry to the unit interval (the bounds are the words of 0.0 and 1.0). -/
def clip01 (x : EReal) : EReal :=
  min (Ideal.ofBits .f32 0x3F800000#32) (max (Ideal.ofBits .f32 0x00000000#32) x)

/-- The added constant of the denominator (the word of 1e-10). -/
def eps : EReal := Ideal.ofBits .f32 0x2EDBE6FF#32

section

variable (Q K V : Sbse.Idx → EReal) (mk : Sbst.Idx → EReal)

/-- The raw score of query row s against key row t. -/
def score (b : Fin 8) (s t : Fin 2048) : EReal := ∑ e : Fin 512, Q (ix3 b s e) * K (ix3 b t e)

/-- The unnormalised weight, the score scaled by the factor c. -/
def weightMul (c : EReal) (b : Fin 8) (s t : Fin 2048) : EReal :=
  Ideal.exp (score Q K b s t * c) * clip01 (mk (ix3 b s t))

/-- The unnormalised weight, the score divided by D. -/
def weightDiv (D : EReal) (b : Fin 8) (s t : Fin 2048) : EReal :=
  Ideal.exp (Ideal.div (score Q K b s t) D) * clip01 (mk (ix3 b s t))

/-- Weighted values summed first, then divided by the total weight plus eps. -/
def attnMul (c : EReal) : Sbse.Idx → EReal := fun i =>
  Ideal.div (∑ t : Fin 2048, weightMul Q K mk c (i 0) (i 1) t * V (ix3 (i 0) t (i 2)))
    ((∑ t : Fin 2048, weightMul Q K mk c (i 0) (i 1) t) + eps)

/-- Each weight divided by the total weight plus eps first, then the weighted values summed. -/
def attnDiv (D : EReal) : Sbse.Idx → EReal := fun i =>
  ∑ t : Fin 2048, Ideal.div (weightDiv Q K mk D (i 0) (i 1) t)
    ((∑ t' : Fin 2048, weightDiv Q K mk D (i 0) (i 1) t') + eps) * V (ix3 (i 0) t (i 2))

end

/-- Row ks[b,s] of the key table at (b, s, ·); the row number is read unsigned and reduced below the table's
    height, so the function is total (on an index array within range it is the plain row lookup). -/
def rowsK (E : SKtab.Idx → EReal) (ks : Sbs.Idx → BitVec 32) : Sbse.Idx → EReal :=
  fun i => E (ix2 (⟨(ks (ix2 (i 0) (i 1))).toNat % 32000, Nat.mod_lt _ (by decide)⟩ : Fin 32000) (i 2))

/-- Row vs[b,s] of the value table at (b, s, ·), likewise. -/
def rowsV (E : SVtab.Idx → EReal) (vs : Sbs.Idx → BitVec 32) : Sbse.Idx → EReal :=
  fun i => E (ix2 (⟨(vs (ix2 (i 0) (i 1))).toNat % 128, Nat.mod_lt _ (by decide)⟩ : Fin 128) (i 2))

/-- The value the scaling constant's name denotes. -/
def invScale : EReal := ((524288 / 11863283 : ℝ) : EReal)

/-- The reference's divisor (the word of 22.6274166). -/
def scaleD : EReal := Ideal.ofBits .f32 0x41B504F3#32

end Cert.Spec

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelIdeal.ProjValue.lean ====
/-
  What region 0 leaves in its result array, at the ideal instance: entry (r, e) is the sum over d of the flattened hidden
  array at (r, d) times the weight at (d, e).
-/
import proofs.«420923_j80255758893374_1_alg».proof.Proof.KernelIdeal.Data
import proofs.«420923_j80255758893374_1_alg».proof.Proof.Spec
import proofs.«420923_j80255758893374_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored block at an entry: the zero-initialised product of the two loaded blocks, whose format changes
    are identities over the extended reals, is the sum over the contracted axis of the products. -/
theorem projPay_apply (x0 : Vec Ideal S2048x512 .f32) (x1 : Vec Ideal S512x512 .f32) (p : Fin 2048) (q : Fin 512) :
    k0_pay1 (F := Ideal) x0 x1 (ix2 p q) = ∑ d : Fin 512, x0 (ix2 p d) * x1 (ix2 d q) := by
  have e : dot_S2048x512_S512x512_S2048x512_1_0_0_1_n_n = DotDims.plain 2048 512 512 := rfl
  unfold k0_pay1
  rw [shapeCast_self, e]
  exact Cert.LibDotPlain.matmul_zero_plain 2048 512 512 none x0 x1 p q

/-- The block indices over the eight points: at point t the hidden rows' block and the result's block are block t of
    their arrays' rows, and the weight's block is the whole weight. -/
theorem projIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the two argument arrays: an entry of the stored product is
    the sum over d of the hidden block's row times the weight's column, the hidden block's row y being row
    2048 t + y of the array and the weight's block being the weight. -/
theorem projFlushed (c : Dev nD) (t : Fin cfg0.N) :
    (dat0 (F := Ideal) V c).flushed 2 t
      = ((cfg0.win 2).blk t).view.read (Elt Ideal) (Cert.Spec.projFlat (V c main_v2) (V c main_arg7)) := by
  show (cfg0.win 2).cut (grid0.coords t) ((dat0 V c).after 2 t) = _
  rw [after0_2]
  obtain ⟨e00, e01, e10, e11, e20, e21⟩ := projIdx t
  refine funext fun (j : S2048x512.Idx) => ?_
  show projOut V c t j = Cert.Spec.projFlat (V c main_v2) (V c main_arg7) (((cfg0.win 2).blk t).view.emb j)
  obtain ⟨p, q, rfl⟩ : ∃ (p : Fin 2048) (q : Fin 512), j = ix2 p q := ⟨j 0, j 1, eq_ix2 j⟩
  unfold projOut Cert.Spec.projFlat
  rw [projPay_apply]
  refine Finset.sum_congr rfl fun d _ => ?_
  congr 1
  · show V c main_v2 (((cfg0.win 0).blk t).view.emb (ix2 p d)) = _
    congr 1
    funext a
    apply Fin.ext
    match a with
    | ⟨0, _⟩ =>
      show win0_0.index t (0 : Fin 2) * 2048 + 1 * p.val = win0_2.index t (0 : Fin 2) * 2048 + 1 * p.val
      omega
    | ⟨1, _⟩ =>
      show win0_0.index t (1 : Fin 2) * 512 + 1 * d.val = d.val
      omega
  · show V c main_arg7 (((cfg0.win 1).blk t).view.emb (ix2 d q)) = _
    congr 1
    funext a
    apply Fin.ext
    match a with
    | ⟨0, _⟩ =>
      show win0_1.index t (0 : Fin 2) * 512 + 1 * d.val = d.val
      omega
    | ⟨1, _⟩ =>
      show win0_1.index t (1 : Fin 2) * 512 + 1 * q.val = win0_2.index t (1 : Fin 2) * 512 + 1 * q.val
      omega

/-- An index of the result array is in point t's block exactly when each coordinate is in the block's range on its
    axis. -/
theorem projMemBlk (t : Fin cfg0.N) (i : S16384x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v3).slice (win0_2.rect t)).set ↔ _
  rw [View.set_slice_whole, Rect.mem_set_unit]
  exact Iff.rfl

/-- The eight blocks fill the result array: row r lies in the block of point r / 2048, which is written back. -/
theorem projCover (i : S16384x512.Idx) :
    ∃ t : Fin cfg0.N, (cfg0.win 2).flush t = true ∧ i ∈ ((cfg0.win 2).blk t).view.set := by
  have hi0 : (i 0).val < 16384 := (i 0).isLt
  have hi1 : (i 1).val < 512 := (i 1).isLt
  obtain ⟨t, ht⟩ : ∃ t : Fin cfg0.N, t.val = (i 0).val / 2048 :=
    ⟨⟨(i 0).val / 2048, Nat.lt_of_lt_of_eq (by omega : (i 0).val / 2048 < 8) N_0.symm⟩, rfl⟩
  obtain ⟨e00, e01, e10, e11, e20, e21⟩ := projIdx t
  refine ⟨t, flush0_2 t, ?_⟩
  rw [projMemBlk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 512 ≤ (i 1).val ∧ (i 1).val < win0_2.index t (1 : Fin 2) * 512 + 512
    omega

/-- Region 0's result array after its eight write-backs is the projection of the flattened hidden array by the
    weight: every point writes its block of that one array, and the blocks fill it. -/
theorem proj_value (c : Dev nD) :
    ((dat0 (F := Ideal) V c).arrAt 2 cfg0.N : S16384x512.Idx → EReal)
      = Cert.Spec.projFlat (V c main_v2) (V c main_arg7) :=
  (dat0 (F := Ideal) V c).arrAt_eq_of_cover 2 (Cert.Spec.projFlat (V c main_v2) (V c main_arg7))
    (fun t _ => projFlushed V c t) projCover

end Cert.KernelIdeal.Hand

end
-- ==== Proof.KernelIdeal.AttnStep.lean ====
/-
  The attention body's arithmetic read at an index, at the ideal instance, over any blocks x0 (queries), x1 (keys),
  x2 (values), x3 (mask) and any accumulators a (weighted values) and l (row sums of the weights):
    the weight of key row j for query row s is  exp ((sum over e of x0[s,e] * x1[j,e]) * c) * min 1 (max 0 x3[s,j]),
    the update of a at (s, e) adds the sum over j of weight[s,j] * x2[j,e],
    the update of l at s adds the sum over j of weight[s,j],
    the stored quotient at (s, e) is a[s,e] / (l[s] + eps),
  and the reset values are zero.
-/
import proofs.«420923_j80255758893374_1_alg».proof.Proof.Gen.KernelIdeal.Skeleton
import proofs.«420923_j80255758893374_1_alg».proof.Proof.Spec
import proofs.«420923_j80255758893374_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.Hand

open Cert.KernelIdeal Cert.KernelIdeal.Gen
open Idealize.ShloMosaic Idealize.ShloMosaic.ValueIdx

variable (x0 x1 x2 x3 : Vec Ideal S1x512x512 .f32) (a : Vec Ideal S512x512 .f32) (l : Vec Ideal S512x1 .f32)

/-- The weight of key row j for query row s within one tile. -/
def tileWeight (s j : Fin 512) : EReal :=
  Ideal.exp ((∑ e : Fin 512, x0 (ix3 0 s e) * x1 (ix3 0 j e)) * Cert.Spec.invScale) * Cert.Spec.clip01 (x3 (ix3 0 s j))

/-- The program's product record is the plain 512 x 512 by 512 x 512 product. -/
theorem dot_eq_plain : dot_S512x512_S512x512_S512x512_1_0_0_1_n_n = DotDims.plain 512 512 512 := rfl

/-- The scaling constant's name denotes 1/D. -/
theorem inv_scale_eq : Named.named (F := Ideal) Cert.KernelIdeal.κ "inv_scale" (φ := .f32) 0x3D3504F3#32 = Cert.Spec.invScale :=
  IdealRules.named_const.ideal_named_scalar _ _ _ _ rfl

/-- The reset value of the weighted-values accumulator is zero at every entry. -/
theorem pay3_apply (s e : Fin 512) : (k1_pay3 (F := Ideal)) (ix2 s e) = 0 := by
  unfold k1_pay3
  rw [shapeCast_self]
  exact Ideal.ofBits_zero_f32

/-- The reset value of the row-sum accumulator is zero at every row. -/
theorem pay4_apply (s : Fin 512) : (k1_pay4 (F := Ideal)) (ix2 s 0) = 0 := by
  unfold k1_pay4
  rw [shapeCast_self]
  exact Ideal.ofBits_zero_f32

/-- The raw score of query row s against key row j: the query block times the transposed key block, read at (s, j),
    is the sum over the features e of x0[s,e] * x1[j,e] (the transposed block at (e, j) is the key block at (j, e)). -/
theorem score_apply (s j : Fin 512) :
    matmul (F := Ideal) dot_S512x512_S512x512_S512x512_1_0_0_1_n_n none
      (truncf FTy.bf16 (shapeCast S512x512 x0 Gen.shapeCasts_S1x512x512_S512x512) Gen.bitsLt_bf16_f32)
      (transpose S512x512 [1, 0] (truncf FTy.bf16 (shapeCast S512x512 x1 Gen.shapeCasts_S1x512x512_S512x512) Gen.bitsLt_bf16_f32)
        Gen.transposes_S512x512_p1_0_S512x512)
      (constant S512x512 FTy.f32 0x00000000#32) (ix2 s j)
    = ∑ e : Fin 512, x0 (ix3 0 s e) * x1 (ix3 0 j e) := by
  rw [dot_eq_plain]
  refine (Cert.LibDotPlain.matmul_zero_plain 512 512 512 none _ _ s j).trans ?_
  refine Finset.sum_congr rfl fun q _ => ?_
  rw [truncf_apply, shapeCast_1ab_ab_apply, transpose_ix2_apply, truncf_apply, shapeCast_1ab_ab_apply]

/-- The weight block at (s, j) is the weight of key row j for query row s. -/
theorem pay6_apply (s j : Fin 512) : k1_pay6 (F := Ideal) x0 x1 x3 (ix2 s j) = tileWeight x0 x1 x3 s j := by
  unfold k1_pay6 tileWeight Cert.Spec.clip01
  refine (mulf_apply _ _ _).trans ?_
  refine congrArg₂ (· * ·) (congrArg Ideal.exp ?_) ?_
  · refine (mulf_apply _ _ _).trans ?_
    exact congrArg₂ (· * ·) (score_apply x0 x1 s j) inv_scale_eq
  · refine (minimumf_apply _ _ _).trans ?_
    refine congrArg (min _) ?_
    refine (maximumf_apply _ _ _).trans ?_
    exact congrArg (max _) (shapeCast_1ab_ab_apply x3 _ s j)

/-- The value block cast to a matrix, at (j, e), is the block at (0, j, e). -/
theorem pay5_apply (j e : Fin 512) : k1_pay5 (F := Ideal) x2 (ix2 j e) = x2 (ix3 0 j e) := by
  unfold k1_pay5
  rw [truncf_apply]
  exact shapeCast_1ab_ab_apply x2 _ j e

/-- One point's update of the weighted-values accumulator at (s, e): what it held plus the sum over the key rows j of
    the weight of j for s times the value block at (j, e). -/
theorem accPV_apply (s e : Fin 512) :
    k1_pay1 (F := Ideal) (k1_pay5 x2) (k1_pay6 x0 x1 x3) a (ix2 s e)
      = a (ix2 s e) + ∑ j : Fin 512, tileWeight x0 x1 x3 s j * x2 (ix3 0 j e) := by
  unfold k1_pay1
  rw [shapeCast_self, dot_eq_plain]
  refine (addf_apply _ _ _).trans ?_
  refine congrArg (a (ix2 s e) + ·) ?_
  refine (Cert.LibDotPlain.matmul_zero_plain 512 512 512 none _ _ s e).trans ?_
  refine Finset.sum_congr rfl fun j _ => ?_
  rw [truncf_apply, pay6_apply, pay5_apply]

/-- A column of 512 entries made from a vector of 512: the entry of row s is the vector's entry s. -/
theorem column_apply (R : S512.Idx → EReal) (h : S512.ShapeCasts S512x1) (s : Fin 512) :
    shapeCast S512x1 R h (ix2 s 0) = R (ix1 s) :=
  shapeCast_apply R h _ _ (by
    rw [Shape.rowMajor_val_one, Shape.rowMajor_val_two]
    show s.val = s.val * 1 + 0
    rw [Nat.mul_one, Nat.add_zero])

/-- Row s with the column k put back is the index (s, k). -/
theorem lift_row (h : S512x512.Reduces [1] S512) (s k : Fin 512) : h.lift (ix1 s) k = ix2 s k := by
  funext c
  apply Fin.ext
  match c with
  | ⟨0, _⟩ => rfl
  | ⟨1, _⟩ => rfl

/-- The sum along the rows of a 512 x 512 array, started from the zero word: entry s is the sum over k of the array at (s, k). -/
theorem rowSum_apply (X : FVec Ideal S512x512 .f32) (h : S512x512.Reduces [1] S512) (hφ : FKind.Formats .f32)
    (hacc : (0x00000000#32 : BitVec 32) = 0x00000000#32) (s : Fin 512) :
    multiReduction (F := Ideal) .add [1] S512 X 0x00000000#32 h hφ hacc (ix1 s) = ∑ k : Fin 512, X (ix2 s k) :=
  (Ideal.multiReduction_add_single X 0x00000000#32 h hφ hacc (ix1 s)).trans
    (Finset.sum_congr rfl fun k _ => congrArg X (lift_row h s k))

/-- One point's update of the row-sum accumulator at row s: what it held plus the sum over the key rows j of the
    weight of j for s. -/
theorem accL_apply (s : Fin 512) :
    k1_pay7 (F := Ideal) x0 x1 x3 l (ix2 s 0) = l (ix2 s 0) + ∑ j : Fin 512, tileWeight x0 x1 x3 s j := by
  unfold k1_pay7
  rw [shapeCast_self]
  refine (addf_apply _ _ _).trans ?_
  refine congrArg (l (ix2 s 0) + ·) ?_
  refine (column_apply _ _ s).trans ?_
  refine (rowSum_apply _ _ _ _ s).trans ?_
  exact Finset.sum_congr rfl fun j _ => pay6_apply x0 x1 x3 s j

/-- A column broadcast along the rows: the entry at (s, e) is the column's entry of row s. -/
theorem spread_apply (c : S512x1.Idx → EReal) (h : S512x1.Broadcasts S512x512) (s e : Fin 512) :
    broadcastTo S512x512 c h (ix2 s e) = c (ix2 s 0) := by
  refine broadcastTo_apply c h (ix2 s e) (ix2 s 0) fun ax => ?_
  match ax with
  | ⟨0, _⟩ => rfl
  | ⟨1, _⟩ => rfl

/-- The stored quotient at (0, s, e): the weighted values at (s, e) divided by the row sum of s plus eps. -/
theorem quot_apply (s e : Fin 512) :
    k1_pay2 (F := Ideal) a l (ix3 0 s e) = Ideal.div (a (ix2 s e)) (l (ix2 s 0) + Cert.Spec.eps) := by
  unfold k1_pay2
  refine (shapeCast_ab_1ab_apply _ _ 0 s e).trans ?_
  refine (divf_apply _ _ _).trans ?_
  refine congrArg (Ideal.div (a (ix2 s e))) ?_
  exact spread_apply _ _ s e

end Cert.KernelIdeal.Hand

end
-- ==== Proof.KernelIdeal.AttnValue.lean ====
/-
  What region 1 leaves in its result array, at the ideal instance: the specification's attnMul of the arrays the region
  finds (queries, keys, values, mask), the scaling factor the value its name denotes.

  Grid point t = 16 b + 4 qi + ki works on batch b, the 512 query rows of tile qi and the 512 key rows of tile ki. A
  block entry (0, r, x) of a window whose block index at t is (b, n, n') is the array's entry (b, 512 n + r, 512 n' + x)
  (the last axis of the queries, keys, values and result is not tiled: n' = 0). So within one tile the weight of key row
  j for query row s is the specification's weight of row 512 ki + j for row 512 qi + s of batch b.

  The accumulators are reset at ki = 0 and each of the four points (b, qi, 0..3) adds its key tile's share, so after
  ki = 3 they hold, at (s, e) and at s,
      0 + T 0 + T 1 + T 2 + T 3      with  T kt = the sum over the tile's rows j of  weight (512 kt + j) * value (512 kt + j, e),
  resp. of the weights alone. Addition of extended reals is commutative and associative, and the 2048 key rows are the
  four tiles' 512 rows each, so these are the sums over all 2048 key rows; the stored quotient is then the
  specification's, entry by entry. The blocks written back at the points with ki = 3 tile the result array: row (b, s)
  lies in the block of (b, s / 512, 3).
-/
import proofs.«420923_j80255758893374_1_alg».proof.Proof.KernelIdeal.Data
import proofs.«420923_j80255758893374_1_alg».proof.Proof.KernelIdeal.AttnStep
import proofs.«420923_j80255758893374_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

namespace AttnVal

/-- Where the blocks of the five windows sit at grid point t = 16 b + 4 qi + ki. -/
theorem blockIdx : ∀ t : Fin cfg1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = t.val % 4 ∧ win1_1.index t (2 : Fin 3) = 0)
    ∧ (win1_2.index t (0 : Fin 3) = t.val / 16 ∧ win1_2.index t (1 : Fin 3) = t.val % 4 ∧ win1_2.index t (2 : Fin 3) = 0)
    ∧ (win1_3.index t (0 : Fin 3) = t.val / 16 ∧ win1_3.index t (1 : Fin 3) = t.val / 4 % 4 ∧ win1_3.index t (2 : Fin 3) = t.val % 4)
    ∧ (win1_4.index t (0 : Fin 3) = t.val / 16 ∧ win1_4.index t (1 : Fin 3) = t.val / 4 % 4 ∧ win1_4.index t (2 : Fin 3) = 0) :=
  (by decide +kernel : ∀ t : Fin grid1.N, _)

/-- The four arrays the region reads, as it finds them: queries, keys, values, mask. -/
abbrev qArr (c : Dev nD) : Vec Ideal S8x2048x512 .f32 := V c main_v4
abbrev kArr (c : Dev nD) : Vec Ideal S8x2048x512 .f32 := V c main_v0
abbrev vArr (c : Dev nD) : Vec Ideal S8x2048x512 .f32 := V c main_v1
abbrev mArr (c : Dev nD) : Vec Ideal S8x2048x2048 .f32 := V c main_arg3
/-- Their blocks at grid point t. -/
abbrev qBlk (c : Dev nD) (t : Fin cfg1.N) : Vec Ideal S1x512x512 .f32 := iblk1 V c 0 t
abbrev kBlk (c : Dev nD) (t : Fin cfg1.N) : Vec Ideal S1x512x512 .f32 := iblk1 V c 1 t
abbrev vBlk (c : Dev nD) (t : Fin cfg1.N) : Vec Ideal S1x512x512 .f32 := iblk1 V c 2 t
abbrev mBlk (c : Dev nD) (t : Fin cfg1.N) : Vec Ideal S1x512x512 .f32 := iblk1 V c 3 t

/-- Entry (0, s, e) of the query block at t is the queries' entry (b, 512 qi + s, e). -/
theorem qBlk_apply (c : Dev nD) (t : Fin cfg1.N) (s e : Fin 512) (k : S8x2048x512.Idx)
    (h0 : (k 0).val = t.val / 16) (h1 : (k 1).val = 512 * (t.val / 4 % 4) + s.val) (h2 : (k 2).val = e.val) :
    qBlk V c t (ix3 0 s e) = qArr V c k := by
  obtain ⟨⟨e0, e1, e2⟩, -⟩ := blockIdx t
  unfold qBlk iblk1
  rw [View.read_apply]
  show V c main_v4 _ = V c main_v4 _
  congr 1
  funext a
  apply Fin.ext
  match a with
  | ⟨0, _⟩ => show win1_0.index t (0 : Fin 3) * 1 + 1 * (0 : Fin 1).val = (k 0).val; rw [e0, h0]; simp
  | ⟨1, _⟩ => show win1_0.index t (1 : Fin 3) * 512 + 1 * s.val = (k 1).val; rw [e1, h1]; omega
  | ⟨2, _⟩ => show win1_0.index t (2 : Fin 3) * 512 + 1 * e.val = (k 2).val; rw [e2, h2]; omega

/-- Entry (0, j, e) of the key block at t is the keys' entry (b, 512 ki + j, e). -/
theorem kBlk_apply (c : Dev nD) (t : Fin cfg1.N) (j e : Fin 512) (k : S8x2048x512.Idx)
    (h0 : (k 0).val = t.val / 16) (h1 : (k 1).val = 512 * (t.val % 4) + j.val) (h2 : (k 2).val = e.val) :
    kBlk V c t (ix3 0 j e) = kArr V c k := by
  obtain ⟨-, ⟨e0, e1, e2⟩, -⟩ := blockIdx t
  unfold kBlk iblk1
  rw [View.read_apply]
  show V c main_v0 _ = V c main_v0 _
  congr 1
  funext a
  apply Fin.ext
  match a with
  | ⟨0, _⟩ => show win1_1.index t (0 : Fin 3) * 1 + 1 * (0 : Fin 1).val = (k 0).val; rw [e0, h0]; simp
  | ⟨1, _⟩ => show win1_1.index t (1 : Fin 3) * 512 + 1 * j.val = (k 1).val; rw [e1, h1]; omega
  | ⟨2, _⟩ => show win1_1.index t (2 : Fin 3) * 512 + 1 * e.val = (k 2).val; rw [e2, h2]; omega

/-- Entry (0, j, e) of the value block at t is the values' entry (b, 512 ki + j, e). -/
theorem vBlk_apply (c : Dev nD) (t : Fin cfg1.N) (j e : Fin 512) (k : S8x2048x512.Idx)
    (h0 : (k 0).val = t.val / 16) (h1 : (k 1).val = 512 * (t.val % 4) + j.val) (h2 : (k 2).val = e.val) :
    vBlk V c t (ix3 0 j e) = vArr V c k := by
  obtain ⟨-, -, ⟨e0, e1, e2⟩, -⟩ := blockIdx t
  unfold vBlk iblk1
  rw [View.read_apply]
  show V c main_v1 _ = V c main_v1 _
  congr 1
  funext a
  apply Fin.ext
  match a with
  | ⟨0, _⟩ => show win1_2.index t (0 : Fin 3) * 1 + 1 * (0 : Fin 1).val = (k 0).val; rw [e0, h0]; simp
  | ⟨1, _⟩ => show win1_2.index t (1 : Fin 3) * 512 + 1 * j.val = (k 1).val; rw [e1, h1]; omega
  | ⟨2, _⟩ => show win1_2.index t (2 : Fin 3) * 512 + 1 * e.val = (k 2).val; rw [e2, h2]; omega

/-- Entry (0, s, j) of the mask block at t is the mask's entry (b, 512 qi + s, 512 ki + j). -/
theorem mBlk_apply (c : Dev nD) (t : Fin cfg1.N) (s j : Fin 512) (k : S8x2048x2048.Idx)
    (h0 : (k 0).val = t.val / 16) (h1 : (k 1).val = 512 * (t.val / 4 % 4) + s.val) (h2 : (k 2).val = 512 * (t.val % 4) + j.val) :
    mBlk V c t (ix3 0 s j) = mArr V c k := by
  obtain ⟨-, -, -, ⟨e0, e1, e2⟩, -⟩ := blockIdx t
  unfold mBlk iblk1
  rw [View.read_apply]
  show V c main_arg3 _ = V c main_arg3 _
  congr 1
  funext a
  apply Fin.ext
  match a with
  | ⟨0, _⟩ => show win1_3.index t (0 : Fin 3) * 1 + 1 * (0 : Fin 1).val = (k 0).val; rw [e0, h0]; simp
  | ⟨1, _⟩ => show win1_3.index t (1 : Fin 3) * 512 + 1 * s.val = (k 1).val; rw [e1, h1]; omega
  | ⟨2, _⟩ => show win1_3.index t (2 : Fin 3) * 512 + 1 * j.val = (k 2).val; rw [e2, h2]; omega

/-- Key row j of key tile kt, as a row of the whole array. -/
abbrev keyRow (kt : Fin 4) (j : Fin 512) : Fin 2048 := ⟨512 * kt.val + j.val, by have := kt.isLt; have := j.isLt; omega⟩

/-- A sum over the 2048 key rows is the sum over the four key tiles of the sums over each tile's 512 rows. -/
theorem sum_keyRows {M : Type} [AddCommMonoid M] (f : Fin 2048 → M) :
    ∑ tg : Fin 2048, f tg = ∑ kt : Fin 4, ∑ j : Fin 512, f (keyRow kt j) := by
  rw [← Equiv.sum_comp (finProdFinEquiv : Fin 4 × Fin 512 ≃ Fin (4 * 512)) f, Fintype.sum_prod_type]
  refine Finset.sum_congr rfl fun kt _ => Finset.sum_congr rfl fun j _ => congrArg f (Fin.ext ?_)
  show j.val + 512 * kt.val = 512 * kt.val + j.val
  omega

/-- The weight of key row tg for query row sg of batch bb, over the arrays the region finds. -/
abbrev wgt (c : Dev nD) (bb : Fin 8) (sg tg : Fin 2048) : EReal :=
  Cert.Spec.weightMul (qArr V c) (kArr V c) (mArr V c) Cert.Spec.invScale bb sg tg

/-- Within the tile of point t the weight of key row j for query row s is the weight of row 512 ki + j for row
    512 qi + s of batch b: the three blocks are read where they sit in their arrays. -/
theorem tileWeight_eq (c : Dev nD) (t : Fin cfg1.N) (s j : Fin 512) (bb : Fin 8) (sg tg : Fin 2048)
    (hb : bb.val = t.val / 16) (hs : sg.val = 512 * (t.val / 4 % 4) + s.val) (ht : tg.val = 512 * (t.val % 4) + j.val) :
    tileWeight (qBlk V c t) (kBlk V c t) (mBlk V c t) s j = wgt V c bb sg tg := by
  unfold tileWeight wgt Cert.Spec.weightMul Cert.Spec.score
  have hsum : (∑ e : Fin 512, qBlk V c t (ix3 0 s e) * kBlk V c t (ix3 0 j e))
      = ∑ e : Fin 512, qArr V c (ix3 bb sg e) * kArr V c (ix3 bb tg e) :=
    Finset.sum_congr rfl fun e _ => by
      rw [qBlk_apply V c t s e (ix3 bb sg e) hb hs rfl, kBlk_apply V c t j e (ix3 bb tg e) hb ht rfl]
  rw [hsum, mBlk_apply V c t s j (ix3 bb sg tg) hb hs ht]

/-- The accumulators after a point past the first: the point's update of the reset values where ki = 0, of what the
    point before left elsewhere. -/
theorem scratchAt_succ (c : Dev nD) (n : ℕ) (h : n + 1 < cfg1.N) :
    scratchAt V c (n + 1) h = stepAcc V c ⟨n + 1, h⟩
      (if (n + 1) % 4 = 0 then (k1_pay3 (F := Ideal), k1_pay4 (F := Ideal)) else scratchAt V c n (Nat.lt_of_succ_lt h)) := by
  rw [scratchAt]

/-- At a point with ki = 0 the update starts from the reset values. -/
theorem scratchAt_reset (c : Dev nD) : ∀ (n : ℕ) (h : n < cfg1.N), n % 4 = 0 →
    scratchAt V c n h = stepAcc V c ⟨n, h⟩ (k1_pay3 (F := Ideal), k1_pay4 (F := Ideal))
  | 0, h, _ => by rw [scratchAt]
  | n + 1, h, h0 => by rw [scratchAt_succ, if_pos h0]

/-- At a point with ki ≠ 0 it starts from what the point before left. -/
theorem scratchAt_carry (c : Dev nD) (n : ℕ) (h : n + 1 < cfg1.N) (h0 : (n + 1) % 4 ≠ 0) :
    scratchAt V c (n + 1) h = stepAcc V c ⟨n + 1, h⟩ (scratchAt V c n (Nat.lt_of_succ_lt h)) := by
  rw [scratchAt_succ, if_neg h0]

/-- One point's update of the first accumulator at (s, e): the weighted values of the point's key tile are added. -/
theorem stepAcc_fst (c : Dev nD) (u : Fin cfg1.N) (p : Vec Ideal S512x512 .f32 × Vec Ideal S512x1 .f32)
    (s e : Fin 512) (bb : Fin 8) (sg : Fin 2048) (kt : Fin 4)
    (hb : bb.val = u.val / 16) (hs : sg.val = 512 * (u.val / 4 % 4) + s.val) (hk : kt.val = u.val % 4) :
    (stepAcc V c u p).1 (ix2 s e)
      = p.1 (ix2 s e) + ∑ j : Fin 512, wgt V c bb sg (keyRow kt j) * vArr V c (ix3 bb (keyRow kt j) e) := by
  show k1_pay1 (F := Ideal) (k1_pay5 (vBlk V c u)) (k1_pay6 (qBlk V c u) (kBlk V c u) (mBlk V c u)) p.1 (ix2 s e) = _
  rw [accPV_apply (qBlk V c u) (kBlk V c u) (vBlk V c u) (mBlk V c u) p.1 s e]
  refine congrArg (fun z : EReal => (p.1 (ix2 s e) : EReal) + z) (Finset.sum_congr rfl fun j _ => ?_)
  have ht : (keyRow kt j).val = 512 * (u.val % 4) + j.val := by show 512 * kt.val + j.val = _; rw [hk]
  rw [tileWeight_eq V c u s j bb sg (keyRow kt j) hb hs ht, vBlk_apply V c u j e (ix3 bb (keyRow kt j) e) hb ht rfl]

/-- One point's update of the second accumulator at s: the weights of the point's key tile are added. -/
theorem stepAcc_snd (c : Dev nD) (u : Fin cfg1.N) (p : Vec Ideal S512x512 .f32 × Vec Ideal S512x1 .f32)
    (s : Fin 512) (bb : Fin 8) (sg : Fin 2048) (kt : Fin 4)
    (hb : bb.val = u.val / 16) (hs : sg.val = 512 * (u.val / 4 % 4) + s.val) (hk : kt.val = u.val % 4) :
    (stepAcc V c u p).2 (ix2 s 0) = p.2 (ix2 s 0) + ∑ j : Fin 512, wgt V c bb sg (keyRow kt j) := by
  show k1_pay7 (F := Ideal) (qBlk V c u) (kBlk V c u) (mBlk V c u) p.2 (ix2 s 0) = _
  rw [accL_apply (qBlk V c u) (kBlk V c u) (mBlk V c u) p.2 s]
  refine congrArg (fun z : EReal => (p.2 (ix2 s 0) : EReal) + z) (Finset.sum_congr rfl fun j _ => ?_)
  have ht : (keyRow kt j).val = 512 * (u.val % 4) + j.val := by show 512 * kt.val + j.val = _; rw [hk]
  rw [tileWeight_eq V c u s j bb sg (keyRow kt j) hb hs ht]

/-- After the point (b, qi, 3) = m + 3 the accumulators hold, at (s, e) and at s, the sums over all 2048 key rows: the
    four points m .. m + 3 share b and qi, the first resets, and each adds its key tile's 512 rows. -/
theorem scratch_last (c : Dev nD) (m : ℕ) (h : m + 3 < cfg1.N) (h0 : m % 4 = 0) (s e : Fin 512) (bb : Fin 8) (sg : Fin 2048)
    (hb : bb.val = m / 16) (hs : sg.val = 512 * (m / 4 % 4) + s.val) :
    (scratchAt V c (m + 3) h).1 (ix2 s e) = ∑ tg : Fin 2048, wgt V c bb sg tg * vArr V c (ix3 bb tg e)
    ∧ (scratchAt V c (m + 3) h).2 (ix2 s 0) = ∑ tg : Fin 2048, wgt V c bb sg tg := by
  have h2 : m + 2 < cfg1.N := Nat.lt_of_succ_lt h
  have h1 : m + 1 < cfg1.N := Nat.lt_of_succ_lt h2
  have hm : m < cfg1.N := Nat.lt_of_succ_lt h1
  have e3 : scratchAt V c (m + 3) h = stepAcc V c ⟨m + 3, h⟩ (scratchAt V c (m + 2) h2) := scratchAt_carry V c (m + 2) h (by omega)
  have e2 : scratchAt V c (m + 2) h2 = stepAcc V c ⟨m + 2, h2⟩ (scratchAt V c (m + 1) h1) := scratchAt_carry V c (m + 1) h2 (by omega)
  have e1 : scratchAt V c (m + 1) h1 = stepAcc V c ⟨m + 1, h1⟩ (scratchAt V c m hm) := scratchAt_carry V c m h1 (by omega)
  have e0 : scratchAt V c m hm = stepAcc V c ⟨m, hm⟩ (k1_pay3 (F := Ideal), k1_pay4 (F := Ideal)) := scratchAt_reset V c m hm h0
  constructor
  · rw [e3, stepAcc_fst V c ⟨m + 3, h⟩ _ s e bb sg 3 (by show bb.val = (m + 3) / 16; omega) (by show sg.val = 512 * ((m + 3) / 4 % 4) + s.val; omega) (by show 3 = (m + 3) % 4; omega),
      e2, stepAcc_fst V c ⟨m + 2, h2⟩ _ s e bb sg 2 (by show bb.val = (m + 2) / 16; omega) (by show sg.val = 512 * ((m + 2) / 4 % 4) + s.val; omega) (by show 2 = (m + 2) % 4; omega),
      e1, stepAcc_fst V c ⟨m + 1, h1⟩ _ s e bb sg 1 (by show bb.val = (m + 1) / 16; omega) (by show sg.val = 512 * ((m + 1) / 4 % 4) + s.val; omega) (by show 1 = (m + 1) % 4; omega),
      e0, stepAcc_fst V c ⟨m, hm⟩ _ s e bb sg 0 hb hs (by show 0 = m % 4; omega)]
    show k1_pay3 (F := Ideal) (ix2 s e) + _ + _ + _ + _ = _
    rw [pay3_apply, zero_add, sum_keyRows, Fin.sum_univ_four]
  · rw [e3, stepAcc_snd V c ⟨m + 3, h⟩ _ s bb sg 3 (by show bb.val = (m + 3) / 16; omega) (by show sg.val = 512 * ((m + 3) / 4 % 4) + s.val; omega) (by show 3 = (m + 3) % 4; omega),
      e2, stepAcc_snd V c ⟨m + 2, h2⟩ _ s bb sg 2 (by show bb.val = (m + 2) / 16; omega) (by show sg.val = 512 * ((m + 2) / 4 % 4) + s.val; omega) (by show 2 = (m + 2) % 4; omega),
      e1, stepAcc_snd V c ⟨m + 1, h1⟩ _ s bb sg 1 (by show bb.val = (m + 1) / 16; omega) (by show sg.val = 512 * ((m + 1) / 4 % 4) + s.val; omega) (by show 1 = (m + 1) % 4; omega),
      e0, stepAcc_snd V c ⟨m, hm⟩ _ s bb sg 0 hb hs (by show 0 = m % 4; omega)]
    show k1_pay4 (F := Ideal) (ix2 s 0) + _ + _ + _ + _ = _
    rw [pay4_apply, zero_add, sum_keyRows, Fin.sum_univ_four]

/-- The specification's attention over the arrays the region finds. -/
abbrev attnOut (c : Dev nD) : S8x2048x512.Idx → EReal :=
  Cert.Spec.attnMul (qArr V c) (kArr V c) (vArr V c) (mArr V c) Cert.Spec.invScale

/-- What a point with ki = 3 stores at (s, e) of its block is the specification at the row the block's row s is. -/
theorem outAt_apply (c : Dev nD) (t : Fin cfg1.N) (h3 : t.val % 4 = 3) (j : S1x512x512.Idx) (k : S8x2048x512.Idx)
    (h0 : (k 0).val = t.val / 16) (h1 : (k 1).val = 512 * (t.val / 4 % 4) + (j 1).val) (h2 : (k 2).val = (j 2).val) :
    outAt V c t j = attnOut V c k := by
  obtain ⟨z, s, e, rfl⟩ : ∃ (z : Fin 1) (s e : Fin 512), j = ix3 z s e := ⟨j 0, j 1, j 2, eq_ix3 j⟩
  obtain rfl : z = 0 := Subsingleton.elim _ _
  obtain ⟨bb, sg, ee, rfl⟩ : ∃ (bb : Fin 8) (sg : Fin 2048) (ee : Fin 512), k = ix3 bb sg ee := ⟨k 0, k 1, k 2, eq_ix3 k⟩
  obtain rfl : ee = e := Fin.ext h2
  obtain ⟨tv, ht⟩ := t
  obtain ⟨m, rfl⟩ : ∃ m, tv = m + 3 := ⟨tv - 3, by have : tv % 4 = 3 := h3; omega⟩
  have hm0 : m % 4 = 0 := by have : (m + 3) % 4 = 3 := h3; omega
  obtain ⟨ea, el⟩ := scratch_last V c m ht hm0 s ee bb sg
    (by have : bb.val = (m + 3) / 16 := h0; omega) (by have : sg.val = 512 * ((m + 3) / 4 % 4) + s.val := h1; omega)
  show k1_pay2 (F := Ideal) (scratchAt V c (m + 3) ht).1 (scratchAt V c (m + 3) ht).2 (ix3 0 s ee) = _
  rw [quot_apply (scratchAt V c (m + 3) ht).1 (scratchAt V c (m + 3) ht).2 s ee, ea, el]
  rfl

/-- What a point with ki = 3 writes back is its block of the specification's attention. -/
theorem flushed_eq (c : Dev nD) (t : Fin cfg1.N) (hf : (cfg1.win 4).flush t = true) :
    (dat1 V c).flushed 4 t = ((cfg1.win 4).blk t).view.read (Elt Ideal) (attnOut V c) := by
  have h3 : t.val % 4 = 3 := (flush1_4 t).mp hf
  obtain ⟨-, -, -, -, e0, e1, e2⟩ := blockIdx t
  show (cfg1.win 4).cut (grid1.coords t) ((dat1 V c).after 4 t) = _
  rw [after1_4]
  funext j
  show outAt V c t j = attnOut V c (((cfg1.win 4).blk t).view.emb j)
  have hj0 : (j 0).val < 1 := (j 0).isLt
  refine outAt_apply V c t h3 j _ ?_ ?_ ?_
  · show win1_4.index t (0 : Fin 3) * 1 + 1 * (j 0).val = t.val / 16
    rw [e0]; omega
  · show win1_4.index t (1 : Fin 3) * 512 + 1 * (j 1).val = 512 * (t.val / 4 % 4) + (j 1).val
    rw [e1]; omega
  · show win1_4.index t (2 : Fin 3) * 512 + 1 * (j 2).val = (j 2).val
    rw [e2]; omega

/-- Every entry of the result array lies in the block of a point with ki = 3: row (b, s) in that of
    (b, s / 512, 3). -/
theorem covered (i : S8x2048x512.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 512 := (i 2).isLt
  have hN : cfg1.N = 128 := N_1
  obtain ⟨t, ht⟩ : ∃ t : Fin cfg1.N, t.val = 16 * (i 0).val + 4 * ((i 1).val / 512) + 3 :=
    ⟨⟨16 * (i 0).val + 4 * ((i 1).val / 512) + 3, by rw [hN]; omega⟩, rfl⟩
  obtain ⟨-, -, -, -, e0, e1, e2⟩ := blockIdx t
  refine ⟨t, (flush1_4 t).mpr (by omega), ?_⟩
  show i ∈ ((View.whole main_v5).slice (win1_4.rect t)).set
  rw [View.set_slice_whole, Rect.mem_set_unit]
  intro a
  match a with
  | ⟨0, _⟩ =>
    show win1_4.index t (0 : Fin 3) * 1 ≤ (i 0).val ∧ (i 0).val < win1_4.index t (0 : Fin 3) * 1 + 1
    rw [e0]; omega
  | ⟨1, _⟩ =>
    show win1_4.index t (1 : Fin 3) * 512 ≤ (i 1).val ∧ (i 1).val < win1_4.index t (1 : Fin 3) * 512 + 512
    rw [e1]; omega
  | ⟨2, _⟩ =>
    show win1_4.index t (2 : Fin 3) * 512 ≤ (i 2).val ∧ (i 2).val < win1_4.index t (2 : Fin 3) * 512 + 512
    rw [e2]; omega

end AttnVal

/-- The result array after the region's write-backs is the specification's attention. -/
theorem attn_value (c : Dev nD) :
    ((dat1 (F := Ideal) V c).arrAt 4 cfg1.N : S8x2048x512.Idx → EReal)
      = Cert.Spec.attnMul (V c main_v4) (V c main_v0) (V c main_v1) (V c main_arg3) Cert.Spec.invScale :=
  (dat1 (F := Ideal) V c).arrAt_eq_of_cover 4 (AttnVal.attnOut V c) (AttnVal.flushed_eq V c) AttnVal.covered

end Cert.KernelIdeal.Hand

end
-- ==== Proof.KernelIdeal.Host.lean ====
/-
  The host lines around the regions read at an index, and the kernel program's result as the specification's function of
  the argument arrays: the queries are the projection of the hidden array, the keys and values the rows of the two
  tables picked by the index arrays (within range, so that no row is replaced by the fill value).
-/
import proofs.«420923_j80255758893374_1_alg».proof.Proof.KernelIdeal.Entry
import proofs.«420923_j80255758893374_1_alg».proof.Proof.KernelIdeal.ProjValue
import proofs.«420923_j80255758893374_1_alg».proof.Proof.KernelIdeal.AttnValue
import Idealize.ShloMosaic.Lib.StableHlo.Run
import Idealize.ShloMosaic.Lib.Pipeline.Value
import Idealize.ShloMosaic.Lib.ValueIdx
import Idealize.ShloMosaic.PureOps.Reduce

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

namespace HostLines

/-! ## Words: an index within its table's range -/

/-- A 32-bit word whose signed value is not negative has that value as its unsigned one. -/
theorem toInt_eq_toNat_of_nonneg {x : BitVec 32} (h : 0 ≤ x.toInt) : x.toInt = (x.toNat : ℤ) := by
  rw [BitVec.toInt_eq_toNat_cond] at h ⊢
  split at h
  · rename_i hc; rw [if_pos hc]
  · exfalso; have := x.isLt; omega

/-- Such a word is not below zero … -/
theorem cmpi_slt_zero {x : BitVec 32} (h : 0 ≤ x.toInt) : IntOp.cmpi .slt x 0#32 = 0#1 := by
  have h0 : (0#32 : BitVec 32).toInt = 0 := by decide
  unfold IntOp.cmpi
  show BitVec.ofBool (x.slt 0#32) = 0#1
  rw [BitVec.slt, h0, decide_eq_false (by omega)]
  rfl

/-- … it is at least zero … -/
theorem cmpi_sge_zero {x : BitVec 32} (h : 0 ≤ x.toInt) : IntOp.cmpi .sge x 0#32 = 1#1 := by
  have h0 : (0#32 : BitVec 32).toInt = 0 := by decide
  unfold IntOp.cmpi
  show BitVec.ofBool ((0#32 : BitVec 32).sle x) = 1#1
  rw [BitVec.sle, h0, decide_eq_true h]
  rfl

/-- … and at most any word whose signed value bounds its own. -/
theorem cmpi_sle_of_le {x y : BitVec 32} (h : x.toInt ≤ y.toInt) : IntOp.cmpi .sle x y = 1#1 := by
  unfold IntOp.cmpi
  show BitVec.ofBool (x.sle y) = 1#1
  rw [BitVec.sle, decide_eq_true h]
  rfl

/-! ## A reduction by "and" of an array of ones -/

/-- A left fold by "and" from 1 over words that are all 1 is 1. -/
theorem foldl_andi_ones {ι : Type} (x : ι → BitVec 1) :
    ∀ l : List ι, (∀ i ∈ l, x i = 1#1) → l.foldl (fun r i => IntOp.andi r (x i)) 1#1 = 1#1
  | [], _ => rfl
  | a :: l, hl => by
    rw [List.foldl_cons, hl a List.mem_cons_self]
    exact foldl_andi_ones x l fun i hi => hl i (List.mem_cons_of_mem _ hi)

/-- A reduction by "and", started at 1, of an array whose every entry is 1 is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun i _ => hx i

/-! ## The row lookup read at an index -/

/-- The dimension numbers of a row lookup: table [N, 512], row numbers [8, 2048, 1], result [8, 2048, 512]. -/
abbrev rowDims (N : ℕ) (wf : GatherDims.WF ⟨2, ![N, 512]⟩ ⟨3, ![8, 2048, 1]⟩ ⟨3, ![8, 2048, 512]⟩ [2] [0] [] [0] [] 2 ![1, 512]) :
    GatherDims ⟨2, ![N, 512]⟩ ⟨3, ![8, 2048, 1]⟩ ⟨3, ![8, 2048, 512]⟩ where
  offsetDims := [2]
  collapsedSliceDims := [0]
  operandBatchingDims := []
  startIndicesBatchingDims := []
  startIndexMap := [0]
  indexVectorDim := 2
  sliceSizes := ![1, 512]
  wf := wf

/-- Entry (b, s, e) of the lookup is the table's entry (r, e), r the row number at (b, s, 0) read signed and clamped
    into the table. -/
theorem gather_rows_apply {α : Type} {N : ℕ} (hN : 0 < N)
    (wf : GatherDims.WF ⟨2, ![N, 512]⟩ ⟨3, ![8, 2048, 1]⟩ ⟨3, ![8, 2048, 512]⟩ [2] [0] [] [0] [] 2 ![1, 512])
    (x : (⟨2, ![N, 512]⟩ : Shape).Idx → α) (idx : IVec ⟨3, ![8, 2048, 1]⟩ 32) (y : (⟨3, ![8, 2048, 512]⟩ : Shape).Idx) :
    Host.gather (rowDims N wf) x idx y
      = x (ix2 (⟨min (idx (ix3 (y 0) (y 1) (0 : Fin 1))).toInt.toNat (N - 1), by omega⟩ : Fin N) (y 2)) := by
  unfold Host.gather
  congr 1
  funext a
  refine Fin.ext ?_
  show (rowDims N wf).start y idx a + (rowDims N wf).batchCoord y a + (rowDims N wf).offCoord y a = _
  rw [GatherDims.batchCoord_eq_zero _ _ _ List.not_mem_nil]
  revert a
  refine Fin.forall_fin_two.2 ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx y ⟨List.idxOf (0 : Fin 2) (rowDims N wf).startIndexMap,
        List.idxOf_lt_length_iff.2 (List.mem_singleton.mpr rfl)⟩ = ix3 (y 0) (y 1) (0 : Fin 1) := by
      funext b; refine Fin.ext ?_
      match b with
      | ⟨0, _⟩ => rfl
      | ⟨1, _⟩ => rfl
      | ⟨2, _⟩ => rfl
    rw [hsi]
    rfl
  · have h1 : (1 : Fin 2) ∉ ([0] : List (Fin 2)) := by decide
    unfold GatherDims.start
    rw [dif_neg (show (1 : Fin 2) ∉ (rowDims N wf).startIndexMap from h1)]
    unfold GatherDims.offCoord
    rw [dif_pos (show (1 : Fin 2) ∈ (rowDims N wf).sKept from (GatherDims.mem_sKept _ _).2 ⟨h1, List.not_mem_nil⟩)]
    rw [Nat.add_zero, Nat.zero_add]
    rfl

/-! ## The pieces of a row lookup, for row numbers within the table -/

section Chain

variable (idx : S8x2048.Idx → BitVec 32)

/-- Row numbers that are not negative are not wrapped around the table. -/
theorem wrap_eq (hb : S_.BroadcastsInDim S8x2048 ![]) (Y : IVec S8x2048 32) (h0 : ∀ j, 0 ≤ (idx j).toInt) :
    select (cmpi .slt idx (broadcastInDim S8x2048 ![] hb (constantI S_ 32 0#32))) (addi idx Y) idx = idx := by
  funext j
  show Scalar.select (IntOp.cmpi .slt (idx j) 0#32) (IntOp.addi (idx j) (Y j)) (idx j) = idx j
  rw [cmpi_slt_zero (h0 j), select_zero]

/-- The test "0 ≤ row number ≤ last row", reduced by "and" over the index vector's one component, is 1 everywhere. -/
theorem range_ones (hb2 : S8x2048.BroadcastsInDim S8x2048x1 ![0, 1]) (hb3 : S_.BroadcastsInDim S8x2048x1 ![])
    (hb4 : S1.BroadcastsInDim S1x1x1 ![2]) (hb5 : S1x1x1.BroadcastsInDim S8x2048x1 ![0, 1, 2])
    (hr : S8x2048x1.ReducesTo [2] S8x2048) (hu : 0 < S_.numel) (cM : BitVec 32)
    (h : ∀ j, 0 ≤ (idx j).toInt ∧ (idx j).toInt ≤ cM.toInt) :
    Host.reduce IntOp.andi
        (andi (cmpi .sge (broadcastInDim S8x2048x1 ![0, 1] hb2 idx) (broadcastInDim S8x2048x1 ![] hb3 (constantI S_ 32 0#32)))
          (cmpi .sle (broadcastInDim S8x2048x1 ![0, 1] hb2 idx)
            (broadcastInDim S8x2048x1 ![0, 1, 2] hb5 (broadcastInDim S1x1x1 ![2] hb4 (constantI S1 32 cM)))))
        (constantI S_ 1 1#1) hr hu
      = fun _ => 1#1 := by
  funext j
  refine reduce_andi_ones _ _ hr hu rfl (fun k => ?_) j
  obtain ⟨j', hj'⟩ : ∃ j', broadcastInDim S8x2048x1 ![0, 1] hb2 idx k = idx j' := ⟨_, rfl⟩
  show IntOp.andi (IntOp.cmpi .sge (broadcastInDim S8x2048x1 ![0, 1] hb2 idx k) 0#32)
    (IntOp.cmpi .sle (broadcastInDim S8x2048x1 ![0, 1] hb2 idx k) cM) = 1#1
  rw [hj', cmpi_sge_zero (h j').1, cmpi_sle_of_le (h j').2]
  rfl

/-- A select on an array of ones takes its first operand. -/
theorem select_ones {α : Type} (hb6 : S8x2048.BroadcastsInDim S8x2048x512 ![0, 1]) (A B : S8x2048x512.Idx → α) :
    select (broadcastInDim S8x2048x512 ![0, 1] hb6 (fun _ : S8x2048.Idx => (1#1 : BitVec 1))) A B = A := by
  funext i
  exact select_one (A i) (B i)

/-- The lookup at (b, s, e) reads row idx[b, s] of the table at e. -/
theorem rows_eq {N : ℕ} (hN : 0 < N)
    (wf : GatherDims.WF ⟨2, ![N, 512]⟩ ⟨3, ![8, 2048, 1]⟩ ⟨3, ![8, 2048, 512]⟩ [2] [0] [] [0] [] 2 ![1, 512])
    (hb2 : S8x2048.BroadcastsInDim S8x2048x1 ![0, 1]) (tab : (⟨2, ![N, 512]⟩ : Shape).Idx → EReal)
    (h : ∀ j, 0 ≤ (idx j).toInt ∧ (idx j).toInt < N) (i : S8x2048x512.Idx) :
    Host.gather (rowDims N wf) tab (broadcastInDim S8x2048x1 ![0, 1] hb2 idx) i
      = tab (ix2 (⟨(idx (ix2 (i 0) (i 1))).toNat % N, Nat.mod_lt _ hN⟩ : Fin N) (i 2)) := by
  rw [gather_rows_apply hN]
  have hb : broadcastInDim S8x2048x1 ![0, 1] hb2 idx (ix3 (i 0) (i 1) (0 : Fin 1)) = idx (ix2 (i 0) (i 1)) :=
    broadcastInDim_apply _ hb2 idx _ _ (fun a => by match a with | ⟨0, _⟩ => rfl | ⟨1, _⟩ => rfl)
  obtain ⟨h0, h1⟩ := h (ix2 (i 0) (i 1))
  have e := toInt_eq_toNat_of_nonneg h0
  refine congrArg tab (congrArg (fun r => ix2 r (i 2)) (Fin.ext ?_))
  show min (broadcastInDim S8x2048x1 ![0, 1] hb2 idx (ix3 (i 0) (i 1) (0 : Fin 1))).toInt.toNat (N - 1)
    = (idx (ix2 (i 0) (i 1))).toNat % N
  rw [hb, e, Int.toNat_natCast, Nat.mod_eq_of_lt (by omega)]
  omega

end Chain

/-! ## The host lines read at an index -/

/-- Row 2048 b + s of the flattened arrays is row s of batch b. -/
abbrev flatRow (b : Fin 8) (s : Fin 2048) : Fin 16384 := ⟨2048 * b.val + s.val, by have := b.isLt; have := s.isLt; omega⟩

/-- Region 0 finds the weight as launched. -/
theorem entry_arg7 (c : Dev nD) : V3 m c main_arg7 = m ((c.tc : Thread nD τ).loc main_arg7) :=
  (V3_of m c main_arg7 (by decide)).trans <| (V2_of m c main_arg7 (by decide)).trans <| (V1_of m c main_arg7 (by decide)).trans rfl

/-- Region 1 finds the mask as launched. -/
theorem entry_arg3 (outs : Gen.Outs (F := Ideal)) (c : Dev nD) : V5 m outs c main_arg3 = m ((c.tc : Thread nD τ).loc main_arg3) :=
  (V5_of m outs c main_arg3 (by decide)).trans <| (V4_of m outs c main_arg3 (by decide)).trans <|
    (V3_of m c main_arg3 (by decide)).trans <| (V2_of m c main_arg3 (by decide)).trans <| (V1_of m c main_arg3 (by decide)).trans rfl

/-- Region 0 finds the hidden array flattened: its row 2048 b + s is the hidden array's row (b, s). -/
theorem entry_v2 (c : Dev nD) (b : Fin 8) (s : Fin 2048) (e : Fin 512) :
    (V3 m c main_v2 : S16384x512.Idx → EReal) (ix2 (flatRow b s) e)
      = (m ((c.tc : Thread nD τ).loc main_arg2) : S8x2048x512.Idx → EReal) (ix3 b s e) := by
  show StableHlo.after hostOps0_2 _ (Proc.devRef .tc main_v2) _ = _
  after_results
  show shapeCast S16384x512 (m ((c.tc : Thread nD τ).loc main_arg2) : S8x2048x512.Idx → EReal) _ (ix2 (flatRow b s) e) = _
  refine shapeCast_apply _ _ _ (ix3 b s e) ?_
  rw [Shape.rowMajor_val_three, Shape.rowMajor_val_two]
  show (b.val * 2048 + s.val) * 512 + e.val = (2048 * b.val + s.val) * 512 + e.val
  omega

/-- Region 1 finds, as its queries, region 0's result given the shape (batch, row, feature). -/
theorem entry_v4 (outs : Gen.Outs (F := Ideal)) (c : Dev nD) (i : S8x2048x512.Idx) :
    (V5 m outs c main_v4 : S8x2048x512.Idx → EReal) i
      = (outs 4 main_v3 c : S16384x512.Idx → EReal) (ix2 (flatRow (i 0) (i 1)) (i 2)) := by
  show StableHlo.after hostOps1 _ (Proc.devRef .tc main_v4) _ = _
  after_results
  show shapeCast S8x2048x512 (Function.update (V3 m c) main_v3 (outs 4 main_v3 c) main_v3 : S16384x512.Idx → EReal) _ i = _
  rw [Function.update_self]
  refine shapeCast_apply _ _ _ (ix2 (flatRow (i 0) (i 1)) (i 2)) ?_
  rw [Shape.rowMajor_val_three, Shape.rowMajor_val_two]
  show (2048 * (i 0).val + (i 1).val) * 512 + (i 2).val = ((i 0).val * 2048 + (i 1).val) * 512 + (i 2).val
  omega

/-- Region 1 finds, as its keys, the rows of the key table the first index array names. -/
theorem entryK (outs : Gen.Outs (F := Ideal)) (c : Dev nD)
    (hks : ∀ j : S8x2048.Idx, 0 ≤ ((m ((c.tc : Thread nD τ).loc main_arg0) : S8x2048.Idx → BitVec 32) j).toInt
      ∧ ((m ((c.tc : Thread nD τ).loc main_arg0) : S8x2048.Idx → BitVec 32) j).toInt < 32000) :
    (V5 m outs c main_v0 : S8x2048x512.Idx → EReal)
      = Cert.Spec.rowsK (m ((c.tc : Thread nD τ).loc main_arg5)) (m ((c.tc : Thread nD τ).loc main_arg0)) := by
  refine ((V5_of m outs c main_v0 (by decide)).trans <| (V4_of m outs c main_v0 (by decide)).trans <|
    (V3_of m c main_v0 (by decide)).trans <| (V2_of m c main_v0 (by decide))).trans ?_
  show StableHlo.after hostOps0 _ (Proc.devRef .tc main_v0) = _
  after_results_simp
  simp only [StableHlo.TRef.ofBuf, StableHlo.TRef.toBuf, cast_eq]
  have h31 : (31999#32 : BitVec 32).toInt = 31999 := by decide
  have hk : ∀ j : S8x2048.Idx, 0 ≤ ((V0 m c (Proc.devRef .tc main_arg0) : S8x2048.Idx → BitVec 32) j).toInt
      ∧ ((V0 m c (Proc.devRef .tc main_arg0) : S8x2048.Idx → BitVec 32) j).toInt < 32000 := hks
  rw [wrap_eq (V0 m c (Proc.devRef .tc main_arg0)) _ _ (fun j => (hk j).1),
    range_ones (V0 m c (Proc.devRef .tc main_arg0)) _ _ _ _ _ _ 31999#32
      (fun j => ⟨(hk j).1, by have := (hk j).2; omega⟩),
    select_ones]
  funext i
  rw [show gather_S32000x512_S8x2048x1_S8x2048x512_2_0_n_n_0_2_1512 = rowDims 32000 _ from rfl,
    rows_eq (V0 m c (Proc.devRef .tc main_arg0)) (by decide) _ _ _ (fun j => ⟨(hk j).1, by exact_mod_cast (hk j).2⟩) i]
  rfl

/-- Region 1 finds, as its values, the rows of the value table the second index array names. -/
theorem entryV (outs : Gen.Outs (F := Ideal)) (c : Dev nD)
    (hvs : ∀ j : S8x2048.Idx, 0 ≤ ((m ((c.tc : Thread nD τ).loc main_arg1) : S8x2048.Idx → BitVec 32) j).toInt
      ∧ ((m ((c.tc : Thread nD τ).loc main_arg1) : S8x2048.Idx → BitVec 32) j).toInt < 128) :
    (V5 m outs c main_v1 : S8x2048x512.Idx → EReal)
      = Cert.Spec.rowsV (m ((c.tc : Thread nD τ).loc main_arg6)) (m ((c.tc : Thread nD τ).loc main_arg1)) := by
  refine ((V5_of m outs c main_v1 (by decide)).trans <| (V4_of m outs c main_v1 (by decide)).trans <|
    (V3_of m c main_v1 (by decide))).trans ?_
  show StableHlo.after hostOps0_1 _ (Proc.devRef .tc main_v1) = _
  after_results_simp
  simp only [StableHlo.TRef.ofBuf, StableHlo.TRef.toBuf, cast_eq]
  have h127 : (127#32 : BitVec 32).toInt = 127 := by decide
  have hv : ∀ j : S8x2048.Idx, 0 ≤ ((V0 m c (Proc.devRef .tc main_arg1) : S8x2048.Idx → BitVec 32) j).toInt
      ∧ ((V0 m c (Proc.devRef .tc main_arg1) : S8x2048.Idx → BitVec 32) j).toInt < 128 := hvs
  rw [wrap_eq (V0 m c (Proc.devRef .tc main_arg1)) _ _ (fun j => (hv j).1),
    range_ones (V0 m c (Proc.devRef .tc main_arg1)) _ _ _ _ _ _ 127#32
      (fun j => ⟨(hv j).1, by have := (hv j).2; omega⟩),
    select_ones]
  funext i
  rw [show gather_S128x512_S8x2048x1_S8x2048x512_2_0_n_n_0_2_1512 = rowDims 128 _ from rfl,
    rows_eq (V0 m c (Proc.devRef .tc main_arg1)) (by decide) _ _ _ (fun j => ⟨(hv j).1, by exact_mod_cast (hv j).2⟩) i]
  rfl

/-- The projection of a flattened array at row 2048 b + s is the projection of the array it flattens at (b, s). -/
theorem projFlat_flat (x : Cert.Spec.Sre.Idx → EReal) (h : Cert.Spec.Sbse.Idx → EReal) (w : Cert.Spec.Sde.Idx → EReal)
    (hx : ∀ b s e, x (ix2 (flatRow b s) e) = h (ix3 b s e)) (i : Cert.Spec.Sbse.Idx) :
    Cert.Spec.projFlat x w (ix2 (flatRow (i 0) (i 1)) (i 2)) = Cert.Spec.proj h w i := by
  show ∑ d : Fin 512, x (ix2 (flatRow (i 0) (i 1)) d) * w (ix2 d (i 2)) = ∑ d : Fin 512, h (ix3 (i 0) (i 1) d) * w (ix2 d (i 2))
  exact Finset.sum_congr rfl fun d _ => congrArg (fun t => t * w (ix2 d (i 2))) (hx (i 0) (i 1) d)

/-- Region 1 finds, as its queries, the projection of the hidden array: region 0's result at row 2048 b + s is the
    product of the hidden array's row (b, s) with the weight. -/
theorem entryQ (outs : Gen.Outs (F := Ideal)) (hok : OutsOK m outs) (c : Dev nD) :
    (V5 m outs c main_v4 : S8x2048x512.Idx → EReal)
      = Cert.Spec.proj (m ((c.tc : Thread nD τ).loc main_arg2)) (m ((c.tc : Thread nD τ).loc main_arg7)) := by
  funext i
  refine (entry_v4 m outs c i).trans ?_
  rw [hok.region0 c, proj_value (VR0 m) c]
  have e7 : (V3 m c main_arg7 : Cert.Spec.Sde.Idx → EReal) = m ((c.tc : Thread nD τ).loc main_arg7) := entry_arg7 m c
  exact (projFlat_flat (V3 m c main_v2) (m ((c.tc : Thread nD τ).loc main_arg2)) (V3 m c main_arg7) (entry_v2 m c) i).trans
    (congrArg (fun w => Cert.Spec.proj (m ((c.tc : Thread nD τ).loc main_arg2)) w i) e7)

end HostLines

open HostLines

/-! ## The kernel program's result -/

theorem kernel_value (outs : Gen.Outs (F := Ideal)) (hok : OutsOK m outs) (c : Dev nD)
    (hks : ∀ j : S8x2048.Idx, 0 ≤ ((m ((c.tc : Thread nD τ).loc main_arg0) : S8x2048.Idx → BitVec 32) j).toInt
      ∧ ((m ((c.tc : Thread nD τ).loc main_arg0) : S8x2048.Idx → BitVec 32) j).toInt < 32000)
    (hvs : ∀ j : S8x2048.Idx, 0 ≤ ((m ((c.tc : Thread nD τ).loc main_arg1) : S8x2048.Idx → BitVec 32) j).toInt
      ∧ ((m ((c.tc : Thread nD τ).loc main_arg1) : S8x2048.Idx → BitVec 32) j).toInt < 128) :
    (outs 6 main_v5 c : S8x2048x512.Idx → EReal)
      = Cert.Spec.attnMul
          (Cert.Spec.proj (m ((c.tc : Thread nD τ).loc main_arg2)) (m ((c.tc : Thread nD τ).loc main_arg7)))
          (Cert.Spec.rowsK (m ((c.tc : Thread nD τ).loc main_arg5)) (m ((c.tc : Thread nD τ).loc main_arg0)))
          (Cert.Spec.rowsV (m ((c.tc : Thread nD τ).loc main_arg6)) (m ((c.tc : Thread nD τ).loc main_arg1)))
          (m ((c.tc : Thread nD τ).loc main_arg3)) Cert.Spec.invScale := by
  rw [hok.region1 c, attn_value (VR1 m outs) c]
  show Cert.Spec.attnMul (V5 m outs c main_v4) (V5 m outs c main_v0) (V5 m outs c main_v1) (V5 m outs c main_arg3)
    Cert.Spec.invScale = _
  rw [entryQ m outs hok c, entryK m outs c hks, entryV m outs c hvs, entry_arg3 m outs c]

end Cert.KernelIdeal.Hand

end
-- ==== Proof.Algebra.lean ====
/-
  The two arrangements of the specification agree on real-valued arrays.

  Every array entry is the image of a real number, so every intermediate quantity is one too: products and
  finite sums of reals, the exponential of a real, a real clipped to the unit interval.  Each weight is then a
  real that is not negative, the total weight plus the small added constant is a real L > 0, and dividing by L is
  multiplying by its reciprocal.  Dividing a score by D = 11863283 / 2^19 is multiplying it by 2^19 / 11863283,
  so both arrangements use the same weights, and
      (sum over t of p t * v t) * (1 / L)  =  sum over t of (p t * (1 / L)) * v t
  is the distributive law in the reals.
-/
import proofs.«420923_j80255758893374_1_alg».proof.Proof.Spec

noncomputable section

open scoped BigOperators

namespace Cert.Spec

open Idealize.ShloMosaic Idealize.ShloMosaic.ValueIdx

/-! ### The law in the reals -/

/-- Scaling a weighted sum by a constant is the weighted sum with every weight scaled. -/
theorem sum_mul_scale {ι : Type} [Fintype ι] (p v : ι → ℝ) (c : ℝ) :
    (∑ t, p t * v t) * c = ∑ t, (p t * c) * v t := by
  rw [Finset.sum_mul]
  exact Finset.sum_congr rfl fun t _ => by ring

/-! ### Reals inside the extended reals -/

/-- The image of a finite sum of reals is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of real images is the image of the real sum of products. -/
theorem sum_coe_mul_coe {ι : Type} [Fintype ι] (f g : ι → ℝ) :
    (∑ i, (f i : EReal) * (g i : EReal)) = ((∑ i, f i * g i : ℝ) : EReal) := by
  rw [coe_sum]
  exact Finset.sum_congr rfl fun i _ => (EReal.coe_mul _ _).symm

/-! ### The constants -/

/-- The word of 1.0 denotes the real one. -/
theorem word_one : Ideal.ofBits .f32 0x3F800000#32 = ((1 : ℝ) : EReal) := by
  simp [Ideal.ofBits, Ideal.ieee, -EReal.coe_mul]; norm_num

/-- The word of 0.0 denotes the real zero. -/
theorem word_zero : Ideal.ofBits .f32 0x00000000#32 = ((0 : ℝ) : EReal) := by
  simp [Ideal.ofBits, Ideal.ieee]

/-- The added constant is the real 14411519 / 2^57: sign 0, exponent field 93, fraction field 6022911. -/
theorem eps_eq : eps = ((14411519 / 2 ^ 57 : ℝ) : EReal) := by
  unfold eps
  simp [Ideal.ofBits, Ideal.ieee, -EReal.coe_mul]; norm_num

/-- The divisor is the real 11863283 / 2^19: sign 0, exponent field 131, fraction field 3474675. -/
theorem scaleD_eq : scaleD = ((11863283 / 524288 : ℝ) : EReal) := by
  unfold scaleD
  simp [Ideal.ofBits, Ideal.ieee, -EReal.coe_mul]; norm_num

/-- Dividing by D is multiplying by the named factor 1 / D, for every extended real. -/
theorem div_scaleD (u : EReal) : Ideal.div u scaleD = u * invScale := by
  rw [scaleD_eq, Ideal.div_coe (by norm_num), invScale]
  congr 2
  norm_num

/-- The two unnormalised weights are the same function. -/
theorem weightDiv_eq_weightMul (Q K : Sbse.Idx → EReal) (mk : Sbst.Idx → EReal) (b : Fin 8) (s t : Fin 2048) :
    weightDiv Q K mk scaleD b s t = weightMul Q K mk invScale b s t := by
  unfold weightDiv weightMul
  rw [div_scaleD]

/-! ### Real values of the intermediates -/

/-- The clip of a real is the real clipped. -/
theorem clip01_coe (r : ℝ) : clip01 (r : EReal) = ((min 1 (max 0 r) : ℝ) : EReal) := by
  unfold clip01
  rw [word_one, word_zero, ← EReal.coe_strictMono.monotone.map_max, ← EReal.coe_strictMono.monotone.map_min]

/-- The score of real-valued queries and keys is the real score. -/
theorem score_coe (q k : Sbse.Idx → ℝ) (b : Fin 8) (s t : Fin 2048) :
    score (fun i => (q i : EReal)) (fun i => (k i : EReal)) b s t
      = ((∑ e : Fin 512, q (ix3 b s e) * k (ix3 b t e) : ℝ) : EReal) := by
  unfold score
  exact sum_coe_mul_coe _ _

/-- The real unnormalised weight. -/
def wR (q k : Sbse.Idx → ℝ) (m : Sbst.Idx → ℝ) (b : Fin 8) (s t : Fin 2048) : ℝ :=
  Real.exp ((∑ e : Fin 512, q (ix3 b s e) * k (ix3 b t e)) * (524288 / 11863283)) * min 1 (max 0 (m (ix3 b s t)))

theorem wR_nonneg (q k : Sbse.Idx → ℝ) (m : Sbst.Idx → ℝ) (b : Fin 8) (s t : Fin 2048) : 0 ≤ wR q k m b s t :=
  mul_nonneg (Real.exp_pos _).le (le_min zero_le_one (le_max_left _ _))

/-- The weight of real-valued arrays is the real weight. -/
theorem weightMul_coe (q k : Sbse.Idx → ℝ) (m : Sbst.Idx → ℝ) (b : Fin 8) (s t : Fin 2048) :
    weightMul (fun i => (q i : EReal)) (fun i => (k i : EReal)) (fun i => (m i : EReal)) invScale b s t
      = ((wR q k m b s t : ℝ) : EReal) := by
  unfold weightMul wR invScale
  rw [score_coe, clip01_coe, ← EReal.coe_mul, Ideal.exp_coe, ← EReal.coe_mul]

/-! ### The two theorems -/

theorem proj_real (h : Sbse.Idx → EReal) (w : Sde.Idx → EReal) (hh : ∀ i, ∃ r : ℝ, h i = (r : EReal)) (hw : ∀ i, ∃ r : ℝ, w i = (r : EReal)) :
    ∀ i, ∃ r : ℝ, proj h w i = (r : EReal) := by
  intro i
  choose hr hhr using hh
  choose wr hwr using hw
  refine ⟨∑ d : Fin 512, hr (ix3 (i 0) (i 1) d) * wr (ix2 d (i 2)), ?_⟩
  unfold proj
  rw [← sum_coe_mul_coe]
  exact Finset.sum_congr rfl fun d _ => by rw [hhr, hwr]

theorem rowsK_real (E : SKtab.Idx → EReal) (ks : Sbs.Idx → BitVec 32) (hE : ∀ i, ∃ r : ℝ, E i = (r : EReal)) :
    ∀ i, ∃ r : ℝ, rowsK E ks i = (r : EReal) := fun i => hE _

theorem rowsV_real (E : SVtab.Idx → EReal) (vs : Sbs.Idx → BitVec 32) (hE : ∀ i, ∃ r : ℝ, E i = (r : EReal)) :
    ∀ i, ∃ r : ℝ, rowsV E vs i = (r : EReal) := fun i => hE _

/-- The agreement at one output entry: batch b, query row s, feature e. -/
theorem attn_entry (q k v : Sbse.Idx → ℝ) (m : Sbst.Idx → ℝ) (b : Fin 8) (s : Fin 2048) (e : Fin 512) :
    Ideal.div
        (∑ t : Fin 2048, weightMul (fun i => (q i : EReal)) (fun i => (k i : EReal)) (fun i => (m i : EReal)) invScale b s t
          * (v (ix3 b t e) : EReal))
        ((∑ t : Fin 2048, weightMul (fun i => (q i : EReal)) (fun i => (k i : EReal)) (fun i => (m i : EReal)) invScale b s t)
          + eps)
      = ∑ t : Fin 2048,
          Ideal.div (weightDiv (fun i => (q i : EReal)) (fun i => (k i : EReal)) (fun i => (m i : EReal)) scaleD b s t)
            ((∑ t' : Fin 2048, weightDiv (fun i => (q i : EReal)) (fun i => (k i : EReal)) (fun i => (m i : EReal)) scaleD b s t')
              + eps)
          * (v (ix3 b t e) : EReal) := by
  simp only [weightDiv_eq_weightMul, weightMul_coe]
  -- the total weight plus the added constant is a positive real
  have hL : (0 : ℝ) < (∑ t : Fin 2048, wR q k m b s t) + 14411519 / 2 ^ 57 :=
    add_pos_of_nonneg_of_pos (Finset.sum_nonneg fun t _ => wR_nonneg q k m b s t) (by norm_num)
  rw [← coe_sum, eps_eq, ← EReal.coe_add, Ideal.div_coe hL.ne', sum_coe_mul_coe, ← EReal.coe_mul, sum_mul_scale]
  rw [coe_sum]
  refine Finset.sum_congr rfl fun t _ => ?_
  rw [Ideal.div_coe hL.ne', EReal.coe_mul, EReal.coe_mul]

theorem attnMul_eq_attnDiv (Q K V : Sbse.Idx → EReal) (mk : Sbst.Idx → EReal)
    (hQ : ∀ i, ∃ r : ℝ, Q i = (r : EReal)) (hK : ∀ i, ∃ r : ℝ, K i = (r : EReal)) (hV : ∀ i, ∃ r : ℝ, V i = (r : EReal))
    (hmk : ∀ i, ∃ r : ℝ, mk i = (r : EReal)) :
    attnMul Q K V mk invScale = attnDiv Q K V mk scaleD := by
  choose q hq using hQ
  choose k hk using hK
  choose v hv using hV
  choose m hm using hmk
  obtain rfl : Q = fun i => (q i : EReal) := funext hq
  obtain rfl : K = fun i => (k i : EReal) := funext hk
  obtain rfl : V = fun i => (v i : EReal) := funext hv
  obtain rfl : mk = fun i => (m i : EReal) := funext hm
  funext i
  exact attn_entry q k v m (i 0) (i 1) (i 2)

end Cert.Spec

end
-- ==== Proof.RefValue.lean ====
/-
  The reference program's result term is the specification's attnDiv of the argument arrays, when the two index arrays
  are within the tables' ranges.
-/
import proofs.«420923_j80255758893374_1_alg».proof.Proof.Gen.ReferenceIdeal.Read
import proofs.«420923_j80255758893374_1_alg».proof.Proof.Spec

noncomputable section

open scoped BigOperators

namespace Cert.ReferenceIdeal.RefValue

open Cert.ReferenceIdeal Cert.ReferenceIdeal.Gen Idealize.ShloMosaic Idealize.ShloMosaic.TcCoe Idealize.ShloMosaic.ValueIdx

/-! ## A row lookup: the gather of a rank-2 table at a column of row numbers -/

section Row
variable {α : Type}

/-- The dimension numbers of `table[idx]` for a table `[N, L]` and row numbers `[R, C]` kept as `[R, C, 1]`: the
    table's first axis is collapsed and indexed, its second axis is copied whole to the result's last axis. -/
abbrev rowDims (N L R C : Nat)
    (wf : GatherDims.WF ⟨2, ![N, L]⟩ ⟨3, ![R, C, 1]⟩ ⟨3, ![R, C, L]⟩ [2] [0] [] [0] [] 2 ![1, L]) :
    GatherDims ⟨2, ![N, L]⟩ ⟨3, ![R, C, 1]⟩ ⟨3, ![R, C, L]⟩ where
  offsetDims := [2]
  collapsedSliceDims := [0]
  operandBatchingDims := []
  startIndicesBatchingDims := []
  startIndexMap := [0]
  indexVectorDim := 2
  sliceSizes := ![1, L]
  wf := wf

/-- The lookup read at `(b, s, e)`: entry `e` of the table's row `idx[b, s, 0]`, the row number read signed and
    clamped into `[0, N - 1]`. -/
theorem gather_row_apply {N L R C w : Nat} (hN : 0 < N)
    (wf : GatherDims.WF ⟨2, ![N, L]⟩ ⟨3, ![R, C, 1]⟩ ⟨3, ![R, C, L]⟩ [2] [0] [] [0] [] 2 ![1, L])
    (x : (⟨2, ![N, L]⟩ : Shape).Idx → α) (idx : IVec ⟨3, ![R, C, 1]⟩ w) (b : Fin R) (s : Fin C) (e : Fin L) :
    Host.gather (rowDims N L R C wf) x idx (ix3 b s e)
      = x (ix2 ⟨min (idx (ix3 b s (0 : Fin 1))).toInt.toNat (N - 1), by omega⟩ e) := by
  unfold Host.gather
  congr 1
  funext a
  refine Fin.ext ?_
  match a with
  | ⟨0, _⟩ =>
    -- the indexed axis: no batch and no offset part, the start is the clamped row number
    show (rowDims N L R C wf).start (ix3 b s e) idx 0 + (rowDims N L R C wf).batchCoord (ix3 b s e) 0
        + (rowDims N L R C wf).offCoord (ix3 b s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N L R C wf).startIndexMap from List.mem_singleton.mpr rfl)]
    have hsi : (rowDims N L R C wf).siIdx (ix3 b s e) ⟨List.idxOf (0 : Fin 2) (rowDims N L R C wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    -- the copied axis: start zero, no batch part, the offset is the result's last coordinate
    show (rowDims N L R C wf).start (ix3 b s e) idx 1 + (rowDims N L R C wf).batchCoord (ix3 b s e) 1
        + (rowDims N L R C wf).offCoord (ix3 b s e) 1 = e.val
    rw [GatherDims.batchCoord_eq_zero _ _ _ List.not_mem_nil]
    unfold GatherDims.start
    rw [dif_neg (show ¬ (1 : Fin 2) ∈ (rowDims N L R C wf).startIndexMap from
      fun h => absurd (List.mem_singleton.mp h) (show (1 : Fin 2) ≠ 0 by decide))]
    unfold GatherDims.offCoord
    rw [dif_pos (show (1 : Fin 2) ∈ (rowDims N L R C wf).sKept from
      (GatherDims.mem_sKept _ _).mpr ⟨fun h => absurd (List.mem_singleton.mp h) (show (1 : Fin 2) ≠ 0 by decide), List.not_mem_nil⟩)]
    simp only [Nat.zero_add, Nat.add_zero]
    rfl

end Row

/-! ## Row numbers within range -/

/-- A word that is not negative as a signed integer is not below zero. -/
theorem slt_zero_of_nonneg (x : BitVec 32) (h : 0 ≤ x.toInt) : IntOp.cmpi .slt x 0#32 = 0#1 := by
  unfold IntOp.cmpi
  have hf : x.slt 0#32 = false := by
    simp only [BitVec.slt, BitVec.toInt_zero, decide_eq_false_iff_not, not_lt]
    exact h
  show BitVec.ofBool (x.slt 0#32) = 0#1
  rw [hf]
  rfl

/-- A word whose signed value lies in `[0, n)`: clamping that value into `[0, n - 1]` changes nothing, and it is the
    word's unsigned value, already below `n`. -/
theorem clamp_row (x : BitVec 32) (n : Nat) (h0 : 0 ≤ x.toInt) (h1 : x.toInt < n) :
    min x.toInt.toNat (n - 1) = x.toNat % n := by
  have hx := x.isLt
  have hxi : x.toInt = (x.toNat : Int) := by
    have := BitVec.toInt_eq_toNat_cond x
    split at this <;> omega
  rw [hxi] at h1
  rw [hxi, Int.toNat_natCast, Nat.mod_eq_of_lt (by omega)]
  omega

section Reads

variable (a0 a1 : S8x2048.Idx → BitVec 32) (a5 : S32000x512.Idx → EReal) (a6 : S128x512.Idx → EReal)

/-- The key row numbers as the lookup receives them: within range, the wrap-around of a negative number is not taken. -/
theorem v5_at (hks : ∀ j, 0 ≤ (a0 j).toInt ∧ (a0 j).toInt < 32000) (b : Fin 8) (t : Fin 2048) :
    Read.val_main_v5 (F := Ideal) a0 (ix3 b t (0 : Fin 1)) = a0 (ix2 b t) := by
  have hj : Read.idx_main_v5 (ix3 b t (0 : Fin 1)) = ix2 b t :=
    funext fun a => by match a with | ⟨0, _⟩ => rfl | ⟨1, _⟩ => rfl
  rw [Read.val_main_v5_apply, Read.val_main_v4_apply, Read.val_main_v1_apply, hj, Read.val_main_v0_apply,
    Read.val_main_c_apply, slt_zero_of_nonneg _ (hks _).1, select_zero]

/-- The value row numbers, likewise. -/
theorem v12_at (hvs : ∀ j, 0 ≤ (a1 j).toInt ∧ (a1 j).toInt < 128) (b : Fin 8) (t : Fin 2048) :
    Read.val_main_v12 (F := Ideal) a1 (ix3 b t (0 : Fin 1)) = a1 (ix2 b t) := by
  have hj : Read.idx_main_v12 (ix3 b t (0 : Fin 1)) = ix2 b t :=
    funext fun a => by match a with | ⟨0, _⟩ => rfl | ⟨1, _⟩ => rfl
  rw [Read.val_main_v12_apply, Read.val_main_v11_apply, Read.val_main_v8_apply, hj, Read.val_main_v7_apply,
    Read.val_main_c_1_apply, slt_zero_of_nonneg _ (hvs _).1, select_zero]

/-- The gathered keys are the key table's rows. -/
theorem v6_at (hks : ∀ j, 0 ≤ (a0 j).toInt ∧ (a0 j).toInt < 32000) (b : Fin 8) (t : Fin 2048) (e : Fin 512) :
    Read.val_main_v6 (F := Ideal) a0 a5 (ix3 b t e) = Cert.Spec.rowsK a5 a0 (ix3 b t e) := by
  unfold Read.val_main_v6
  show Host.gather (rowDims 32000 512 8 2048 Facts₀.gather_S32000x512_S8x2048x1_S8x2048x512_2_0_n_n_0_2_1512_wf) a5
      (Read.val_main_v5 (F := Ideal) a0) (ix3 b t e) = _
  rw [gather_row_apply (by decide)]
  show _ = a5 (ix2 (⟨(a0 (ix2 b t)).toNat % 32000, Nat.mod_lt _ (by decide)⟩ : Fin 32000) e)
  refine congrArg (fun r => a5 (ix2 r e)) (Fin.ext ?_)
  show min (Read.val_main_v5 (F := Ideal) a0 (ix3 b t (0 : Fin 1))).toInt.toNat (32000 - 1) = _
  rw [v5_at a0 hks]
  exact clamp_row _ 32000 (hks _).1 (hks _).2

/-- The gathered values are the value table's rows. -/
theorem v13_at (hvs : ∀ j, 0 ≤ (a1 j).toInt ∧ (a1 j).toInt < 128) (b : Fin 8) (t : Fin 2048) (e : Fin 512) :
    Read.val_main_v13 (F := Ideal) a1 a6 (ix3 b t e) = Cert.Spec.rowsV a6 a1 (ix3 b t e) := by
  unfold Read.val_main_v13
  show Host.gather (rowDims 128 512 8 2048 Facts₀.gather_S128x512_S8x2048x1_S8x2048x512_2_0_n_n_0_2_1512_wf) a6
      (Read.val_main_v12 (F := Ideal) a1) (ix3 b t e) = _
  rw [gather_row_apply (by decide)]
  show _ = a6 (ix2 (⟨(a1 (ix2 b t)).toNat % 128, Nat.mod_lt _ (by decide)⟩ : Fin 128) e)
  refine congrArg (fun r => a6 (ix2 r e)) (Fin.ext ?_)
  show min (Read.val_main_v12 (F := Ideal) a1 (ix3 b t (0 : Fin 1))).toInt.toNat (128 - 1) = _
  rw [v12_at a1 hvs]
  exact clamp_row _ 128 (hvs _).1 (hvs _).2

end Reads

/-! ## The reference's stages read at an index -/

section Stages

open Cert.Spec

variable (a0 a1 : S8x2048.Idx → BitVec 32) (a2 : S8x2048x512.Idx → EReal) (a3 : S8x2048x2048.Idx → EReal)
  (a5 : S32000x512.Idx → EReal) (a6 : S128x512.Idx → EReal) (a7 : S512x512.Idx → EReal)

/-- The first product is the projection of the hidden array by the weight. -/
theorem v14_at (b : Fin 8) (s : Fin 2048) (e : Fin 512) :
    Read.val_main_v14 (F := Ideal) a2 a7 (ix3 b s e) = proj a2 a7 (ix3 b s e) := by
  rw [Read.val_main_v14_apply]
  show _ = ∑ d : Fin 512, a2 (ix3 b s d) * a7 (ix2 d e)
  refine Finset.sum_congr rfl fun k _ => ?_
  have hl : Read.lidx_main_v14 (ix3 b s e) k = ix3 b s k :=
    funext fun a => by match a with | ⟨0, _⟩ => rfl | ⟨1, _⟩ => rfl | ⟨2, _⟩ => rfl
  have hr : Read.ridx_main_v14 (ix3 b s e) k = ix2 k e :=
    funext fun a => by match a with | ⟨0, _⟩ => rfl | ⟨1, _⟩ => rfl
  rw [hl, hr]

/-- The second product is the raw score of a query row against a key row. -/
theorem v15_at (hks : ∀ j, 0 ≤ (a0 j).toInt ∧ (a0 j).toInt < 32000) (b : Fin 8) (s t : Fin 2048) :
    Read.val_main_v15 (F := Ideal) a0 a2 a5 a7 (ix3 b s t) = score (proj a2 a7) (rowsK a5 a0) b s t := by
  rw [Read.val_main_v15_apply]
  unfold score
  refine Finset.sum_congr rfl fun k _ => ?_
  have hl : Read.lidx_main_v15 (ix3 b s t) k = ix3 b s k :=
    funext fun a => by match a with | ⟨0, _⟩ => rfl | ⟨1, _⟩ => rfl | ⟨2, _⟩ => rfl
  have hr : Read.ridx_main_v15 (ix3 b s t) k = ix3 b t k :=
    funext fun a => by match a with | ⟨0, _⟩ => rfl | ⟨1, _⟩ => rfl | ⟨2, _⟩ => rfl
  rw [hl, hr, v14_at, v6_at a0 a5 hks]

/-- The clipped mask: the larger of zero and the entry, then the smaller of one and that. -/
theorem v18_at (i : S8x2048x2048.Idx) : Read.val_main_v18 (F := Ideal) a3 i = clip01 (a3 i) := by
  rw [Read.val_main_v18_apply, Read.val_main_call0_v4_apply, Read.val_main_call0_v3_apply, Read.val_main_cst_4_apply,
    Read.val_main_call0_v2_apply, Read.val_main_call0_v1_apply, Read.val_main_call0_v0_apply, Read.val_main_cst_3_apply]
  rfl

/-- The unnormalised weight: the exponential of the score divided by the constant, times the clipped mask. -/
theorem v20_at (hks : ∀ j, 0 ≤ (a0 j).toInt ∧ (a0 j).toInt < 32000) (b : Fin 8) (s t : Fin 2048) :
    Read.val_main_v20 (F := Ideal) a0 a2 a3 a5 a7 (ix3 b s t)
      = weightDiv (proj a2 a7) (rowsK a5 a0) a3 scaleD b s t := by
  rw [Read.val_main_v20_apply, Read.val_main_v19_apply, Read.val_main_v17_apply, v15_at a0 a2 a5 a7 hks,
    Read.val_main_v16_apply, Read.val_main_cst_apply, v18_at]
  rfl

/-- The total weight of a query row: the sum starts from the word of zero, which adds nothing. -/
theorem v21_at (hks : ∀ j, 0 ≤ (a0 j).toInt ∧ (a0 j).toInt < 32000) (b : Fin 8) (s : Fin 2048) :
    Read.val_main_v21 (F := Ideal) a0 a2 a3 a5 a7 (ix2 b s)
      = ∑ t : Fin 2048, weightDiv (proj a2 a7) (rowsK a5 a0) a3 scaleD b s t := by
  rw [Read.val_main_v21_apply, Read.val_main_cst_5_apply]
  show Ideal.ofBits .f32 0x00000000#32 + _ = _
  rw [Ideal.ofBits_zero_f32, zero_add]
  refine Finset.sum_congr rfl fun k _ => ?_
  have hi : Read.idx_main_v21 (ix2 b s) k = ix3 b s k :=
    funext fun a => by match a with | ⟨0, _⟩ => rfl | ⟨1, _⟩ => rfl | ⟨2, _⟩ => rfl
  rw [hi, v20_at a0 a2 a3 a5 a7 hks]

/-- The normalised weight: the weight divided by the row's total plus the small constant. -/
theorem v26_at (hks : ∀ j, 0 ≤ (a0 j).toInt ∧ (a0 j).toInt < 32000) (b : Fin 8) (s t : Fin 2048) :
    Read.val_main_v26 (F := Ideal) a0 a2 a3 a5 a7 (ix3 b s t)
      = Ideal.div (weightDiv (proj a2 a7) (rowsK a5 a0) a3 scaleD b s t)
          ((∑ t' : Fin 2048, weightDiv (proj a2 a7) (rowsK a5 a0) a3 scaleD b s t') + eps) := by
  have h25 : Read.idx_main_v25 (ix3 b s t) = ix3 b s (0 : Fin 1) :=
    funext fun a => by match a with | ⟨0, _⟩ => rfl | ⟨1, _⟩ => rfl | ⟨2, _⟩ => rfl
  have h22 : Read.idx_main_v22 (ix3 b s (0 : Fin 1)) = ix2 b s :=
    funext fun a => by match a with | ⟨0, _⟩ => rfl | ⟨1, _⟩ => rfl
  rw [Read.val_main_v26_apply, v20_at a0 a2 a3 a5 a7 hks, Read.val_main_v25_apply, h25, Read.val_main_v24_apply,
    Read.val_main_v22_apply, h22, v21_at a0 a2 a3 a5 a7 hks, Read.val_main_v23_apply, Read.val_main_cst_6_apply]
  rfl

end Stages

/-! ## The result -/

theorem ref_value (a0 a1 : S8x2048.Idx → BitVec 32) (a2 : S8x2048x512.Idx → EReal) (a3 : S8x2048x2048.Idx → EReal)
    (a5 : S32000x512.Idx → EReal) (a6 : S128x512.Idx → EReal) (a7 : S512x512.Idx → EReal)
    (hks : ∀ j, 0 ≤ (a0 j).toInt ∧ (a0 j).toInt < 32000) (hvs : ∀ j, 0 ≤ (a1 j).toInt ∧ (a1 j).toInt < 128) :
    Cert.ReferenceIdeal.Read.val_main_v27 (F := Ideal) a0 a1 a2 a3 a5 a6 a7
      = Cert.Spec.attnDiv (Cert.Spec.proj a2 a7) (Cert.Spec.rowsK a5 a0) (Cert.Spec.rowsV a6 a1) a3 Cert.Spec.scaleD := by
  funext i
  obtain ⟨b, s, e, rfl⟩ : ∃ b s e, i = ix3 b s e := ⟨i 0, i 1, i 2, eq_ix3 i⟩
  rw [Read.val_main_v27_apply]
  show _ = ∑ t : Fin 2048,
    Ideal.div (Cert.Spec.weightDiv (Cert.Spec.proj a2 a7) (Cert.Spec.rowsK a5 a0) a3 Cert.Spec.scaleD b s t)
      ((∑ t' : Fin 2048, Cert.Spec.weightDiv (Cert.Spec.proj a2 a7) (Cert.Spec.rowsK a5 a0) a3 Cert.Spec.scaleD b s t')
        + Cert.Spec.eps) * Cert.Spec.rowsV a6 a1 (ix3 b t e)
  refine Finset.sum_congr rfl fun k _ => ?_
  have hl : Read.lidx_main_v27 (ix3 b s e) k = ix3 b s k :=
    funext fun a => by match a with | ⟨0, _⟩ => rfl | ⟨1, _⟩ => rfl | ⟨2, _⟩ => rfl
  have hr : Read.ridx_main_v27 (ix3 b s e) k = ix3 b k e :=
    funext fun a => by match a with | ⟨0, _⟩ => rfl | ⟨1, _⟩ => rfl | ⟨2, _⟩ => rfl
  rw [hl, hr, v26_at a0 a2 a3 a5 a7 hks, v13_at a1 a6 hvs]

end Cert.ReferenceIdeal.RefValue

end
-- ==== Proof.PreFacts.lean ====
/-
  What the precondition says of the argument arrays: every entry of the five float arrays is a real number, and every
  entry of the two index arrays is within its table's range.
-/
import proofs.«420923_j80255758893374_1_alg».proof.Pre_finite_inputs
import proofs.«420923_j80255758893374_1_alg».proof.Proof.Gen.Pre_finite_inputs
import Idealize.ShloMosaic.Lib.ReduceAll
import Idealize.ShloMosaic.Lib.ValueIdx
import Idealize.ShloMosaic.Lib.StableHlo.Predicate

noncomputable section

namespace Cert.PreFacts

open Cert.Pre_finite_inputs Idealize.ShloMosaic Idealize.ShloMosaic.ValueIdx

/-- The rank-0 shape has exactly one index. -/
instance : Subsingleton S_.Idx := ⟨fun a b => funext fun d => d.elim0⟩

/-- An extended real x with max x (-x) strictly below the value of the pattern 0x7F800000 (which is +∞) is neither
    infinity, hence a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A 32-bit word w with 0 ≤ w and w < n as signed compares (n below 2³¹) has its signed value in [0, n). -/
theorem range_of_cmp (w : BitVec 32) (n : Nat) (hn : n < 2 ^ 31)
    (h : IntOp.andi (IntOp.cmpi .sge w 0#32) (IntOp.cmpi .slt w (BitVec.ofNat 32 n)) = 1#1) :
    0 ≤ w.toInt ∧ w.toInt < n := by
  obtain ⟨h0, h1⟩ := IntOp.andi_eq_one.1 h
  unfold IntOp.cmpi at h0 h1
  rw [StableHlo.Predicate.ofBool_eq_one_iff] at h0 h1
  simp only [BitVec.sle, BitVec.slt, decide_eq_true_eq] at h0 h1
  rw [StableHlo.Predicate.toInt_ofNat_small n hn] at h1
  have z : (0#32 : BitVec 32).toInt = 0 := by decide
  rw [z] at h0
  exact ⟨h0, h1⟩

theorem pre_facts [Cert.Pre_finite_inputs.Facts] (a0 a1 : IVec S8x2048 32) (a2 : FVec Ideal S8x2048x512 .f32) (a3 : FVec Ideal S8x2048x2048 .f32)
    (a4 : IVec S1 32) (a5 : FVec Ideal S32000x512 .f32) (a6 : FVec Ideal S128x512 .f32) (a7 : FVec Ideal S512x512 .f32)
    (h : Cert.Pre_finite_inputs.fn (F := Ideal) a0 a1 a2 a3 a4 a5 a6 a7 = fun _ => 1#1) :
    (∀ i, ∃ r : ℝ, a2 i = (r : EReal)) ∧ (∀ i, ∃ r : ℝ, a3 i = (r : EReal)) ∧ (∀ i, ∃ r : ℝ, a5 i = (r : EReal))
      ∧ (∀ i, ∃ r : ℝ, a6 i = (r : EReal)) ∧ (∀ i, ∃ r : ℝ, a7 i = (r : EReal))
      ∧ (∀ j, 0 ≤ (a0 j).toInt ∧ (a0 j).toInt < 32000) ∧ (∀ j, 0 ≤ (a1 j).toInt ∧ (a1 j).toInt < 128) := by
  have e := congrFun h ValueIdx.ix0
  dsimp only [Cert.Pre_finite_inputs.fn, fn_part1, fn_part2] at e
  obtain ⟨e, e36⟩ := IntOp.andi_eq_one.1 e
  obtain ⟨e, e29⟩ := IntOp.andi_eq_one.1 e
  obtain ⟨e, e22⟩ := IntOp.andi_eq_one.1 e
  obtain ⟨e, e17⟩ := IntOp.andi_eq_one.1 e
  obtain ⟨e, e12⟩ := IntOp.andi_eq_one.1 e
  obtain ⟨e3, e7⟩ := IntOp.andi_eq_one.1 e
  refine ⟨fun i => ?_, fun i => ?_, fun i => ?_, fun i => ?_, fun i => ?_, fun j => ?_, fun j => ?_⟩
  · exact real_of_abs_lt_inf _ (Host.reduce_andi_all _ _ _ _ _ e3 i)
  · exact real_of_abs_lt_inf _ (Host.reduce_andi_all _ _ _ _ _ e7 i)
  · exact real_of_abs_lt_inf _ (Host.reduce_andi_all _ _ _ _ _ e12 i)
  · exact real_of_abs_lt_inf _ (Host.reduce_andi_all _ _ _ _ _ e17 i)
  · exact real_of_abs_lt_inf _ (Host.reduce_andi_all _ _ _ _ _ e22 i)
  · exact range_of_cmp _ 32000 (by norm_num) (Host.reduce_andi_all _ _ _ _ _ e29 j)
  · exact range_of_cmp _ 128 (by norm_num) (Host.reduce_andi_all _ _ _ _ _ e36 j)

end Cert.PreFacts

end
-- ==== Proof.lean ====
/-
  The kernel program computes masked attention: the queries are the hidden array times a weight matrix; the keys and
  values are rows of two embedding tables picked by integer arrays; the weight of key row t for query row s is
  exp (score / scale) times the mask entry clipped to the unit interval, and the result is the weighted sum of the
  value rows divided by the total weight plus a small constant. The kernel multiplies the score by the reciprocal of
  the scale (a constant named as exactly that reciprocal), sums the weighted values and the weights key tile by key
  tile, and divides once at the end; the reference divides the score by the scale, divides each weight by the total
  first and sums afterwards. On real-valued inputs the two agree: the quotient by a nonzero real is the product with
  its inverse, and a product with a constant moves across a finite sum. The index arrays are assumed within their
  tables' ranges, where both programs pick the same rows (outside it one fills a row with a fill value and the other
  clamps the index).

  The three frames: the kernel programs run their two regions through the pipeline (each region's body obligation
  against its proof data, the regions and host lines chained along the program), the reference is a straight line of
  host operations. The named constant's statement is the rule's own. The value claim joins the kernel's result,
  read off the second region's write-backs, to the reference's result term through one specification.
-/
import proofs.«420923_j80255758893374_1_alg».proof.Defs
import proofs.«420923_j80255758893374_1_alg».proof.Proof.Gen.Kernel
import proofs.«420923_j80255758893374_1_alg».proof.Proof.Gen.KernelIdeal
import proofs.«420923_j80255758893374_1_alg».proof.Proof.Gen.ReferenceIdeal
import proofs.«420923_j80255758893374_1_alg».proof.Proof.Gen.ReferenceIdeal.Run
import proofs.«420923_j80255758893374_1_alg».proof.Proof.Gen.ReferenceIdeal.Read
import proofs.«420923_j80255758893374_1_alg».proof.Proof.Gen.Pre_finite_inputs
import proofs.«420923_j80255758893374_1_alg».proof.Proof.Kernel.Launch
import proofs.«420923_j80255758893374_1_alg».proof.Proof.KernelIdeal.Launch
import proofs.«420923_j80255758893374_1_alg».proof.Proof.KernelIdeal.Host
import proofs.«420923_j80255758893374_1_alg».proof.Proof.Algebra
import proofs.«420923_j80255758893374_1_alg».proof.Proof.RefValue
import proofs.«420923_j80255758893374_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => by
  obtain ⟨outs, hok⟩ := Cert.Kernel.Hand.exists_outs (F := Bits) m
  exact (θ_run Cert.Kernel.defs _ _).mono (fun _ h c => (h c).2) (Cert.Kernel.Hand.run_main m ρ outs hok)

/-- The idealized kernel program runs and leaves its arguments as launched. -/
theorem frame_ki : Cert.frame_KernelIdeal := fun m ρ _ => by
  obtain ⟨outs, hok⟩ := Cert.KernelIdeal.Hand.exists_outs (F := Ideal) m
  exact (θ_run Cert.KernelIdeal.defs _ _).mono (fun _ h c => (h c).2) (Cert.KernelIdeal.Hand.run_main m ρ outs hok)

/-- The reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale's reciprocal is named, and the name denotes the exact reciprocal of
    the reference's divisor. -/
theorem preserves : Cert.preserves_Kernel_KernelIdeal :=
  IdealRules.named_const.statement Cert.KernelIdeal.κ "inv_scale" .f32 0x3D3504F3#32 ((524288 / 11863283 : ℝ) : EReal) rfl

/-- The two idealized programs end with equal results. -/
theorem algebraic : Cert.algebraic_KernelIdeal_ReferenceIdeal := by
  intro m ρ m' ρ' hpre hagree
  obtain ⟨outs, hok⟩ := Cert.KernelIdeal.Hand.exists_outs (F := Ideal) m
  refine ⟨fun c => outs 6 Cert.KernelIdeal.main_v5 c, Cert.KernelIdeal.Hand.run_main m ρ outs hok, ?_⟩
  refine (θ_run Cert.ReferenceIdeal.defs _ _).mono (fun _ h c => ⟨(h c).1.trans ?_, (h c).2⟩)
    (Cert.ReferenceIdeal.Value.run (F := Ideal) m' ρ')
  obtain ⟨h2, h3, h5, h6, h7, hks, hvs⟩ := Cert.PreFacts.pre_facts _ _ _ _ _ _ _ _ (hpre c)
  rw [Cert.ReferenceIdeal.Read.val_main_v27_eq, (hagree c).1, (hagree c).2.1, (hagree c).2.2.1, (hagree c).2.2.2.1,
    (hagree c).2.2.2.2.2.1, (hagree c).2.2.2.2.2.2.1, (hagree c).2.2.2.2.2.2.2]
  rw [Cert.ReferenceIdeal.RefValue.ref_value _ _ _ _ _ _ _ hks hvs]
  exact ((Cert.KernelIdeal.Hand.kernel_value m outs hok c hks hvs).trans
    (Cert.Spec.attnMul_eq_attnDiv _ _ _ _ (Cert.Spec.proj_real _ _ h2 h7) (Cert.Spec.rowsK_real _ _ h5)
      (Cert.Spec.rowsV_real _ _ h6) h3)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
